-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S1000x1000 .f32 .bf16
  ∧ IdealRules.named_const.Statement Cert.KernelIdeal.κ "inv_1000" .f32 0x3A83126F#32 ((1 / 1000 : ℝ) : EReal)
  ∧ IdealRules.named_const.Statement Cert.KernelIdeal.κ "inv_1000" .f32 0x3A83126F#32 ((1 / 1000 : ℝ) : EReal)
  ∧ IdealRules.named_const.Statement Cert.KernelIdeal.κ "inv_1000" .f32 0x3A83126F#32 ((1 / 1000 : ℝ) : EReal)
  ∧ IdealRules.named_const.Statement Cert.KernelIdeal.κ "inv_1000" .f32 0x3A83126F#32 ((1 / 1000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1000x256 : Shape := ⟨3, ![64, 1000, 256]⟩
abbrev S64x1000x1000 : Shape := ⟨3, ![64, 1000, 1000]⟩
abbrev S64x500 : Shape := ⟨2, ![64, 500]⟩
abbrev S64x500x1000 : Shape := ⟨3, ![64, 500, 1000]⟩
abbrev S256x256 : Shape := ⟨2, ![256, 256]⟩
abbrev S_ : Shape := ⟨0, ![]⟩

class Facts : Prop where
  bcast_S_S64x1000x256 : S_.BroadcastsInDim S64x1000x256 (![] : Fin 0 → Fin S64x1000x256.rank)
  reducesTo_S64x1000x256_S_d0_1_2 : S64x1000x256.ReducesTo [0, 1, 2] S_
  h_S_ : 0 < S_.numel
  bcast_S_S64x1000x1000 : S_.BroadcastsInDim S64x1000x1000 (![] : Fin 0 → Fin S64x1000x1000.rank)
  reducesTo_S64x1000x1000_S_d0_1_2 : S64x1000x1000.ReducesTo [0, 1, 2] S_
  bcast_S_S64x500x1000 : S_.BroadcastsInDim S64x500x1000 (![] : Fin 0 → Fin S64x500x1000.rank)
  reducesTo_S64x500x1000_S_d0_1_2 : S64x500x1000.ReducesTo [0, 1, 2] S_
  bcast_S_S256x256 : S_.BroadcastsInDim S256x256 (![] : Fin 0 → Fin S256x256.rank)
  reducesTo_S256x256_S_d0_1 : S256x256.ReducesTo [0, 1] S_
  bcast_S_S64x500 : S_.BroadcastsInDim S64x500 (![] : Fin 0 → Fin S64x500.rank)
  reducesTo_S64x500_S_d0_1 : S64x500.ReducesTo [0, 1] S_

variable [Facts]

def fn_part2 {F : FTy → Type} [FloatOps F] (main_arg2 : IVec S64x500 32) (main_v33 : IVec S_ 1) : IVec S_ 1 :=
  let main_c_12 : IVec S_ 32 := constantI S_ 32 0#32
  let main_v34 : IVec S64x500 32 := broadcastInDim S64x500 ![] bcast_S_S64x500 main_c_12
  let main_v35 : IVec S64x500 1 := cmpi .sge main_arg2 main_v34
  let main_c_13 : IVec S_ 1 := constantI S_ 1 1#1
  let main_v36 : IVec S_ 1 := (fun x v => Host.reduce IntOp.andi x v reducesTo_S64x500_S_d0_1 h_S_) main_v35 main_c_13
  let main_v37 : IVec S_ 1 := andi main_v33 main_v36
  let main_c_14 : IVec S_ 32 := constantI S_ 32 1000#32
  let main_v38 : IVec S64x500 32 := broadcastInDim S64x500 ![] bcast_S_S64x500 main_c_14
  let main_v39 : IVec S64x500 1 := cmpi .slt main_arg2 main_v38
  let main_c_15 : IVec S_ 1 := constantI S_ 1 1#1
  let main_v40 : IVec S_ 1 := (fun x v => Host.reduce IntOp.andi x v reducesTo_S64x500_S_d0_1 h_S_) main_v39 main_c_15
  let main_v41 : IVec S_ 1 := andi main_v37 main_v40
  main_v41

def fn_part1 {F : FTy → Type} [FloatOps F] (main_arg2 : IVec S64x500 32) (main_arg5 : FVec F S256x256 .f32) (main_arg6 : FVec F S256x256 .f32) (main_arg7 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_v33

def fn {F : FTy → Type} [FloatOps F] (main_arg0 : FVec F S64x1000x256 .f32) (main_arg1 : FVec F S64x1000x1000 .f32) (main_arg2 : IVec S64x500 32) (main_arg3 : FVec F S64x500x1000 .f32) (main_arg4 : FVec F S256x256 .f32) (main_arg5 : FVec F S256x256 .f32) (main_arg6 : FVec F S256x256 .f32) (main_arg7 : FVec F S256x256 .f32) : IVec S_ 1 :=
  let main_v0 : FVec F S64x1000x256 .f32 := Host.absf main_arg0
  let main_cst : FVec F S_ .f32 := constant S_ .f32 0x7F800000#32
  let main_v1 : FVec F S64x1000x256 .f32 := broadcastInDim S64x1000x256 ![] bcast_S_S64x1000x256 main_cst
  let main_v2 : IVec S64x1000x256 1 := cmpf .olt main_v0 main_v1
  let main_c : IVec S_ 1 := constantI S_ 1 1#1
  let main_v3 : IVec S_ 1 := (fun x v => Host.reduce IntOp.andi x v reducesTo_S64x1000x256_S_d0_1_2 h_S_) main_v2 main_c
  let main_v4 : FVec F S64x1000x1000 .f32 := Host.absf main_arg1
  let main_cst_0 : FVec F S_ .f32 := constant S_ .f32 0x7F800000#32
  let main_v5 : FVec F S64x1000x1000 .f32 := broadcastInDim S64x1000x1000 ![] bcast_S_S64x1000x1000 main_cst_0
  let main_v6 : IVec S64x1000x1000 1 := cmpf .olt main_v4 main_v5
  let main_c_1 : IVec S_ 1 := constantI S_ 1 1#1
  let main_v7 : IVec S_ 1 := (fun x v => Host.reduce IntOp.andi x v reducesTo_S64x1000x1000_S_d0_1_2 h_S_) main_v6 main_c_1
  let main_v8 : IVec S_ 1 := andi main_v3 main_v7
  let main_v9 : FVec F S64x500x1000 .f32 := Host.absf main_arg3
  let main_cst_2 : FVec F S_ .f32 := constant S_ .f32 0x7F800000#32
  let main_v10 : FVec F S64x500x1000 .f32 := broadcastInDim S64x500x1000 ![] bcast_S_S64x500x1000 main_cst_2
  let main_v11 : IVec S64x500x1000 1 := cmpf .olt main_v9 main_v10
  let main_c_3 : IVec S_ 1 := constantI S_ 1 1#1
  let main_v12 : IVec S_ 1 := (fun x v => Host.reduce IntOp.andi x v reducesTo_S64x500x1000_S_d0_1_2 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg5 main_arg6 main_arg7 main_v13 main_v16
-- ==== Kernel.lean ====
abbrev S64x1000x256 : Shape := ⟨3, ![64, 1000, 256]⟩
abbrev S64x1000x1000 : Shape := ⟨3, ![64, 1000, 1000]⟩
abbrev S64x500 : Shape := ⟨2, ![64, 500]⟩
abbrev S64x500x1000 : Shape := ⟨3, ![64, 500, 1000]⟩
abbrev S256x256 : Shape := ⟨2, ![256, 256]⟩
abbrev S_ : Shape := ⟨0, ![]⟩
abbrev S64x512 : Shape := ⟨2, ![64, 512]⟩
abbrev S64x512x1 : Shape := ⟨3, ![64, 512, 1]⟩
abbrev S64x512x1000 : Shape := ⟨3, ![64, 512, 1000]⟩
abbrev S1x1000x256 : Shape := ⟨3, ![1, 1000, 256]⟩
abbrev S1x1000x1000 : Shape := ⟨3, ![1, 1000, 1000]⟩
abbrev S1x512x1 : Shape := ⟨3, ![1, 512, 1]⟩
abbrev S1x512x1000 : Shape := ⟨3, ![1, 512, 1000]⟩
abbrev S1000x256 : Shape := ⟨2, ![1000, 256]⟩
abbrev S1000x1000 : Shape := ⟨2, ![1000, 1000]⟩
abbrev S256 : Shape := ⟨1, ![256]⟩
abbrev S1x256 : Shape := ⟨2, ![1, 256]⟩
abbrev S1x128x1 : Shape := ⟨3, ![1, 128, 1]⟩
abbrev S128x1 : Shape := ⟨2, ![128, 1]⟩
abbrev S128x1000 : Shape := ⟨2, ![128, 1000]⟩
abbrev S128x256 : Shape := ⟨2, ![128, 256]⟩
abbrev S1x128x1000 : Shape := ⟨3, ![1, 128, 1000]⟩
abbrev S128 : Shape := ⟨1, ![128]⟩

abbrev nBuf : Space → Nat
  | .hbm => 21
  | .vmem => 14
  | .smem => 0
  | _ => 0

abbrev bufTy : (tb : Table) → Fin (tcTables nBuf tb) → BufTy
  | .hbm, ⟨0, _⟩ => ⟨S64x1000x256, .f32⟩
  | .hbm, ⟨1, _⟩ => ⟨S64x1000x1000, .f32⟩
  | .hbm, ⟨2, _⟩ => ⟨S64x500, .i32⟩
  | .hbm, ⟨3, _⟩ => ⟨S64x500x1000, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S_, .i32⟩
  | .hbm, ⟨9, _⟩ => ⟨S_, .i32⟩
  | .hbm, ⟨10, _⟩ => ⟨S64x512, .i32⟩
  | .hbm, ⟨11, _⟩ => ⟨S64x512x1, .i32⟩
  | .hbm, ⟨12, _⟩ => ⟨S_, .f32⟩
  | .hbm, ⟨13, _⟩ => ⟨S_, .f32⟩
  | .hbm, ⟨14, _⟩ => ⟨S64x512x1000, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S64x512x1000, .f32⟩
  | .hbm, ⟨20, _⟩ => ⟨S64x500x1000, .f32⟩
  | .local _ .vmem, ⟨0, _⟩ => ⟨S1x1000x256, .f32⟩
  | .local _ .vmem, ⟨1, _⟩ => ⟨S1x1000x256, .f32⟩
  | .local _ .vmem, ⟨2, _⟩ => ⟨S1x1000x1000, .f32⟩
  | .local _ .vmem, ⟨3, _⟩ => ⟨S1x1000x1000, .f32⟩
  | .local _ .vmem, ⟨4, _⟩ => ⟨S1x512x1, .i32⟩
  | .local _ .vmem, ⟨5, _⟩ => ⟨S1x512x1, .i32⟩
  | .local _ .vmem, ⟨6, _⟩ => ⟨S1x512x1000, .f32⟩
  | .local _ .vmem, ⟨7, _⟩ => ⟨S1x512x1000, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S1x512x1000, .f32⟩
  | .local _ .vmem, ⟨13, _⟩ => ⟨S1x512x1000, .f32⟩
  | _, _ => ⟨S64x1000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1000x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x1000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  pads_S64x500_S64x512_000_0120 : S64x500.Pads (![0, 0] : Fin 2 → Nat) ![0, 12] ![0, 0] S64x512
  h_S_ : 0 < S_.numel
  shapeCasts_S64x512_S64x512x1 : S64x512.ShapeCasts S64x512x1
  pads_S64x500x1000_S64x512x1000_000_0120_000 : S64x500x1000.Pads (![0, 0, 0] : Fin 3 → Nat) ![0, 12, 0] ![0, 0, 0] S64x512x1000
  transposes_S256x256_S256x256_1_0 : S256x256.Transposes [1, 0] S256x256
  inb_S1x1000x256_S1x1000x256_0_0_0 : ∀ a, (![0, 0, 0] : Fin 3 → Nat) a + S1x1000x256.size a ≤ S1x1000x256.size a
  h_S1x1000x256 : 0 < S1x1000x256.numel
  shapeCasts_S1x1000x256_S1000x256 : S1x1000x256.ShapeCasts S1000x256
  bitsLt_bf16_f32 : FTy.bits .bf16 < FTy.bits .f32
  inb_S1x1000x1000_S1x1000x1000_0_0_0 : ∀ a, (![0, 0, 0] : Fin 3 → Nat) a + S1x1000x1000.size a ≤ S1x1000x1000.size a
  h_S1x1000x1000 : 0 < S1x1000x1000.numel
  shapeCasts_S1x1000x1000_S1000x1000 : S1x1000x1000.ShapeCasts S1000x1000
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S1000x256_S256 : S1000x256.Reduces [0] S256
  shapeCasts_S256_S1x256 : S256.ShapeCasts S1x256
  inb_S1x512x1_S1x128x1_0_0_0 : ∀ a, (![0, 0, 0] : Fin 3 → Nat) a + S1x128x1.size a ≤ S1x512x1.size a
  h_S1x128x1 : 0 < S1x128x1.numel
  shapeCasts_S1x128x1_S128x1 : S1x128x1.ShapeCasts S128x1
  iota_S128x1000_d1_w32 : S128x1000.Iotas .tc 32 [1]
  broadcasts_S128x1_S128x1000 : S128x1.Broadcasts S128x1000
  natLt_1_32 : 1 < 32
  inb_S1x512x1000_S1x128x1000_0_0_0 : ∀ a, (![0, 0, 0] : Fin 3 → Nat) a + S1x128x1000.size a ≤ S1x512x1000.size a
  h_S1x128x1000 : 0 < S1x128x1000.numel
  shapeCasts_S1x128x1000_S128x1000 : S1x128x1000.ShapeCasts S128x1000
  broadcasts_S1x256_S128x256 : S1x256.Broadcasts S128x256
  reduces_S128x1000_S128 : S128x1000.Reduces [1] S128
  shapeCasts_S128_S128x1 : S128.ShapeCasts S128x1
  shapeCasts_S128x1000_S1x128x1000 : S128x1000.ShapeCasts S1x128x1000
  inb_S1x512x1_S1x128x1_0_128_0 : ∀ a, (![0, 128, 0] : Fin 3 → Nat) a + S1x128x1.size a ≤ S1x512x1.size a
  inb_S1x512x1000_S1x128x1000_0_128_0 : ∀ a, (![0, 128, 0] : Fin 3 → Nat) a + S1x128x1000.size a ≤ S1x512x1000.size a
  inb_S1x512x1_S1x128x1_0_256_0 : ∀ a, (![0, 256, 0] : Fin 3 → Nat) a + S1x128x1.size a ≤ S1x512x1.size a
  inb_S1x512x1000_S1x128x1000_0_256_0 : ∀ a, (![0, 256, 0] : Fin 3 → Nat) a + S1x128x1000.size a ≤ S1x512x1000.size a
  inb_S1x512x1_S1x128x1_0_384_0 : ∀ a, (![0, 384, 0] : Fin 3 → Nat) a + S1x128x1.size a ≤ S1x512x1.size a
  inb_S1x512x1000_S1x128x1000_0_384_0 : ∀ a, (![0, 384, 0] : Fin 3 → Nat) a + S1x128x1000.size a ≤ S1x512x1000.size a
  slices_S64x512x1000_S64x500x1000_0_0_0 : S64x512x1000.Slices ![0, 0, 0] S64x500x1000
  dot_S1x256_S256x256_S1x256_1_0_0_1_n_n_wf : DotDims.WF S1x256 S256x256 S1x256 [1] [0] [0] [1] [] []
  dot_S128x1000_S1000x256_S128x256_1_0_0_1_n_n_wf : DotDims.WF S128x1000 S1000x256 S128x256 [1] [0] [0] [1] [] []
  dot_S128x256_S256x256_S128x256_1_0_0_1_n_n_wf : DotDims.WF S128x256 S256x256 S128x256 [1] [0] [0] [1] [] []
  dot_S128x1000_S1000x1000_S128x1000_1_0_0_1_n_n_wf : DotDims.WF S128x1000 S1000x1000 S128x1000 [1] [0] [0] [1] [] []
  dot_S128x256_S1000x256_S128x1000_1_1_0_0_n_n_wf : DotDims.WF S128x256 S1000x256 S128x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x256.size a ≤ S64x1000x256.size a
  hwx0_0 : ∀ i : grid0.Coords, EltTy.bits .f32 = 32 ∨ (Rect.block (s := S64x1000x256) S1x1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x1000.size a ≤ S64x1000x1000.size a
  hwx0_1 : ∀ i : grid0.Coords, EltTy.bits .f32 = 32 ∨ (Rect.block (s := S64x1000x1000) S1x1000x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S64x512x1.size a
  hwx0_2 : ∀ i : grid0.Coords, EltTy.bits .i32 = 32 ∨ (Rect.block (s := S64x512x1) S1x512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1000.size a ≤ S64x512x1000.size a
  hwx0_3 : ∀ i : grid0.Coords, EltTy.bits .f32 = 32 ∨ (Rect.block (s := S64x512x1000) S1x512x1000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1000.size a ≤ S64x512x1000.size a
  hwx0_8 : ∀ i : grid0.Coords, EltTy.bits .f32 = 32 ∨ (Rect.block (s := S64x512x1000) S1x512x1000.size (cc0_transform_8 i) (hinb0_8 i)).WholeWords (EltTy.packing .f32)

variable [Facts₀]

def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S128x1000_S1000x256_S128x256_1_0_0_1_n_n : DotDims S128x1000 S1000x256 S128x256 where
  lhsContracting := [1]
  rhsContracting := [0]
  lhsNonContracting := [0]
  rhsNonContracting := [1]
  lhsBatch := []
  rhsBatch := []
  wf := dot_S128x1000_S1000x256_S128x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x1000_S1000x1000_S128x1000_1_0_0_1_n_n : DotDims S128x1000 S1000x1000 S128x1000 where
  lhsContracting := [1]
  rhsContracting := [0]
  lhsNonContracting := [0]
  rhsNonContracting := [1]
  lhsBatch := []
  rhsBatch := []
  wf := dot_S128x1000_S1000x1000_S128x1000_1_0_0_1_n_n_wf
def dot_S128x256_S1000x256_S128x1000_1_1_0_0_n_n : DotDims S128x256 S1000x256 S128x1000 where
  lhsContracting := [1]
  rhsContracting := [1]
  lhsNonContracting := [0]
  rhsNonContracting := [0]
  lhsBatch := []
  rhsBatch := []
  wf := dot_S128x256_S1000x256_S128x1000_1_1_0_0_n_n_wf

abbrev win0_0 : Pipeline.Window sig grid0 :=
  Pipeline.Window.ofSpec (Memref.whole main_arg0) S1x1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1000x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x1000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x512x1000.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x1000x256 : Shape := ⟨3, ![64, 1000, 256]⟩
abbrev S64x1000x1000 : Shape := ⟨3, ![64, 1000, 1000]⟩
abbrev S64x500 : Shape := ⟨2, ![64, 500]⟩
abbrev S64x500x1000 : Shape := ⟨3, ![64, 500, 1000]⟩
abbrev S256x256 : Shape := ⟨2, ![256, 256]⟩
abbrev S_ : Shape := ⟨0, ![]⟩
abbrev S64x256 : Shape := ⟨2, ![64, 256]⟩
abbrev S64x1x256 : Shape := ⟨3, ![64, 1, 256]⟩
abbrev S64x500x1 : Shape := ⟨3, ![64, 500, 1]⟩
abbrev S64x500x256 : Shape := ⟨3, ![64, 500, 256]⟩
abbrev S64x500x256x1 : Shape := ⟨4, ![64, 500, 256, 1]⟩
abbrev S1 : Shape := ⟨1, ![1]⟩
abbrev S1x1x1x1 : Shape := ⟨4, ![1, 1, 1, 1]⟩
abbrev S64x500x1000x1 : Shape := ⟨4, ![64, 500, 1000, 1]⟩

abbrev nBuf : Space → Nat
  | .hbm => 115
  | .vmem => 0
  | .smem => 0
  | _ => 0

abbrev bufTy : (tb : Table) → Fin (tcTables nBuf tb) → BufTy
  | .hbm, ⟨0, _⟩ => ⟨S64x1000x256, .f32⟩
  | .hbm, ⟨1, _⟩ => ⟨S64x1000x1000, .f32⟩
  | .hbm, ⟨2, _⟩ => ⟨S64x500, .i32⟩
  | .hbm, ⟨3, _⟩ => ⟨S64x500x1000, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S_, .f32⟩
  | .hbm, ⟨9, _⟩ => ⟨S64x256, .f32⟩
  | .hbm, ⟨10, _⟩ => ⟨S64x1x256, .f32⟩
  | .hbm, ⟨11, _⟩ => ⟨S_, .f32⟩
  | .hbm, ⟨12, _⟩ => ⟨S64x1x256, .f32⟩
  | .hbm, ⟨13, _⟩ => ⟨S64x1x256, .f32⟩
  | .hbm, ⟨14, _⟩ => ⟨S64x1x256, .f32⟩
  | .hbm, ⟨15, _⟩ => ⟨S64x500x1, .i32⟩
  | .hbm, ⟨16, _⟩ => ⟨S64x500x256, .i32⟩
  | .hbm, ⟨17, _⟩ => ⟨S_, .i32⟩
  | .hbm, ⟨18, _⟩ => ⟨S64x500x256, .i32⟩
  | .hbm, ⟨19, _⟩ => ⟨S64x500x256, .i1⟩
  | .hbm, ⟨20, _⟩ => ⟨S_, .i32⟩
  | .hbm, ⟨21, _⟩ => ⟨S64x500x256, .i32⟩
  | .hbm, ⟨22, _⟩ => ⟨S64x500x256, .i32⟩
  | .hbm, ⟨23, _⟩ => ⟨S64x500x256, .i32⟩
  | .hbm, ⟨24, _⟩ => ⟨S64x500x256x1, .i32⟩
  | .hbm, ⟨25, _⟩ => ⟨S1, .i32⟩
  | .hbm, ⟨26, _⟩ => ⟨S_, .i32⟩
  | .hbm, ⟨27, _⟩ => ⟨S64x500x256x1, .i32⟩
  | .hbm, ⟨28, _⟩ => ⟨S64x500x256x1, .i1⟩
  | .hbm, ⟨29, _⟩ => ⟨S1x1x1x1, .i32⟩
  | .hbm, ⟨30, _⟩ => ⟨S64x500x256x1, .i32⟩
  | .hbm, ⟨31, _⟩ => ⟨S64x500x256x1, .i1⟩
  | .hbm, ⟨32, _⟩ => ⟨S64x500x256x1, .i1⟩
  | .hbm, ⟨33, _⟩ => ⟨S_, .i1⟩
  | .hbm, ⟨34, _⟩ => ⟨S64x500x256, .i1⟩
  | .hbm, ⟨35, _⟩ => ⟨S64x500x256, .f32⟩
  | .hbm, ⟨36, _⟩ => ⟨S_, .f32⟩
  | .hbm, ⟨37, _⟩ => ⟨S64x500x256, .f32⟩
  | .hbm, ⟨38, _⟩ => ⟨S64x500x256, .f32⟩
  | .hbm, ⟨39, _⟩ => ⟨S64x500x256, .f32⟩
  | .hbm, ⟨40, _⟩ => ⟨S64x500x256, .f32⟩
  | .hbm, ⟨41, _⟩ => ⟨S_, .f32⟩
  | .hbm, ⟨42, _⟩ => ⟨S64x500x1000, .f32⟩
  | .hbm, ⟨43, _⟩ => ⟨S64x500x1000, .i1⟩
  | .hbm, ⟨44, _⟩ => ⟨S_, .f32⟩
  | .hbm, ⟨45, _⟩ => ⟨S_, .f32⟩
  | .hbm, ⟨46, _⟩ => ⟨S64x500x1000, .f32⟩
  | .hbm, ⟨47, _⟩ => ⟨S64x500x1000, .f32⟩
  | .hbm, ⟨48, _⟩ => ⟨S64x500x256, .f32⟩
  | .hbm, ⟨49, _⟩ => ⟨S_, .f32⟩
  | .hbm, ⟨50, _⟩ => ⟨S64x500x256, .f32⟩
  | .hbm, ⟨51, _⟩ => ⟨S64x500x256, .f32⟩
  | .hbm, ⟨52, _⟩ => ⟨S64x500x256, .f32⟩
  | .hbm, ⟨53, _⟩ => ⟨S64x500x1, .i32⟩
  | .hbm, ⟨54, _⟩ => ⟨S64x500x1000, .i32⟩
  | .hbm, ⟨55, _⟩ => ⟨S_, .i32⟩
  | .hbm, ⟨56, _⟩ => ⟨S64x500x1000, .i32⟩
  | .hbm, ⟨57, _⟩ => ⟨S64x500x1000, .i1⟩
  | .hbm, ⟨58, _⟩ => ⟨S_, .i32⟩
  | .hbm, ⟨59, _⟩ => ⟨S64x500x1000, .i32⟩
  | .hbm, ⟨60, _⟩ => ⟨S64x500x1000, .i32⟩
  | .hbm, ⟨61, _⟩ => ⟨S64x500x1000, .i32⟩
  | .hbm, ⟨62, _⟩ => ⟨S64x500x1000x1, .i32⟩
  | .hbm, ⟨63, _⟩ => ⟨S1, .i32⟩
  | .hbm, ⟨64, _⟩ => ⟨S_, .i32⟩
  | .hbm, ⟨65, _⟩ => ⟨S64x500x1000x1, .i32⟩
  | .hbm, ⟨66, _⟩ => ⟨S64x500x1000x1, .i1⟩
  | .hbm, ⟨67, _⟩ => ⟨S1x1x1x1, .i32⟩
  | .hbm, ⟨68, _⟩ => ⟨S64x500x1000x1, .i32⟩
  | .hbm, ⟨69, _⟩ => ⟨S64x500x1000x1, .i1⟩
  | .hbm, ⟨70, _⟩ => ⟨S64x500x1000x1, .i1⟩
  | .hbm, ⟨71, _⟩ => ⟨S_, .i1⟩
  | .hbm, ⟨72, _⟩ => ⟨S64x500x1000, .i1⟩
  | .hbm, ⟨73, _⟩ => ⟨S64x500x1000, .f32⟩
  | .hbm, ⟨74, _⟩ => ⟨S_, .f32⟩
  | .hbm, ⟨75, _⟩ => ⟨S64x500x1000, .f32⟩
  | .hbm, ⟨76, _⟩ => ⟨S64x500x1000, .f32⟩
  | .hbm, ⟨77, _⟩ => ⟨S64x500x256, .f32⟩
  | .hbm, ⟨78, _⟩ => ⟨S64x500x256, .f32⟩
  | .hbm, ⟨79, _⟩ => ⟨S64x500x256, .f32⟩
  | .hbm, ⟨80, _⟩ => ⟨S64x500x256, .f32⟩
  | .hbm, ⟨81, _⟩ => ⟨S64x500x1000, .f32⟩
  | .hbm, ⟨82, _⟩ => ⟨S_, .f32⟩
  | .hbm, ⟨83, _⟩ => ⟨S64x500x1000, .f32⟩
  | .hbm, ⟨84, _⟩ => ⟨S64x500x1000, .f32⟩
  | .hbm, ⟨85, _⟩ => ⟨S_, .f32⟩
  | .hbm, ⟨86, _⟩ => ⟨S64x500x1000, .f32⟩
  | .hbm, ⟨87, _⟩ => ⟨S64x500x1000, .f32⟩
  | .hbm, ⟨88, _⟩ => ⟨S64x500x1000, .f32⟩
  | .hbm, ⟨89, _⟩ => ⟨S64x500x1000, .f32⟩
  | .hbm, ⟨90, _⟩ => ⟨S_, .f32⟩
  | .hbm, ⟨91, _⟩ => ⟨S64x500x1000, .f32⟩
  | .hbm, ⟨92, _⟩ => ⟨S64x500x1000, .f32⟩
  | .hbm, ⟨93, _⟩ => ⟨S_, .f32⟩
  | .hbm, ⟨94, _⟩ => ⟨S64x500x1000, .f32⟩
  | .hbm, ⟨95, _⟩ => ⟨S64x500x1000, .i1⟩
  | .hbm, ⟨96, _⟩ => ⟨S_, .f32⟩
  | .hbm, ⟨97, _⟩ => ⟨S_, .f32⟩
  | .hbm, ⟨98, _⟩ => ⟨S64x500x1000, .f32⟩
  | .hbm, ⟨99, _⟩ => ⟨S64x500x1000, .f32⟩
  | .hbm, ⟨100, _⟩ => ⟨S64x500x1000, .f32⟩
  | .hbm, ⟨101, _⟩ => ⟨S_, .f32⟩
  | .hbm, ⟨102, _⟩ => ⟨S64x500, .f32⟩
  | .hbm, ⟨103, _⟩ => ⟨S_, .f32⟩
  | .hbm, ⟨104, _⟩ => ⟨S64x500, .f32⟩
  | .hbm, ⟨105, _⟩ => ⟨S64x500, .f32⟩
  | .hbm, ⟨106, _⟩ => ⟨S64x500x1, .f32⟩
  | .hbm, ⟨107, _⟩ => ⟨S64x500x1000, .f32⟩
  | .hbm, ⟨108, _⟩ => ⟨S64x500x1000, .f32⟩
  | .hbm, ⟨109, _⟩ => ⟨S64x500x1000, .f32⟩
  | .hbm, ⟨110, _⟩ => ⟨S_, .f32⟩
  | .hbm, ⟨111, _⟩ => ⟨S64x500, .f32⟩
  | .hbm, ⟨112, _⟩ => ⟨S64x500x1, .f32⟩
  | .hbm, ⟨113, _⟩ => ⟨S64x500x1000, .f32⟩
  | .hbm, ⟨114, _⟩ => ⟨S64x500x1000, .f32⟩
  | _, _ => ⟨S64x1000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_v11 : Ref sig .tc := ⟨.hbm, 43, rfl⟩
abbrev main_cst_2 : Ref sig .tc := ⟨.hbm, 44, rfl⟩
abbrev main_call1_v0 : Ref sig .tc := ⟨.hbm, 45, rfl⟩
abbrev main_call1_v1 : Ref sig .tc := ⟨.hbm, 46, rfl⟩
abbrev main_v12 : Ref sig .tc := ⟨.hbm, 47, rfl⟩
abbrev main_v13 : Ref sig .tc := ⟨.hbm, 48, rfl⟩
abbrev main_cst_3 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_cst : Ref sig .tc := ⟨.hbm, 74, rfl⟩
abbrev main_call2_v14 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_cst_4 : Ref sig .tc := ⟨.hbm, 82, rfl⟩
abbrev main_v25 : Ref sig .tc := ⟨.hbm, 83, rfl⟩
abbrev main_v26 : Ref sig .tc := ⟨.hbm, 84, rfl⟩
abbrev main_cst_5 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_cst_6 : Ref sig .tc := ⟨.hbm, 90, rfl⟩
abbrev main_v31 : Ref sig .tc := ⟨.hbm, 91, rfl⟩
abbrev main_v32 : Ref sig .tc := ⟨.hbm, 92, rfl⟩
abbrev main_cst_7 : Ref sig .tc := ⟨.hbm, 93, rfl⟩
abbrev main_v33 : Ref sig .tc := ⟨.hbm, 94, rfl⟩
abbrev main_v34 : Ref sig .tc := ⟨.hbm, 95, rfl⟩
abbrev main_cst_8 : Ref sig .tc := ⟨.hbm, 96, rfl⟩
abbrev main_call3_v0 : Ref sig .tc := ⟨.hbm, 97, rfl⟩
abbrev main_call3_v1 : Ref sig .tc := ⟨.hbm, 98, rfl⟩
abbrev main_v35 : Ref sig .tc := ⟨.hbm, 99, rfl⟩
abbrev main_v36 : Ref sig .tc := ⟨.hbm, 100, rfl⟩
abbrev main_cst_9 : Ref sig .tc := ⟨.hbm, 101, rfl⟩
abbrev main_v37 : Ref sig .tc := ⟨.hbm, 102, rfl⟩
abbrev main_cst_10 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_cst_11 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩

abbrev nD : Nat := 1
abbrev τ : Topo := Topo.v7x

variable {F : FTy → Type} [FloatOps F]

class Facts₀ : Prop where
  reducesTo_S64x1000x256_S64x256_d1 : S64x1000x256.ReducesTo [1] S64x256
  h_S_ : 0 < S_.numel
  bcast_S64x256_S64x1x256_0_2 : S64x256.BroadcastsInDim S64x1x256 (![0, 2] : Fin 2 → Fin S64x1x256.rank)
  bcast_S_S64x1x256 : S_.BroadcastsInDim S64x1x256 (![] : Fin 0 → Fin S64x1x256.rank)
  bcast_S64x500_S64x500x1_0_1 : S64x500.BroadcastsInDim S64x500x1 (![0, 1] : Fin 2 → Fin S64x500x1.rank)
  bcast_S64x500x1_S64x500x256_0_1_2 : S64x500x1.BroadcastsInDim S64x500x256 (![0, 1, 2] : Fin 3 → Fin S64x500x256.rank)
  bcast_S_S64x500x256 : S_.BroadcastsInDim S64x500x256 (![] : Fin 0 → Fin S64x500x256.rank)
  shapeCasts_S64x500x256_S64x500x256x1 : S64x500x256.ShapeCasts S64x500x256x1
  bcast_S_S64x500x256x1 : S_.BroadcastsInDim S64x500x256x1 (![] : Fin 0 → Fin S64x500x256x1.rank)
  bcast_S1_S1x1x1x1_3 : S1.BroadcastsInDim S1x1x1x1 (![3] : Fin 1 → Fin S1x1x1x1.rank)
  bcast_S1x1x1x1_S64x500x256x1_0_1_2_3 : S1x1x1x1.BroadcastsInDim S64x500x256x1 (![0, 1, 2, 3] : Fin 4 → Fin S64x500x256x1.rank)
  reducesTo_S64x500x256x1_S64x500x256_d3 : S64x500x256x1.ReducesTo [3] S64x500x256
  bcast_S_S64x500x1000 : S_.BroadcastsInDim S64x500x1000 (![] : Fin 0 → Fin S64x500x1000.rank)
  bcast_S64x500x1_S64x500x1000_0_1_2 : S64x500x1.BroadcastsInDim S64x500x1000 (![0, 1, 2] : Fin 3 → Fin S64x500x1000.rank)
  shapeCasts_S64x500x1000_S64x500x1000x1 : S64x500x1000.ShapeCasts S64x500x1000x1
  bcast_S_S64x500x1000x1 : S_.BroadcastsInDim S64x500x1000x1 (![] : Fin 0 → Fin S64x500x1000x1.rank)
  bcast_S1x1x1x1_S64x500x1000x1_0_1_2_3 : S1x1x1x1.BroadcastsInDim S64x500x1000x1 (![0, 1, 2, 3] : Fin 4 → Fin S64x500x1000x1.rank)
  reducesTo_S64x500x1000x1_S64x500x1000_d3 : S64x500x1000x1.ReducesTo [3] S64x500x1000
  bcast_S64x1x256_S64x500x256_0_1_2 : S64x1x256.BroadcastsInDim S64x500x256 (![0, 1, 2] : Fin 3 → Fin S64x500x256.rank)
  reducesTo_S64x500x1000_S64x500_d2 : S64x500x1000.ReducesTo [2] S64x500
  bcast_S_S64x500 : S_.BroadcastsInDim S64x500 (![] : Fin 0 → Fin S64x500.rank)
  dot_S64x1x256_S256x256_S64x1x256_2_1_01_0_n_n_wf : DotDims.WF S64x1x256 S256x256 S64x1x256 [2] [1] [0, 1] [0] [] []
  gather_S64x1000x256_S64x500x256x1_S64x500x256_n_1_02_02_1_3_111_wf : GatherDims.WF S64x1000x256 S64x500x256x1 S64x500x256 [] [1] [0, 2] [1] [0, 2] 3 ![1, 1, 1]
  dot_S64x500x256_S256x256_S64x500x256_2_1_01_0_n_n_wf : DotDims.WF S64x500x256 S256x256 S64x500x256 [2] [1] [0, 1] [0] [] []
  dot_S64x500x1000_S64x1000x256_S64x500x256_2_1_1_2_0_0_wf : DotDims.WF S64x500x1000 S64x1000x256 S64x500x256 [2] [1] [1] [2] [0] [0]
  gather_S64x1000x1000_S64x500x1000x1_S64x500x1000_n_1_02_02_1_3_111_wf : GatherDims.WF S64x1000x1000 S64x500x1000x1 S64x500x1000 [] [1] [0, 2] [1] [0, 2] 3 ![1, 1, 1]
  dot_S64x500x256_S64x1000x256_S64x500x1000_2_2_1_1_0_0_wf : DotDims.WF S64x500x256 S64x1000x256 S64x500x1000 [2] [2] [1] [1] [0] [0]

variable [Facts₀]

def dot_S64x1x256_S256x256_S64x1x256_2_1_01_0_n_n : DotDims S64x1x256 S256x256 S64x1x256 where
  lhsContracting := [2]
  rhsContracting := [1]
  lhsNonContracting := [0, 1]
  rhsNonContracting := [0]
  lhsBatch := []
  rhsBatch := []
  wf := dot_S64x1x256_S256x256_S64x1x256_2_1_01_0_n_n_wf
def gather_S64x1000x256_S64x500x256x1_S64x500x256_n_1_02_02_1_3_111 : GatherDims S64x1000x256 S64x500x256x1 S64x500x256 where
  offsetDims := []
  collapsedSliceDims := [1]
  operandBatchingDims := [0, 2]
  startIndicesBatchingDims := [0, 2]
  startIndexMap := [1]
  indexVectorDim := 3
  sliceSizes := ![1, 1, 1]
  wf := gather_S64x1000x256_S64x500x256x1_S64x500x256_n_1_02_02_1_3_111_wf
def dot_S64x500x256_S256x256_S64x500x256_2_1_01_0_n_n : DotDims S64x500x256 S256x256 S64x500x256 where
  lhsContracting := [2]
  rhsContracting := [1]
  lhsNonContracting := [0, 1]
  rhsNonContracting := [0]
  lhsBatch := []
  rhsBatch := []
  wf := dot_S64x500x256_S256x256_S64x500x256_2_1_01_0_n_n_wf
def dot_S64x500x1000_S64x1000x256_S64x500x256_2_1_1_2_0_0 : DotDims S64x500x1000 S64x1000x256 S64x500x256 where
  lhsContracting := [2]
  rhsContracting := [1]
  lhsNonContracting := [1]
  rhsNonContracting := [2]
  lhsBatch := [0]
  rhsBatch := [0]
  wf := dot_S64x500x1000_S64x1000x256_S64x500x256_2_1_1_2_0_0_wf
def gather_S64x1000x1000_S64x500x1000x1_S64x500x1000_n_1_02_02_1_3_111 : GatherDims S64x1000x1000 S64x500x1000x1 S64x500x1000 where
  offsetDims := []
  collapsedSliceDims := [1]
  operandBatchingDims := [0, 2]
  startIndicesBatchingDims := [0, 2]
  startIndexMap := [1]
  indexVectorDim := 3
  sliceSizes := ![1, 1, 1]
  wf := gather_S64x1000x1000_S64x500x1000x1_S64x500x1000_n_1_02_02_1_3_111_wf
def dot_S64x500x256_S64x1000x256_S64x500x1000_2_2_1_1_0_0 : DotDims S64x500x256 S64x1000x256 S64x500x1000 where
  lhsContracting := [2]
  rhsContracting := [2]
  lhsNonContracting := [1]
  rhsNonContracting := [1]
  lhsBatch := [0]
  rhsBatch := [0]
  wf := dot_S64x500x256_S64x1000x256_S64x500x1000_2_2_1_1_0_0_wf

class Facts : Prop extends Facts₀ where

variable [Facts]
-- ==== Proof.RefTwins.lean ====
/-
  The reference's line of 107 host operations, prepared for evaluation in stretches.

  A called function's operations are printed over typed references: each carries its function between the tensor type
  and the buffer's own type along an equation that, at a literal reference, is the identity. Such an operation is the
  plain one at the same buffers with the same function (for any function: the statement does not look inside it), so
  a stretch may be evaluated with no transport left in its terms. One statement per typed operation of the line,
  numbered by its position; then the line cut into four stretches where few values are live.
-/
import proofs.«407836_j40321152975399_2_alg».proof.Proof.RefRun
import Idealize.ShloMosaic.Lib.StableHlo.Run

noncomputable section

namespace Cert.ReferenceIdeal.Stages

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-! ## The operations of the called functions, at plain references -/

theorem twin_9 (v : (⟨S_, .i32⟩ : BufTy).Contents (Elt F)) :
    (TRef.nullary (TRef.of (T := ⟨S_, .i32⟩) main_call0_c) v : HloOp τ sig (Elt F)) = nullary main_call0_c v := rfl
theorem twin_10 (f : (⟨S_, .i32⟩ : BufTy).Contents (Elt F) → (⟨S64x500x256, .i32⟩ : BufTy).Contents (Elt F)) :
    (TRef.unary (TRef.of (T := ⟨S_, .i32⟩) main_call0_c) (TRef.of (T := ⟨S64x500x256, .i32⟩) main_call0_v0) f : HloOp τ sig (Elt F)) = unary main_call0_c main_call0_v0 f := rfl
theorem twin_11 (f : (⟨S64x500x256, .i32⟩ : BufTy).Contents (Elt F) → (⟨S64x500x256, .i32⟩ : BufTy).Contents (Elt F) → (⟨S64x500x256, .i1⟩ : BufTy).Contents (Elt F)) :
    (TRef.binary (TRef.of (T := ⟨S64x500x256, .i32⟩) main_v6) (TRef.of (T := ⟨S64x500x256, .i32⟩) main_call0_v0) (TRef.of (T := ⟨S64x500x256, .i1⟩) main_call0_v1) f : HloOp τ sig (Elt F)) = binary main_v6 main_call0_v0 main_call0_v1 f := rfl
theorem twin_12 (v : (⟨S_, .i32⟩ : BufTy).Contents (Elt F)) :
    (TRef.nullary (TRef.of (T := ⟨S_, .i32⟩) main_call0_c_0) v : HloOp τ sig (Elt F)) = nullary main_call0_c_0 v := rfl
theorem twin_13 (f : (⟨S_, .i32⟩ : BufTy).Contents (Elt F) → (⟨S64x500x256, .i32⟩ : BufTy).Contents (Elt F)) :
    (TRef.unary (TRef.of (T := ⟨S_, .i32⟩) main_call0_c_0) (TRef.of (T := ⟨S64x500x256, .i32⟩) main_call0_v2) f : HloOp τ sig (Elt F)) = unary main_call0_c_0 main_call0_v2 f := rfl
theorem twin_14 (f : (⟨S64x500x256, .i32⟩ : BufTy).Contents (Elt F) → (⟨S64x500x256, .i32⟩ : BufTy).Contents (Elt F) → (⟨S64x500x256, .i32⟩ : BufTy).Contents (Elt F)) :
    (TRef.binary (TRef.of (T := ⟨S64x500x256, .i32⟩) main_v6) (TRef.of (T := ⟨S64x500x256, .i32⟩) main_call0_v2) (TRef.of (T := ⟨S64x500x256, .i32⟩) main_call0_v3) f : HloOp τ sig (Elt F)) = binary main_v6 main_call0_v2 main_call0_v3 f := rfl
theorem twin_15 (f : (⟨S64x500x256, .i1⟩ : BufTy).Contents (Elt F) → (⟨S64x500x256, .i32⟩ : BufTy).Contents (Elt F) → (⟨S64x500x256, .i32⟩ : BufTy).Contents (Elt F) → (⟨S64x500x256, .i32⟩ : BufTy).Contents (Elt F)) :
    (TRef.ternary (TRef.of (T := ⟨S64x500x256, .i1⟩) main_call0_v1) (TRef.of (T := ⟨S64x500x256, .i32⟩) main_call0_v3) (TRef.of (T := ⟨S64x500x256, .i32⟩) main_v6) (TRef.of (T := ⟨S64x500x256, .i32⟩) main_call0_v4) f : HloOp τ sig (Elt F)) = ternary main_call0_v1 main_call0_v3 main_v6 main_call0_v4 f := rfl
theorem twin_16 (hn : (S64x500x256 : Shape).ShapeCasts S64x500x256x1) :
    (TRef.reshape (TRef.of (T := ⟨S64x500x256, .i32⟩) main_call0_v4) (TRef.of (T := ⟨S64x500x256x1, .i32⟩) main_call0_v5) rfl hn : HloOp τ sig (Elt F)) = reshape main_call0_v4 main_call0_v5 rfl hn := rfl
theorem twin_17 (v : (⟨S1, .i32⟩ : BufTy).Contents (Elt F)) :
    (TRef.nullary (TRef.of (T := ⟨S1, .i32⟩) main_call0_c_1) v : HloOp τ sig (Elt F)) = nullary main_call0_c_1 v := rfl
theorem twin_18 (v : (⟨S_, .i32⟩ : BufTy).Contents (Elt F)) :
    (TRef.nullary (TRef.of (T := ⟨S_, .i32⟩) main_call0_c_2) v : HloOp τ sig (Elt F)) = nullary main_call0_c_2 v := rfl
theorem twin_19 (f : (⟨S_, .i32⟩ : BufTy).Contents (Elt F) → (⟨S64x500x256x1, .i32⟩ : BufTy).Contents (Elt F)) :
    (TRef.unary (TRef.of (T := ⟨S_, .i32⟩) main_call0_c_2) (TRef.of (T := ⟨S64x500x256x1, .i32⟩) main_call0_v6) f : HloOp τ sig (Elt F)) = unary main_call0_c_2 main_call0_v6 f := rfl
theorem twin_20 (f : (⟨S64x500x256x1, .i32⟩ : BufTy).Contents (Elt F) → (⟨S64x500x256x1, .i32⟩ : BufTy).Contents (Elt F) → (⟨S64x500x256x1, .i1⟩ : BufTy).Contents (Elt F)) :
    (TRef.binary (TRef.of (T := ⟨S64x500x256x1, .i32⟩) main_call0_v5) (TRef.of (T := ⟨S64x500x256x1, .i32⟩) main_call0_v6) (TRef.of (T := ⟨S64x500x256x1, .i1⟩) main_call0_v7) f : HloOp τ sig (Elt F)) = binary main_call0_v5 main_call0_v6 main_call0_v7 f := rfl
theorem twin_21 (f : (⟨S1, .i32⟩ : BufTy).Contents (Elt F) → (⟨S1x1x1x1, .i32⟩ : BufTy).Contents (Elt F)) :
    (TRef.unary (TRef.of (T := ⟨S1, .i32⟩) main_call0_c_1) (TRef.of (T := ⟨S1x1x1x1, .i32⟩) main_call0_v8) f : HloOp τ sig (Elt F)) = unary main_call0_c_1 main_call0_v8 f := rfl
theorem twin_22 (f : (⟨S1x1x1x1, .i32⟩ : BufTy).Contents (Elt F) → (⟨S64x500x256x1, .i32⟩ : BufTy).Contents (Elt F)) :
    (TRef.unary (TRef.of (T := ⟨S1x1x1x1, .i32⟩) main_call0_v8) (TRef.of (T := ⟨S64x500x256x1, .i32⟩) main_call0_v9) f : HloOp τ sig (Elt F)) = unary main_call0_v8 main_call0_v9 f := rfl
theorem twin_23 (f : (⟨S64x500x256x1, .i32⟩ : BufTy).Contents (Elt F) → (⟨S64x500x256x1, .i32⟩ : BufTy).Contents (Elt F) → (⟨S64x500x256x1, .i1⟩ : BufTy).Contents (Elt F)) :
    (TRef.binary (TRef.of (T := ⟨S64x500x256x1, .i32⟩) main_call0_v5) (TRef.of (T := ⟨S64x500x256x1, .i32⟩) main_call0_v9) (TRef.of (T := ⟨S64x500x256x1, .i1⟩) main_call0_v10) f : HloOp τ sig (Elt F)) = binary main_call0_v5 main_call0_v9 main_call0_v10 f := rfl
theorem twin_24 (f : (⟨S64x500x256x1, .i1⟩ : BufTy).Contents (Elt F) → (⟨S64x500x256x1, .i1⟩ : BufTy).Contents (Elt F) → (⟨S64x500x256x1, .i1⟩ : BufTy).Contents (Elt F)) :
    (TRef.binary (TRef.of (T := ⟨S64x500x256x1, .i1⟩) main_call0_v7) (TRef.of (T := ⟨S64x500x256x1, .i1⟩) main_call0_v10) (TRef.of (T := ⟨S64x500x256x1, .i1⟩) main_call0_v11) f : HloOp τ sig (Elt F)) = binary main_call0_v7 main_call0_v10 main_call0_v11 f := rfl
theorem twin_25 (v : (⟨S_, .i1⟩ : BufTy).Contents (Elt F)) :
    (TRef.nullary (TRef.of (T := ⟨S_, .i1⟩) main_call0_c_3) v : HloOp τ sig (Elt F)) = nullary main_call0_c_3 v := rfl
theorem twin_26 (f : (⟨S64x500x256x1, .i1⟩ : BufTy).Contents (Elt F) → (⟨S_, .i1⟩ : BufTy).Contents (Elt F) → (⟨S64x500x256, .i1⟩ : BufTy).Contents (Elt F)) :
    (TRef.binary (TRef.of (T := ⟨S64x500x256x1, .i1⟩) main_call0_v11) (TRef.of (T := ⟨S_, .i1⟩) main_call0_c_3) (TRef.of (T := ⟨S64x500x256, .i1⟩) main_call0_v12) f : HloOp τ sig (Elt F)) = binary main_call0_v11 main_call0_c_3 main_call0_v12 f := rfl
theorem twin_27 (f : (⟨S64x1000x256, .f32⟩ : BufTy).Contents (Elt F) → (⟨S64x500x256x1, .i32⟩ : BufTy).Contents (Elt F) → (⟨S64x500x256, .f32⟩ : BufTy).Contents (Elt F)) :
    (TRef.binary (TRef.of (T := ⟨S64x1000x256, .f32⟩) main_arg0) (TRef.of (T := ⟨S64x500x256x1, .i32⟩) main_call0_v5) (TRef.of (T := ⟨S64x500x256, .f32⟩) main_call0_v13) f : HloOp τ sig (Elt F)) = binary main_arg0 main_call0_v5 main_call0_v13 f := rfl
theorem twin_28 (v : (⟨S_, .f32⟩ : BufTy).Contents (Elt F)) :
    (TRef.nullary (TRef.of (T := ⟨S_, .f32⟩) main_call0_cst) v : HloOp τ sig (Elt F)) = nullary main_call0_cst v := rfl
theorem twin_29 (f : (⟨S_, .f32⟩ : BufTy).Contents (Elt F) → (⟨S64x500x256, .f32⟩ : BufTy).Contents (Elt F)) :
    (TRef.unary (TRef.of (T := ⟨S_, .f32⟩) main_call0_cst) (TRef.of (T := ⟨S64x500x256, .f32⟩) main_call0_v14) f : HloOp τ sig (Elt F)) = unary main_call0_cst main_call0_v14 f := rfl
theorem twin_30 (f : (⟨S64x500x256, .i1⟩ : BufTy).Contents (Elt F) → (⟨S64x500x256, .f32⟩ : BufTy).Contents (Elt F) → (⟨S64x500x256, .f32⟩ : BufTy).Contents (Elt F) → (⟨S64x500x256, .f32⟩ : BufTy).Contents (Elt F)) :
    (TRef.ternary (TRef.of (T := ⟨S64x500x256, .i1⟩) main_call0_v12) (TRef.of (T := ⟨S64x500x256, .f32⟩) main_call0_v13) (TRef.of (T := ⟨S64x500x256, .f32⟩) main_call0_v14) (TRef.of (T := ⟨S64x500x256, .f32⟩) main_v7) f : HloOp τ sig (Elt F)) = ternary main_call0_v12 main_call0_v13 main_call0_v14 main_v7 f := rfl
theorem twin_37 (f : (⟨S_, .f32⟩ : BufTy).Contents (Elt F) → (⟨S_, .f32⟩ : BufTy).Contents (Elt F)) :
    (TRef.unary (TRef.of (T := ⟨S_, .f32⟩) main_cst_2) (TRef.of (T := ⟨S_, .f32⟩) main_call1_v0) f : HloOp τ sig (Elt F)) = unary main_cst_2 main_call1_v0 f := rfl
theorem twin_38 (f : (⟨S_, .f32⟩ : BufTy).Contents (Elt F) → (⟨S64x500x1000, .f32⟩ : BufTy).Contents (Elt F)) :
    (TRef.unary (TRef.of (T := ⟨S_, .f32⟩) main_call1_v0) (TRef.of (T := ⟨S64x500x1000, .f32⟩) main_call1_v1) f : HloOp τ sig (Elt F)) = unary main_call1_v0 main_call1_v1 f := rfl
theorem twin_39 (f : (⟨S64x500x1000, .i1⟩ : BufTy).Contents (Elt F) → (⟨S64x500x1000, .f32⟩ : BufTy).Contents (Elt F) → (⟨S64x500x1000, .f32⟩ : BufTy).Contents (Elt F) → (⟨S64x500x1000, .f32⟩ : BufTy).Contents (Elt F)) :
    (TRef.ternary (TRef.of (T := ⟨S64x500x1000, .i1⟩) main_v11) (TRef.of (T := ⟨S64x500x1000, .f32⟩) main_call1_v1) (TRef.of (T := ⟨S64x500x1000, .f32⟩) main_arg3) (TRef.of (T := ⟨S64x500x1000, .f32⟩) main_v12) f : HloOp τ sig (Elt F)) = ternary main_v11 main_call1_v1 main_arg3 main_v12 f := rfl
theorem twin_47 (v : (⟨S_, .i32⟩ : BufTy).Contents (Elt F)) :
    (TRef.nullary (TRef.of (T := ⟨S_, .i32⟩) main_call2_c) v : HloOp τ sig (Elt F)) = nullary main_call2_c v := rfl
theorem twin_48 (f : (⟨S_, .i32⟩ : BufTy).Contents (Elt F) → (⟨S64x500x1000, .i32⟩ : BufTy).Contents (Elt F)) :
    (TRef.unary (TRef.of (T := ⟨S_, .i32⟩) main_call2_c) (TRef.of (T := ⟨S64x500x1000, .i32⟩) main_call2_v0) f : HloOp τ sig (Elt F)) = unary main_call2_c main_call2_v0 f := rfl
theorem twin_49 (f : (⟨S64x500x1000, .i32⟩ : BufTy).Contents (Elt F) → (⟨S64x500x1000, .i32⟩ : BufTy).Contents (Elt F) → (⟨S64x500x1000, .i1⟩ : BufTy).Contents (Elt F)) :
    (TRef.binary (TRef.of (T := ⟨S64x500x1000, .i32⟩) main_v18) (TRef.of (T := ⟨S64x500x1000, .i32⟩) main_call2_v0) (TRef.of (T := ⟨S64x500x1000, .i1⟩) main_call2_v1) f : HloOp τ sig (Elt F)) = binary main_v18 main_call2_v0 main_call2_v1 f := rfl
theorem twin_50 (v : (⟨S_, .i32⟩ : BufTy).Contents (Elt F)) :
    (TRef.nullary (TRef.of (T := ⟨S_, .i32⟩) main_call2_c_0) v : HloOp τ sig (Elt F)) = nullary main_call2_c_0 v := rfl
theorem twin_51 (f : (⟨S_, .i32⟩ : BufTy).Contents (Elt F) → (⟨S64x500x1000, .i32⟩ : BufTy).Contents (Elt F)) :
    (TRef.unary (TRef.of (T := ⟨S_, .i32⟩) main_call2_c_0) (TRef.of (T := ⟨S64x500x1000, .i32⟩) main_call2_v2) f : HloOp τ sig (Elt F)) = unary main_call2_c_0 main_call2_v2 f := rfl
theorem twin_52 (f : (⟨S64x500x1000, .i32⟩ : BufTy).Contents (Elt F) → (⟨S64x500x1000, .i32⟩ : BufTy).Contents (Elt F) → (⟨S64x500x1000, .i32⟩ : BufTy).Contents (Elt F)) :
    (TRef.binary (TRef.of (T := ⟨S64x500x1000, .i32⟩) main_v18) (TRef.of (T := ⟨S64x500x1000, .i32⟩) main_call2_v2) (TRef.of (T := ⟨S64x500x1000, .i32⟩) main_call2_v3) f : HloOp τ sig (Elt F)) = binary main_v18 main_call2_v2 main_call2_v3 f := rfl
theorem twin_53 (f : (⟨S64x500x1000, .i1⟩ : BufTy).Contents (Elt F) → (⟨S64x500x1000, .i32⟩ : BufTy).Contents (Elt F) → (⟨S64x500x1000, .i32⟩ : BufTy).Contents (Elt F) → (⟨S64x500x1000, .i32⟩ : BufTy).Contents (Elt F)) :
    (TRef.ternary (TRef.of (T := ⟨S64x500x1000, .i1⟩) main_call2_v1) (TRef.of (T := ⟨S64x500x1000, .i32⟩) main_call2_v3) (TRef.of (T := ⟨S64x500x1000, .i32⟩) main_v18) (TRef.of (T := ⟨S64x500x1000, .i32⟩) main_call2_v4) f : HloOp τ sig (Elt F)) = ternary main_call2_v1 main_call2_v3 main_v18 main_call2_v4 f := rfl
theorem twin_54 (hn : (S64x500x1000 : Shape).ShapeCasts S64x500x1000x1) :
    (TRef.reshape (TRef.of (T := ⟨S64x500x1000, .i32⟩) main_call2_v4) (TRef.of (T := ⟨S64x500x1000x1, .i32⟩) main_call2_v5) rfl hn : HloOp τ sig (Elt F)) = reshape main_call2_v4 main_call2_v5 rfl hn := rfl
theorem twin_55 (v : (⟨S1, .i32⟩ : BufTy).Contents (Elt F)) :
    (TRef.nullary (TRef.of (T := ⟨S1, .i32⟩) main_call2_c_1) v : HloOp τ sig (Elt F)) = nullary main_call2_c_1 v := rfl
theorem twin_56 (v : (⟨S_, .i32⟩ : BufTy).Contents (Elt F)) :
    (TRef.nullary (TRef.of (T := ⟨S_, .i32⟩) main_call2_c_2) v : HloOp τ sig (Elt F)) = nullary main_call2_c_2 v := rfl
theorem twin_57 (f : (⟨S_, .i32⟩ : BufTy).Contents (Elt F) → (⟨S64x500x1000x1, .i32⟩ : BufTy).Contents (Elt F)) :
    (TRef.unary (TRef.of (T := ⟨S_, .i32⟩) main_call2_c_2) (TRef.of (T := ⟨S64x500x1000x1, .i32⟩) main_call2_v6) f : HloOp τ sig (Elt F)) = unary main_call2_c_2 main_call2_v6 f := rfl
theorem twin_58 (f : (⟨S64x500x1000x1, .i32⟩ : BufTy).Contents (Elt F) → (⟨S64x500x1000x1, .i32⟩ : BufTy).Contents (Elt F) → (⟨S64x500x1000x1, .i1⟩ : BufTy).Contents (Elt F)) :
    (TRef.binary (TRef.of (T := ⟨S64x500x1000x1, .i32⟩) main_call2_v5) (TRef.of (T := ⟨S64x500x1000x1, .i32⟩) main_call2_v6) (TRef.of (T := ⟨S64x500x1000x1, .i1⟩) main_call2_v7) f : HloOp τ sig (Elt F)) = binary main_call2_v5 main_call2_v6 main_call2_v7 f := rfl
theorem twin_59 (f : (⟨S1, .i32⟩ : BufTy).Contents (Elt F) → (⟨S1x1x1x1, .i32⟩ : BufTy).Contents (Elt F)) :
    (TRef.unary (TRef.of (T := ⟨S1, .i32⟩) main_call2_c_1) (TRef.of (T := ⟨S1x1x1x1, .i32⟩) main_call2_v8) f : HloOp τ sig (Elt F)) = unary main_call2_c_1 main_call2_v8 f := rfl
theorem twin_60 (f : (⟨S1x1x1x1, .i32⟩ : BufTy).Contents (Elt F) → (⟨S64x500x1000x1, .i32⟩ : BufTy).Contents (Elt F)) :
    (TRef.unary (TRef.of (T := ⟨S1x1x1x1, .i32⟩) main_call2_v8) (TRef.of (T := ⟨S64x500x1000x1, .i32⟩) main_call2_v9) f : HloOp τ sig (Elt F)) = unary main_call2_v8 main_call2_v9 f := rfl
theorem twin_61 (f : (⟨S64x500x1000x1, .i32⟩ : BufTy).Contents (Elt F) → (⟨S64x500x1000x1, .i32⟩ : BufTy).Contents (Elt F) → (⟨S64x500x1000x1, .i1⟩ : BufTy).Contents (Elt F)) :
    (TRef.binary (TRef.of (T := ⟨S64x500x1000x1, .i32⟩) main_call2_v5) (TRef.of (T := ⟨S64x500x1000x1, .i32⟩) main_call2_v9) (TRef.of (T := ⟨S64x500x1000x1, .i1⟩) main_call2_v10) f : HloOp τ sig (Elt F)) = binary main_call2_v5 main_call2_v9 main_call2_v10 f := rfl
theorem twin_62 (f : (⟨S64x500x1000x1, .i1⟩ : BufTy).Contents (Elt F) → (⟨S64x500x1000x1, .i1⟩ : BufTy).Contents (Elt F) → (⟨S64x500x1000x1, .i1⟩ : BufTy).Contents (Elt F)) :
    (TRef.binary (TRef.of (T := ⟨S64x500x1000x1, .i1⟩) main_call2_v7) (TRef.of (T := ⟨S64x500x1000x1, .i1⟩) main_call2_v10) (TRef.of (T := ⟨S64x500x1000x1, .i1⟩) main_call2_v11) f : HloOp τ sig (Elt F)) = binary main_call2_v7 main_call2_v10 main_call2_v11 f := rfl
theorem twin_63 (v : (⟨S_, .i1⟩ : BufTy).Contents (Elt F)) :
    (TRef.nullary (TRef.of (T := ⟨S_, .i1⟩) main_call2_c_3) v : HloOp τ sig (Elt F)) = nullary main_call2_c_3 v := rfl
theorem twin_64 (f : (⟨S64x500x1000x1, .i1⟩ : BufTy).Contents (Elt F) → (⟨S_, .i1⟩ : BufTy).Contents (Elt F) → (⟨S64x500x1000, .i1⟩ : BufTy).Contents (Elt F)) :
    (TRef.binary (TRef.of (T := ⟨S64x500x1000x1, .i1⟩) main_call2_v11) (TRef.of (T := ⟨S_, .i1⟩) main_call2_c_3) (TRef.of (T := ⟨S64x500x1000, .i1⟩) main_call2_v12) f : HloOp τ sig (Elt F)) = binary main_call2_v11 main_call2_c_3 main_call2_v12 f := rfl
theorem twin_65 (f : (⟨S64x1000x1000, .f32⟩ : BufTy).Contents (Elt F) → (⟨S64x500x1000x1, .i32⟩ : BufTy).Contents (Elt F) → (⟨S64x500x1000, .f32⟩ : BufTy).Contents (Elt F)) :
    (TRef.binary (TRef.of (T := ⟨S64x1000x1000, .f32⟩) main_arg1) (TRef.of (T := ⟨S64x500x1000x1, .i32⟩) main_call2_v5) (TRef.of (T := ⟨S64x500x1000, .f32⟩) main_call2_v13) f : HloOp τ sig (Elt F)) = binary main_arg1 main_call2_v5 main_call2_v13 f := rfl
theorem twin_66 (v : (⟨S_, .f32⟩ : BufTy).Contents (Elt F)) :
    (TRef.nullary (TRef.of (T := ⟨S_, .f32⟩) main_call2_cst) v : HloOp τ sig (Elt F)) = nullary main_call2_cst v := rfl
theorem twin_67 (f : (⟨S_, .f32⟩ : BufTy).Contents (Elt F) → (⟨S64x500x1000, .f32⟩ : BufTy).Contents (Elt F)) :
    (TRef.unary (TRef.of (T := ⟨S_, .f32⟩) main_call2_cst) (TRef.of (T := ⟨S64x500x1000, .f32⟩) main_call2_v14) f : HloOp τ sig (Elt F)) = unary main_call2_cst main_call2_v14 f := rfl
theorem twin_68 (f : (⟨S64x500x1000, .i1⟩ : BufTy).Contents (Elt F) → (⟨S64x500x1000, .f32⟩ : BufTy).Contents (Elt F) → (⟨S64x500x1000, .f32⟩ : BufTy).Contents (Elt F) → (⟨S64x500x1000, .f32⟩ : BufTy).Contents (Elt F)) :
    (TRef.ternary (TRef.of (T := ⟨S64x500x1000, .i1⟩) main_call2_v12) (TRef.of (T := ⟨S64x500x1000, .f32⟩) main_call2_v13) (TRef.of (T := ⟨S64x500x1000, .f32⟩) main_call2_v14) (TRef.of (T := ⟨S64x500x1000, .f32⟩) main_v19) f : HloOp τ sig (Elt F)) = ternary main_call2_v12 main_call2_v13 main_call2_v14 main_v19 f := rfl
theorem twin_89 (f : (⟨S_, .f32⟩ : BufTy).Contents (Elt F) → (⟨S_, .f32⟩ : BufTy).Contents (Elt F)) :
    (TRef.unary (TRef.of (T := ⟨S_, .f32⟩) main_cst_8) (TRef.of (T := ⟨S_, .f32⟩) main_call3_v0) f : HloOp τ sig (Elt F)) = unary main_cst_8 main_call3_v0 f := rfl
theorem twin_90 (f : (⟨S_, .f32⟩ : BufTy).Contents (Elt F) → (⟨S64x500x1000, .f32⟩ : BufTy).Contents (Elt F)) :
    (TRef.unary (TRef.of (T := ⟨S_, .f32⟩) main_call3_v0) (TRef.of (T := ⟨S64x500x1000, .f32⟩) main_call3_v1) f : HloOp τ sig (Elt F)) = unary main_call3_v0 main_call3_v1 f := rfl
theorem twin_91 (f : (⟨S64x500x1000, .i1⟩ : BufTy).Contents (Elt F) → (⟨S64x500x1000, .f32⟩ : BufTy).Contents (Elt F) → (⟨S64x500x1000, .f32⟩ : BufTy).Contents (Elt F) → (⟨S64x500x1000, .f32⟩ : BufTy).Contents (Elt F)) :
    (TRef.ternary (TRef.of (T := ⟨S64x500x1000, .i1⟩) main_v34) (TRef.of (T := ⟨S64x500x1000, .f32⟩) main_call3_v1) (TRef.of (T := ⟨S64x500x1000, .f32⟩) main_arg3) (TRef.of (T := ⟨S64x500x1000, .f32⟩) main_v35) f : HloOp τ sig (Elt F)) = ternary main_v34 main_call3_v1 main_arg3 main_v35 f := rfl

/-! ## The line in four stretches -/

/-- Operations 0 … 44: the mean query (through `main_v4`), the gathered rows (`main_v7`) and their two projections (`main_v8`, `main_v9`), and the masked average with its projection (`main_v16`). -/
abbrev opsA : List (HloOp τ sig (Elt F)) :=
  [ nullary main_cst (constant S_ .f32 0x00000000#32),
    binary main_arg0 main_cst main_v0 ((fun x v => Host.reduceAdd x v reducesTo_S64x1000x256_S64x256_d1 h_S_) : (⟨S64x1000x256, .f32⟩ : BufTy).Contents (Elt F) → (⟨S_, .f32⟩ : BufTy).Contents (Elt F) → (⟨S64x256, .f32⟩ : BufTy).Contents (Elt F)),
    unary main_v0 main_v1 (broadcastInDim S64x1x256 ![0, 2] bcast_S64x256_S64x1x256_0_2 : (⟨S64x256, .f32⟩ : BufTy).Contents (Elt F) → (⟨S64x1x256, .f32⟩ : BufTy).Contents (Elt F)),
    nullary main_cst_0 (constant S_ .f32 0x447A0000#32),
    unary main_cst_0 main_v2 (broadcastInDim S64x1x256 ![] bcast_S_S64x1x256 : (⟨S_, .f32⟩ : BufTy).Contents (Elt F) → (⟨S64x1x256, .f32⟩ : BufTy).Contents (Elt F)),
    binary main_v1 main_v2 main_v3 (Host.divf : (⟨S64x1x256, .f32⟩ : BufTy).Contents (Elt F) → (⟨S64x1x256, .f32⟩ : BufTy).Contents (Elt F) → (⟨S64x1x256, .f32⟩ : BufTy).Contents (Elt F)),
    binary main_v3 main_arg4 main_v4 ((fun l r => Host.dotGeneral dot_S64x1x256_S256x256_S64x1x256_2_1_01_0_n_n none l r) : (⟨S64x1x256, .f32⟩ : BufTy).Contents (Elt F) → (⟨S256x256, .f32⟩ : BufTy).Contents (Elt F) → (⟨S64x1x256, .f32⟩ : BufTy).Contents (Elt F)),
    unary main_arg2 main_v5 (broadcastInDim S64x500x1 ![0, 1] bcast_S64x500_S64x500x1_0_1 : (⟨S64x500, .i32⟩ : BufTy).Contents (Elt F) → (⟨S64x500x1, .i32⟩ : BufTy).Contents (Elt F)),
    unary main_v5 main_v6 (broadcastInDim S64x500x256 ![0, 1, 2] bcast_S64x500x1_S64x500x256_0_1_2 : (⟨S64x500x1, .i32⟩ : BufTy).Contents (Elt F) → (⟨S64x500x256, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S64x500x256, .i32⟩) main_call0_v0) (broadcastInDim S64x500x256 ![] bcast_S_S64x500x256),
    TRef.binary (TRef.of (T := ⟨S64x500x256, .i32⟩) main_v6) (TRef.of (T := ⟨S64x500x256, .i32⟩) main_call0_v0) (TRef.of (T := ⟨S64x500x256, .i1⟩) main_call0_v1) (cmpi .slt),
    TRef.nullary (TRef.of (T := ⟨S_, .i32⟩) main_call0_c_0) (constantI S_ 32 1000#32),
    TRef.unary (TRef.of (T := ⟨S_, .i32⟩) main_call0_c_0) (TRef.of (T := ⟨S64x500x256, .i32⟩) main_call0_v2) (broadcastInDim S64x500x256 ![] bcast_S_S64x500x256),
    TRef.binary (TRef.of (T := ⟨S64x500x256, .i32⟩) main_v6) (TRef.of (T := ⟨S64x500x256, .i32⟩) main_call0_v2) (TRef.of (T := ⟨S64x500x256, .i32⟩) main_call0_v3) addi,
    TRef.ternary (TRef.of (T := ⟨S64x500x256, .i1⟩) main_call0_v1) (TRef.of (T := ⟨S64x500x256, .i32⟩) main_call0_v3) (TRef.of (T := ⟨S64x500x256, .i32⟩) main_v6) (TRef.of (T := ⟨S64x500x256, .i32⟩) main_call0_v4) select,
    TRef.reshape (TRef.of (T := ⟨S64x500x256, .i32⟩) main_call0_v4) (TRef.of (T := ⟨S64x500x256x1, .i32⟩) main_call0_v5) rfl shapeCasts_S64x500x256_S64x500x256x1,
    TRef.nullary (TRef.of (T := ⟨S1, .i32⟩) main_call0_c_1) (constantI S1 32 999#32),
    TRef.nullary (TRef.of (T := ⟨S_, .i32⟩) main_call0_c_2) (constantI S_ 32 0#32),
    TRef.unary (TRef.of (T := ⟨S_, .i32⟩) main_call0_c_2) (TRef.of (T := ⟨S64x500x256x1, .i32⟩) main_call0_v6) (broadcastInDim S64x500x256x1 ![] bcast_S_S64x500x256x1),
    TRef.binary (TRef.of (T := ⟨S64x500x256x1, .i32⟩) main_call0_v5) (TRef.of (T := ⟨S64x500x256x1, .i32⟩) main_call0_v6) (TRef.of (T := ⟨S64x500x256x1, .i1⟩) main_call0_v7) (cmpi .sge),
    TRef.unary (TRef.of (T := ⟨S1, .i32⟩) main_call0_c_1) (TRef.of (T := ⟨S1x1x1x1, .i32⟩) main_call0_v8) (broadcastInDim S1x1x1x1 ![3] bcast_S1_S1x1x1x1_3),
    TRef.unary (TRef.of (T := ⟨S1x1x1x1, .i32⟩) main_call0_v8) (TRef.of (T := ⟨S64x500x256x1, .i32⟩) main_call0_v9) (broadcastInDim S64x500x256x1 ![0, 1, 2, 3] bcast_S1x1x1x1_S64x500x256x1_0_1_2_3),
    TRef.binary (TRef.of (T := ⟨S64x500x256x1, .i32⟩) main_call0_v5) (TRef.of (T := ⟨S64x500x256x1, .i32⟩) main_call0_v9) (TRef.of (T := ⟨S64x500x256x1, .i1⟩) main_call0_v10) (cmpi .sle),
    TRef.binary (TRef.of (T := ⟨S64x500x256x1, .i1⟩) main_call0_v7) (TRef.of (T := ⟨S64x500x256x1, .i1⟩) main_call0_v10) (TRef.of (T := ⟨S64x500x256x1, .i1⟩) main_call0_v11) andi,
    TRef.nullary (TRef.of (T := ⟨S_, .i1⟩) main_call0_c_3) (constantI S_ 1 1#1),
    TRef.binary (TRef.of (T := ⟨S64x500x256x1, .i1⟩) main_call0_v11) (TRef.of (T := ⟨S_, .i1⟩) main_call0_c_3) (TRef.of (T := ⟨S64x500x256, .i1⟩) main_call0_v12) (fun x v => Host.reduce IntOp.andi x v reducesTo_S64x500x256x1_S64x500x256_d3 h_S_),
    TRef.binary (TRef.of (T := ⟨S64x1000x256, .f32⟩) main_arg0) (TRef.of (T := ⟨S64x500x256x1, .i32⟩) main_call0_v5) (TRef.of (T := ⟨S64x500x256, .f32⟩) main_call0_v13) (fun x i => Host.gather gather_S64x1000x256_S64x500x256x1_S64x500x256_n_1_02_02_1_3_111 x i),
    TRef.nullary (TRef.of (T := ⟨S_, .f32⟩) main_call0_cst) (constant S_ .f32 0x7FC00000#32),
    TRef.unary (TRef.of (T := ⟨S_, .f32⟩) main_call0_cst) (TRef.of (T := ⟨S64x500x256, .f32⟩) main_call0_v14) (broadcastInDim S64x500x256 ![] bcast_S_S64x500x256),
    TRef.ternary (TRef.of (T := ⟨S64x500x256, .i1⟩) main_call0_v12) (TRef.of (T := ⟨S64x500x256, .f32⟩) main_call0_v13) (TRef.of (T := ⟨S64x500x256, .f32⟩) main_call0_v14) (TRef.of (T := ⟨S64x500x256, .f32⟩) main_v7) select,
    binary main_v7 main_arg6 main_v8 ((fun l r => Host.dotGeneral dot_S64x500x256_S256x256_S64x500x256_2_1_01_0_n_n none l r) : (⟨S64x500x256, .f32⟩ : BufTy).Contents (Elt F) → (⟨S256x256, .f32⟩ : BufTy).Contents (Elt F) → (⟨S64x500x256, .f32⟩ : BufTy).Contents (Elt F)),
    binary main_v7 main_arg5 main_v9 ((fun l r => Host.dotGeneral dot_S64x500x256_S256x256_S64x500x256_2_1_01_0_n_n none l r) : (⟨S64x500x256, .f32⟩ : BufTy).Contents (Elt F) → (⟨S256x256, .f32⟩ : BufTy).Contents (Elt F) → (⟨S64x500x256, .f32⟩ : BufTy).Contents (Elt F)),
    nullary main_cst_1 (constant S_ .f32 0xFF800000#32),
    unary main_cst_1 main_v10 (broadcastInDim S64x500x1000 ![] bcast_S_S64x500x1000 : (⟨S_, .f32⟩ : BufTy).Contents (Elt F) → (⟨S64x500x1000, .f32⟩ : BufTy).Contents (Elt F)),
    binary main_arg3 main_v10 main_v11 (cmpf .oeq : (⟨S64x500x1000, .f32⟩ : BufTy).Contents (Elt F) → (⟨S64x500x1000, .f32⟩ : BufTy).Contents (Elt F) → (⟨S64x500x1000, .i1⟩ : BufTy).Contents (Elt F)),
    nullary main_cst_2 (constant S_ .f32 0x3F800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S64x500x1000, .f32⟩) main_call1_v1) (broadcastInDim S64x500x1000 ![] bcast_S_S64x500x1000),
    TRef.ternary (TRef.of (T := ⟨S64x500x1000, .i1⟩) main_v11) (TRef.of (T := ⟨S64x500x1000, .f32⟩) main_call1_v1) (TRef.of (T := ⟨S64x500x1000, .f32⟩) main_arg3) (TRef.of (T := ⟨S64x500x1000, .f32⟩) main_v12) select,
    binary main_v12 main_arg0 main_v13 ((fun l r => Host.dotGeneral dot_S64x500x1000_S64x1000x256_S64x500x256_2_1_1_2_0_0 none l r) : (⟨S64x500x1000, .f32⟩ : BufTy).Contents (Elt F) → (⟨S64x1000x256, .f32⟩ : BufTy).Contents (Elt F) → (⟨S64x500x256, .f32⟩ : BufTy).Contents (Elt F)),
    nullary main_cst_3 (constant S_ .f32 0x447A0000#32),
    unary main_cst_3 main_v14 (broadcastInDim S64x500x256 ![] bcast_S_S64x500x256 : (⟨S_, .f32⟩ : BufTy).Contents (Elt F) → (⟨S64x500x256, .f32⟩ : BufTy).Contents (Elt F)),
    binary main_v13 main_v14 main_v15 (Host.divf : (⟨S64x500x256, .f32⟩ : BufTy).Contents (Elt F) → (⟨S64x500x256, .f32⟩ : BufTy).Contents (Elt F) → (⟨S64x500x256, .f32⟩ : BufTy).Contents (Elt F)),
    binary main_v15 main_arg7 main_v16 ((fun l r => Host.dotGeneral dot_S64x500x256_S256x256_S64x500x256_2_1_01_0_n_n none l r) : (⟨S64x500x256, .f32⟩ : BufTy).Contents (Elt F) → (⟨S256x256, .f32⟩ : BufTy).Contents (Elt F) → (⟨S64x500x256, .f32⟩ : BufTy).Contents (Elt F)) ]

/-- Operations 45 … 92: the gathered distances (`main_v19`), the summed query against the keys, scaled, minus the scaled distances, through `tanh`, scaled, plus the mask term: the logits `main_v36`. -/
abbrev opsB : List (HloOp τ sig (Elt F)) :=
  [ unary main_arg2 main_v17 (broadcastInDim S64x500x1 ![0, 1] bcast_S64x500_S64x500x1_0_1 : (⟨S64x500, .i32⟩ : BufTy).Contents (Elt F) → (⟨S64x500x1, .i32⟩ : BufTy).Contents (Elt F)),
    unary main_v17 main_v18 (broadcastInDim S64x500x1000 ![0, 1, 2] bcast_S64x500x1_S64x500x1000_0_1_2 : (⟨S64x500x1, .i32⟩ : BufTy).Contents (Elt F) → (⟨S64x500x1000, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S64x500x1000, .i32⟩) main_call2_v0) (broadcastInDim S64x500x1000 ![] bcast_S_S64x500x1000),
    TRef.binary (TRef.of (T := ⟨S64x500x1000, .i32⟩) main_v18) (TRef.of (T := ⟨S64x500x1000, .i32⟩) main_call2_v0) (TRef.of (T := ⟨S64x500x1000, .i1⟩) main_call2_v1) (cmpi .slt),
    TRef.nullary (TRef.of (T := ⟨S_, .i32⟩) main_call2_c_0) (constantI S_ 32 1000#32),
    TRef.unary (TRef.of (T := ⟨S_, .i32⟩) main_call2_c_0) (TRef.of (T := ⟨S64x500x1000, .i32⟩) main_call2_v2) (broadcastInDim S64x500x1000 ![] bcast_S_S64x500x1000),
    TRef.binary (TRef.of (T := ⟨S64x500x1000, .i32⟩) main_v18) (TRef.of (T := ⟨S64x500x1000, .i32⟩) main_call2_v2) (TRef.of (T := ⟨S64x500x1000, .i32⟩) main_call2_v3) addi,
    TRef.ternary (TRef.of (T := ⟨S64x500x1000, .i1⟩) main_call2_v1) (TRef.of (T := ⟨S64x500x1000, .i32⟩) main_call2_v3) (TRef.of (T := ⟨S64x500x1000, .i32⟩) main_v18) (TRef.of (T := ⟨S64x500x1000, .i32⟩) main_call2_v4) select,
    TRef.reshape (TRef.of (T := ⟨S64x500x1000, .i32⟩) main_call2_v4) (TRef.of (T := ⟨S64x500x1000x1, .i32⟩) main_call2_v5) rfl shapeCasts_S64x500x1000_S64x500x1000x1,
    TRef.nullary (TRef.of (T := ⟨S1, .i32⟩) main_call2_c_1) (constantI S1 32 999#32),
    TRef.nullary (TRef.of (T := ⟨S_, .i32⟩) main_call2_c_2) (constantI S_ 32 0#32),
    TRef.unary (TRef.of (T := ⟨S_, .i32⟩) main_call2_c_2) (TRef.of (T := ⟨S64x500x1000x1, .i32⟩) main_call2_v6) (broadcastInDim S64x500x1000x1 ![] bcast_S_S64x500x1000x1),
    TRef.binary (TRef.of (T := ⟨S64x500x1000x1, .i32⟩) main_call2_v5) (TRef.of (T := ⟨S64x500x1000x1, .i32⟩) main_call2_v6) (TRef.of (T := ⟨S64x500x1000x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S64x500x1000x1, .i32⟩) main_call2_v9) (broadcastInDim S64x500x1000x1 ![0, 1, 2, 3] bcast_S1x1x1x1_S64x500x1000x1_0_1_2_3),
    TRef.binary (TRef.of (T := ⟨S64x500x1000x1, .i32⟩) main_call2_v5) (TRef.of (T := ⟨S64x500x1000x1, .i32⟩) main_call2_v9) (TRef.of (T := ⟨S64x500x1000x1, .i1⟩) main_call2_v10) (cmpi .sle),
    TRef.binary (TRef.of (T := ⟨S64x500x1000x1, .i1⟩) main_call2_v7) (TRef.of (T := ⟨S64x500x1000x1, .i1⟩) main_call2_v10) (TRef.of (T := ⟨S64x500x1000x1, .i1⟩) main_call2_v11) andi,
    TRef.nullary (TRef.of (T := ⟨S_, .i1⟩) main_call2_c_3) (constantI S_ 1 1#1),
    TRef.binary (TRef.of (T := ⟨S64x500x1000x1, .i1⟩) main_call2_v11) (TRef.of (T := ⟨S_, .i1⟩) main_call2_c_3) (TRef.of (T := ⟨S64x500x1000, .i1⟩) main_call2_v12) (fun x v => Host.reduce IntOp.andi x v reducesTo_S64x500x1000x1_S64x500x1000_d3 h_S_),
    TRef.binary (TRef.of (T := ⟨S64x1000x1000, .f32⟩) main_arg1) (TRef.of (T := ⟨S64x500x1000x1, .i32⟩) main_call2_v5) (TRef.of (T := ⟨S64x500x1000, .f32⟩) main_call2_v13) (fun x i => Host.gather gather_S64x1000x1000_S64x500x1000x1_S64x500x1000_n_1_02_02_1_3_111 x i),
    TRef.nullary (TRef.of (T := ⟨S_, .f32⟩) main_call2_cst) (constant S_ .f32 0x7FC00000#32),
    TRef.unary (TRef.of (T := ⟨S_, .f32⟩) main_call2_cst) (TRef.of (T := ⟨S64x500x1000, .f32⟩) main_call2_v14) (broadcastInDim S64x500x1000 ![] bcast_S_S64x500x1000),
    TRef.ternary (TRef.of (T := ⟨S64x500x1000, .i1⟩) main_call2_v12) (TRef.of (T := ⟨S64x500x1000, .f32⟩) main_call2_v13) (TRef.of (T := ⟨S64x500x1000, .f32⟩) main_call2_v14) (TRef.of (T := ⟨S64x500x1000, .f32⟩) main_v19) select,
    binary main_v8 main_v9 main_v20 (addf : (⟨S64x500x256, .f32⟩ : BufTy).Contents (Elt F) → (⟨S64x500x256, .f32⟩ : BufTy).Contents (Elt F) → (⟨S64x500x256, .f32⟩ : BufTy).Contents (Elt F)),
    unary main_v4 main_v21 (broadcastInDim S64x500x256 ![0, 1, 2] bcast_S64x1x256_S64x500x256_0_1_2 : (⟨S64x1x256, .f32⟩ : BufTy).Contents (Elt F) → (⟨S64x500x256, .f32⟩ : BufTy).Contents (Elt F)),
    binary main_v20 main_v21 main_v22 (addf : (⟨S64x500x256, .f32⟩ : BufTy).Contents (Elt F) → (⟨S64x500x256, .f32⟩ : BufTy).Contents (Elt F) → (⟨S64x500x256, .f32⟩ : BufTy).Contents (Elt F)),
    binary main_v22 main_v16 main_v23 (addf : (⟨S64x500x256, .f32⟩ : BufTy).Contents (Elt F) → (⟨S64x500x256, .f32⟩ : BufTy).Contents (Elt F) → (⟨S64x500x256, .f32⟩ : BufTy).Contents (Elt F)),
    binary main_v23 main_arg0 main_v24 ((fun l r => Host.dotGeneral dot_S64x500x256_S64x1000x256_S64x500x1000_2_2_1_1_0_0 none l r) : (⟨S64x500x256, .f32⟩ : BufTy).Contents (Elt F) → (⟨S64x1000x256, .f32⟩ : BufTy).Contents (Elt F) → (⟨S64x500x1000, .f32⟩ : BufTy).Contents (Elt F)),
    nullary main_cst_4 (constant S_ .f32 0x3D800000#32),
    unary main_cst_4 main_v25 (broadcastInDim S64x500x1000 ![] bcast_S_S64x500x1000 : (⟨S_, .f32⟩ : BufTy).Contents (Elt F) → (⟨S64x500x1000, .f32⟩ : BufTy).Contents (Elt F)),
    binary main_v24 main_v25 main_v26 (mulf : (⟨S64x500x1000, .f32⟩ : BufTy).Contents (Elt F) → (⟨S64x500x1000, .f32⟩ : BufTy).Contents (Elt F) → (⟨S64x500x1000, .f32⟩ : BufTy).Contents (Elt F)),
    nullary main_cst_5 (constant S_ .f32 0x3F3504F3#32),
    unary main_cst_5 main_v27 (broadcastInDim S64x500x1000 ![] bcast_S_S64x500x1000 : (⟨S_, .f32⟩ : BufTy).Contents (Elt F) → (⟨S64x500x1000, .f32⟩ : BufTy).Contents (Elt F)),
    binary main_v19 main_v27 main_v28 (mulf : (⟨S64x500x1000, .f32⟩ : BufTy).Contents (Elt F) → (⟨S64x500x1000, .f32⟩ : BufTy).Contents (Elt F) → (⟨S64x500x1000, .f32⟩ : BufTy).Contents (Elt F)),
    binary main_v26 main_v28 main_v29 (subf : (⟨S64x500x1000, .f32⟩ : BufTy).Contents (Elt F) → (⟨S64x500x1000, .f32⟩ : BufTy).Contents (Elt F) → (⟨S64x500x1000, .f32⟩ : BufTy).Contents (Elt F)),
    unary main_v29 main_v30 (Host.tanh : (⟨S64x500x1000, .f32⟩ : BufTy).Contents (Elt F) → (⟨S64x500x1000, .f32⟩ : BufTy).Contents (Elt F)),
    nullary main_cst_6 (constant S_ .f32 0x41200000#32),
    unary main_cst_6 main_v31 (broadcastInDim S64x500x1000 ![] bcast_S_S64x500x1000 : (⟨S_, .f32⟩ : BufTy).Contents (Elt F) → (⟨S64x500x1000, .f32⟩ : BufTy).Contents (Elt F)),
    binary main_v31 main_v30 main_v32 (mulf : (⟨S64x500x1000, .f32⟩ : BufTy).Contents (Elt F) → (⟨S64x500x1000, .f32⟩ : BufTy).Contents (Elt F) → (⟨S64x500x1000, .f32⟩ : BufTy).Contents (Elt F)),
    nullary main_cst_7 (constant S_ .f32 0xFF800000#32),
    unary main_cst_7 main_v33 (broadcastInDim S64x500x1000 ![] bcast_S_S64x500x1000 : (⟨S_, .f32⟩ : BufTy).Contents (Elt F) → (⟨S64x500x1000, .f32⟩ : BufTy).Contents (Elt F)),
    binary main_arg3 main_v33 main_v34 (cmpf .oeq : (⟨S64x500x1000, .f32⟩ : BufTy).Contents (Elt F) → (⟨S64x500x1000, .f32⟩ : BufTy).Contents (Elt F) → (⟨S64x500x1000, .i1⟩ : BufTy).Contents (Elt F)),
    nullary main_cst_8 (constant S_ .f32 0xCCBEBC20#32),
    TRef.unary (TRef.of (T := ⟨S_, .f32⟩) main_cst_8) (TRef.of (T := ⟨S_, .f32⟩) main_call3_v0) id,
    TRef.unary (TRef.of (T := ⟨S_, .f32⟩) main_call3_v0) (TRef.of (T := ⟨S64x500x1000, .f32⟩) main_call3_v1) (broadcastInDim S64x500x1000 ![] bcast_S_S64x500x1000),
    TRef.ternary (TRef.of (T := ⟨S64x500x1000, .i1⟩) main_v34) (TRef.of (T := ⟨S64x500x1000, .f32⟩) main_call3_v1) (TRef.of (T := ⟨S64x500x1000, .f32⟩) main_arg3) (TRef.of (T := ⟨S64x500x1000, .f32⟩) main_v35) select,
    binary main_v32 main_v35 main_v36 (addf : (⟨S64x500x1000, .f32⟩ : BufTy).Contents (Elt F) → (⟨S64x500x1000, .f32⟩ : BufTy).Contents (Elt F) → (⟨S64x500x1000, .f32⟩ : BufTy).Contents (Elt F)) ]

/-- Operations 93 … 101: the row maximum subtracted and the exponential taken: `main_v43`. -/
abbrev opsC : List (HloOp τ sig (Elt F)) :=
  [ nullary main_cst_9 (constant S_ .f32 0xFF800000#32),
    binary main_v36 main_cst_9 main_v37 ((fun x v => Host.reduce FloatOps.maximumf x v reducesTo_S64x500x1000_S64x500_d2 h_S_) : (⟨S64x500x1000, .f32⟩ : BufTy).Contents (Elt F) → (⟨S_, .f32⟩ : BufTy).Contents (Elt F) → (⟨S64x500, .f32⟩ : BufTy).Contents (Elt F)),
    nullary main_cst_10 (constant S_ .f32 0xFF800000#32),
    unary main_cst_10 main_v38 (broadcastInDim S64x500 ![] bcast_S_S64x500 : (⟨S_, .f32⟩ : BufTy).Contents (Elt F) → (⟨S64x500, .f32⟩ : BufTy).Contents (Elt F)),
    binary main_v38 main_v37 main_v39 (maximumf : (⟨S64x500, .f32⟩ : BufTy).Contents (Elt F) → (⟨S64x500, .f32⟩ : BufTy).Contents (Elt F) → (⟨S64x500, .f32⟩ : BufTy).Contents (Elt F)),
    unary main_v39 main_v40 (broadcastInDim S64x500x1 ![0, 1] bcast_S64x500_S64x500x1_0_1 : (⟨S64x500, .f32⟩ : BufTy).Contents (Elt F) → (⟨S64x500x1, .f32⟩ : BufTy).Contents (Elt F)),
    unary main_v40 main_v41 (broadcastInDim S64x500x1000 ![0, 1, 2] bcast_S64x500x1_S64x500x1000_0_1_2 : (⟨S64x500x1, .f32⟩ : BufTy).Contents (Elt F) → (⟨S64x500x1000, .f32⟩ : BufTy).Contents (Elt F)),
    binary main_v36 main_v41 main_v42 (subf : (⟨S64x500x1000, .f32⟩ : BufTy).Contents (Elt F) → (⟨S64x500x1000, .f32⟩ : BufTy).Contents (Elt F) → (⟨S64x500x1000, .f32⟩ : BufTy).Contents (Elt F)),
    unary main_v42 main_v43 (Host.exp : (⟨S64x500x1000, .f32⟩ : BufTy).Contents (Elt F) → (⟨S64x500x1000, .f32⟩ : BufTy).Contents (Elt F)) ]

/-- Operations 102 … 106: the row sum and the quotient: the result `main_v47`. -/
abbrev opsD : List (HloOp τ sig (Elt F)) :=
  [ nullary main_cst_11 (constant S_ .f32 0x00000000#32),
    binary main_v43 main_cst_11 main_v44 ((fun x v => Host.reduceAdd x v reducesTo_S64x500x1000_S64x500_d2 h_S_) : (⟨S64x500x1000, .f32⟩ : BufTy).Contents (Elt F) → (⟨S_, .f32⟩ : BufTy).Contents (Elt F) → (⟨S64x500, .f32⟩ : BufTy).Contents (Elt F)),
    unary main_v44 main_v45 (broadcastInDim S64x500x1 ![0, 1] bcast_S64x500_S64x500x1_0_1 : (⟨S64x500, .f32⟩ : BufTy).Contents (Elt F) → (⟨S64x500x1, .f32⟩ : BufTy).Contents (Elt F)),
    unary main_v45 main_v46 (broadcastInDim S64x500x1000 ![0, 1, 2] bcast_S64x500x1_S64x500x1000_0_1_2 : (⟨S64x500x1, .f32⟩ : BufTy).Contents (Elt F) → (⟨S64x500x1000, .f32⟩ : BufTy).Contents (Elt F)),
    binary main_v43 main_v46 main_v47 (Host.divf : (⟨S64x500x1000, .f32⟩ : BufTy).Contents (Elt F) → (⟨S64x500x1000, .f32⟩ : BufTy).Contents (Elt F) → (⟨S64x500x1000, .f32⟩ : BufTy).Contents (Elt F)) ]

/-- The whole line is the four stretches in a row. -/
theorem ops_split : (ops : List (HloOp τ sig (Elt F))) = opsA ++ opsB ++ opsC ++ opsD := rfl

end Cert.ReferenceIdeal.Stages

end
-- ==== Proof.RefStages.lean ====
/-
  The reference program's run, proved over four stretches of its 107 operations.

  A straight line of host operations leaves every buffer at the fold of the operations' results over the launch
  contents.  Evaluating that fold for the result buffer in one piece yields a term in which several intermediate
  values occur two or three times over; here the line is cut where few values are live, and each stretch is
  evaluated over an arbitrary valuation X:

    first stretch    four values of the arguments (a mean query projected, the gathered rows under two
                     projections, a masked average projected), the first four arguments kept;
    second stretch   the logits, a function of those four values and of the first four arguments;
    third stretch    the logits minus their row maximum, exponentiated;
    fourth stretch   that, divided by its row sum: the result.

  Each value is identified with its stage function (the composition of single operations, one definition per
  buffer), so no stretch's term repeats a long subterm.  Folding a concatenation is folding the pieces in turn,
  which chains the four facts; no operation writes an argument, so the arguments' buffers are unchanged.

  The operations of called functions are first restated at plain references (the transport of a function along a
  type equation that holds by reflexivity is that function), so that evaluation leaves no transport behind.
-/
import proofs.«407836_j40321152975399_2_alg».proof.Proof.RefRead
import proofs.«407836_j40321152975399_2_alg».proof.Proof.RefTwins
import Idealize.ShloMosaic.Lib.StableHlo.Run
import Idealize.ShloMosaic.Lib.Pipeline.Frame

noncomputable section

namespace Cert.ReferenceIdeal.Stages

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-! ## The first stretch: four values of the arguments, and the arguments kept -/

set_option maxRecDepth 4096 in
theorem A_v4 (X : Valuation τ sig (Elt F)) :
    after (opsA (F := F)) X (Proc.devRef .tc main_v4) = ReadP.val_main_v4 (F := F) (X (Proc.devRef .tc main_arg0)) (X (Proc.devRef .tc main_arg4)) := by
  simp only [opsA, twin_9, twin_10, twin_11, twin_12, twin_13, twin_14, twin_15, twin_16, twin_17, twin_18, twin_19, twin_20, twin_21, twin_22, twin_23, twin_24, twin_25, twin_26, twin_27, twin_28, twin_29, twin_30, twin_37, twin_38, twin_39]
  after_results_simp
  rfl

set_option maxRecDepth 4096 in
theorem A_v8 (X : Valuation τ sig (Elt F)) :
    after (opsA (F := F)) X (Proc.devRef .tc main_v8) = ReadP.val_main_v8 (F := F) (X (Proc.devRef .tc main_arg0)) (X (Proc.devRef .tc main_arg2)) (X (Proc.devRef .tc main_arg6)) := by
  simp only [opsA, twin_9, twin_10, twin_11, twin_12, twin_13, twin_14, twin_15, twin_16, twin_17, twin_18, twin_19, twin_20, twin_21, twin_22, twin_23, twin_24, twin_25, twin_26, twin_27, twin_28, twin_29, twin_30, twin_37, twin_38, twin_39]
  after_results_simp
  rfl

set_option maxRecDepth 4096 in
theorem A_v9 (X : Valuation τ sig (Elt F)) :
    after (opsA (F := F)) X (Proc.devRef .tc main_v9) = ReadP.val_main_v9 (F := F) (X (Proc.devRef .tc main_arg0)) (X (Proc.devRef .tc main_arg2)) (X (Proc.devRef .tc main_arg5)) := by
  simp only [opsA, twin_9, twin_10, twin_11, twin_12, twin_13, twin_14, twin_15, twin_16, twin_17, twin_18, twin_19, twin_20, twin_21, twin_22, twin_23, twin_24, twin_25, twin_26, twin_27, twin_28, twin_29, twin_30, twin_37, twin_38, twin_39]
  after_results_simp
  rfl

set_option maxRecDepth 4096 in
theorem A_v16 (X : Valuation τ sig (Elt F)) :
    after (opsA (F := F)) X (Proc.devRef .tc main_v16) = ReadP.val_main_v16 (F := F) (X (Proc.devRef .tc main_arg0)) (X (Proc.devRef .tc main_arg3)) (X (Proc.devRef .tc main_arg7)) := by
  simp only [opsA, twin_9, twin_10, twin_11, twin_12, twin_13, twin_14, twin_15, twin_16, twin_17, twin_18, twin_19, twin_20, twin_21, twin_22, twin_23, twin_24, twin_25, twin_26, twin_27, twin_28, twin_29, twin_30, twin_37, twin_38, twin_39]
  after_results_simp
  rfl

set_option maxRecDepth 4096 in
theorem A_arg0 (X : Valuation τ sig (Elt F)) :
    after (opsA (F := F)) X (Proc.devRef .tc main_arg0) = X (Proc.devRef .tc main_arg0) := by
  simp only [opsA]
  after_results_simp

set_option maxRecDepth 4096 in
theorem A_arg1 (X : Valuation τ sig (Elt F)) :
    after (opsA (F := F)) X (Proc.devRef .tc main_arg1) = X (Proc.devRef .tc main_arg1) := by
  simp only [opsA]
  after_results_simp

set_option maxRecDepth 4096 in
theorem A_arg2 (X : Valuation τ sig (Elt F)) :
    after (opsA (F := F)) X (Proc.devRef .tc main_arg2) = X (Proc.devRef .tc main_arg2) := by
  simp only [opsA]
  after_results_simp

set_option maxRecDepth 4096 in
theorem A_arg3 (X : Valuation τ sig (Elt F)) :
    after (opsA (F := F)) X (Proc.devRef .tc main_arg3) = X (Proc.devRef .tc main_arg3) := by
  simp only [opsA]
  after_results_simp

/-! ## The second stretch: the logits, from the four values and the first four arguments -/

set_option maxRecDepth 4096 in
theorem B_v36 (X : Valuation τ sig (Elt F))
    (a0 : (⟨S64x1000x256, .f32⟩ : BufTy).Contents (Elt F)) (a1 : (⟨S64x1000x1000, .f32⟩ : BufTy).Contents (Elt F))
    (a2 : (⟨S64x500, .i32⟩ : BufTy).Contents (Elt F)) (a3 : (⟨S64x500x1000, .f32⟩ : BufTy).Contents (Elt F))
    (a4 a5 a6 a7 : (⟨S256x256, .f32⟩ : BufTy).Contents (Elt F))
    (e0 : X (Proc.devRef .tc main_arg0) = a0) (e1 : X (Proc.devRef .tc main_arg1) = a1)
    (e2 : X (Proc.devRef .tc main_arg2) = a2) (e3 : X (Proc.devRef .tc main_arg3) = a3)
    (h4 : X (Proc.devRef .tc main_v4) = ReadP.val_main_v4 (F := F) a0 a4)
    (h8 : X (Proc.devRef .tc main_v8) = ReadP.val_main_v8 (F := F) a0 a2 a6)
    (h9 : X (Proc.devRef .tc main_v9) = ReadP.val_main_v9 (F := F) a0 a2 a5)
    (h16 : X (Proc.devRef .tc main_v16) = ReadP.val_main_v16 (F := F) a0 a3 a7) :
    after (opsB (F := F)) X (Proc.devRef .tc main_v36) = ReadP.val_main_v36 (F := F) a0 a1 a2 a3 a4 a5 a6 a7 := by
  subst e0 e1 e2 e3
  simp only [opsB, twin_47, twin_48, twin_49, twin_50, twin_51, twin_52, twin_53, twin_54, twin_55, twin_56, twin_57, twin_58, twin_59, twin_60, twin_61, twin_62, twin_63, twin_64, twin_65, twin_66, twin_67, twin_68, twin_89, twin_90, twin_91]
  after_results_simp
  rw [h4, h8, h9, h16]
  rfl

/-! ## The third and fourth stretches: each reads one value -/

theorem C_v43 (X : Valuation τ sig (Elt F))
    (a0 : (⟨S64x1000x256, .f32⟩ : BufTy).Contents (Elt F)) (a1 : (⟨S64x1000x1000, .f32⟩ : BufTy).Contents (Elt F))
    (a2 : (⟨S64x500, .i32⟩ : BufTy).Contents (Elt F)) (a3 : (⟨S64x500x1000, .f32⟩ : BufTy).Contents (Elt F))
    (a4 a5 a6 a7 : (⟨S256x256, .f32⟩ : BufTy).Contents (Elt F))
    (h36 : X (Proc.devRef .tc main_v36) = ReadP.val_main_v36 (F := F) a0 a1 a2 a3 a4 a5 a6 a7) :
    after (opsC (F := F)) X (Proc.devRef .tc main_v43) = ReadP.val_main_v43 (F := F) a0 a1 a2 a3 a4 a5 a6 a7 := by
  simp only [opsC]
  after_results_simp
  rw [h36]
  rfl

theorem D_v47 (X : Valuation τ sig (Elt F))
    (a0 : (⟨S64x1000x256, .f32⟩ : BufTy).Contents (Elt F)) (a1 : (⟨S64x1000x1000, .f32⟩ : BufTy).Contents (Elt F))
    (a2 : (⟨S64x500, .i32⟩ : BufTy).Contents (Elt F)) (a3 : (⟨S64x500x1000, .f32⟩ : BufTy).Contents (Elt F))
    (a4 a5 a6 a7 : (⟨S256x256, .f32⟩ : BufTy).Contents (Elt F))
    (h43 : X (Proc.devRef .tc main_v43) = ReadP.val_main_v43 (F := F) a0 a1 a2 a3 a4 a5 a6 a7) :
    after (opsD (F := F)) X (Proc.devRef .tc main_v47) = ReadP.val_main_v47 (F := F) a0 a1 a2 a3 a4 a5 a6 a7 := by
  simp only [opsD]
  after_results_simp
  rw [h43]
  rfl

/-! ## The whole line -/

/-- The result buffer after all 107 operations is the stage function of the arguments' contents. -/
theorem after_ops_v47 (V : Valuation τ sig (Elt F)) :
    after (ops (F := F)) V (Proc.devRef .tc main_v47)
      = ReadP.val_main_v47 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [ops_split, after_append, after_append, after_append]
  exact D_v47 _ _ _ _ _ _ _ _ _ (C_v43 _ _ _ _ _ _ _ _ _ (B_v36 (after opsA V) _ _ _ _ _ _ _ _
    (A_arg0 V) (A_arg1 V) (A_arg2 V) (A_arg3 V) (A_v4 V) (A_v8 V) (A_v9 V) (A_v16 V)))

/-! No operation of the line writes an argument. -/

set_option maxRecDepth 8192 in
theorem after_ops_arg0 (V : Valuation τ sig (Elt F)) :
    after (ops (F := F)) V (Proc.devRef .tc main_arg0) = V (Proc.devRef .tc main_arg0) := by
  simp only [ops]
  after_results_simp

set_option maxRecDepth 8192 in
theorem after_ops_arg1 (V : Valuation τ sig (Elt F)) :
    after (ops (F := F)) V (Proc.devRef .tc main_arg1) = V (Proc.devRef .tc main_arg1) := by
  simp only [ops]
  after_results_simp

set_option maxRecDepth 8192 in
theorem after_ops_arg2 (V : Valuation τ sig (Elt F)) :
    after (ops (F := F)) V (Proc.devRef .tc main_arg2) = V (Proc.devRef .tc main_arg2) := by
  simp only [ops]
  after_results_simp

set_option maxRecDepth 8192 in
theorem after_ops_arg3 (V : Valuation τ sig (Elt F)) :
    after (ops (F := F)) V (Proc.devRef .tc main_arg3) = V (Proc.devRef .tc main_arg3) := by
  simp only [ops]
  after_results_simp

set_option maxRecDepth 8192 in
theorem after_ops_arg4 (V : Valuation τ sig (Elt F)) :
    after (ops (F := F)) V (Proc.devRef .tc main_arg4) = V (Proc.devRef .tc main_arg4) := by
  simp only [ops]
  after_results_simp

set_option maxRecDepth 8192 in
theorem after_ops_arg5 (V : Valuation τ sig (Elt F)) :
    after (ops (F := F)) V (Proc.devRef .tc main_arg5) = V (Proc.devRef .tc main_arg5) := by
  simp only [ops]
  after_results_simp

set_option maxRecDepth 8192 in
theorem after_ops_arg6 (V : Valuation τ sig (Elt F)) :
    after (ops (F := F)) V (Proc.devRef .tc main_arg6) = V (Proc.devRef .tc main_arg6) := by
  simp only [ops]
  after_results_simp

set_option maxRecDepth 8192 in
theorem after_ops_arg7 (V : Valuation τ sig (Elt F)) :
    after (ops (F := F)) V (Proc.devRef .tc main_arg7) = V (Proc.devRef .tc main_arg7) := by
  simp only [ops]
  after_results_simp

set_option maxRecDepth 8192 in
/-- On every device, for any float values, from any memory with zero counters: every weakly fair execution of
    @main terminates with the result at its stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = Cert.ReferenceIdeal.ReadP.val_main_v47 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v47).trans (after_ops_v47 (launchContents m c)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c)),
      (h c main_arg5).trans (after_ops_arg5 (launchContents m c)),
      (h c main_arg6).trans (after_ops_arg6 (launchContents m c)),
      (h c main_arg7).trans (after_ops_arg7 (launchContents m c))⟩)
    (run_seq scopedRefs_eq scopedSems_eq defs main (fun _ => ops) main_eq (fun _ => ops_sub) m ρ)

end Cert.ReferenceIdeal.Stages

end
-- ==== Proof.Spec.lean ====
/-
  One row of the result, as a function of the inputs seen from that row.

  For a batch `b` and a group row `g` with last node `ℓ`, the result row is the softmax over the 1000 nodes `n` of

    logit n = 10 · tanh ( ⟨q, E n⟩ · (1/16) − D ℓ n · c ) + maskProb (M n)

  where `E` is the batch's embedding matrix (1000 × 256), `D ℓ` the row of distances from the last node, `M` the row's
  mask, and the query `q = Wl·E ℓ + Wf·E ℓ + Wg·mean E + Wv·pooled`: the mean is the column sum of `E` divided by 1000, and
  `pooled` is the mask-weighted column sum of `E` (a `−∞` mask entry counted as 1) times 1/1000. The softmax subtracts
  the row maximum before exponentiating and divides by the sum of the exponentials.

  Every float literal stays the bit pattern both programs carry; only `1000` is ever evaluated, where one program divides by
  it and the other multiplies by its reciprocal.
-/
import Idealize.ShloMosaic.PureOps.Ideal
import Idealize.ShloMosaic.PureOps.Ideal.Laws
import Idealize.ShloMosaic.Lib.ValueIdx

noncomputable section

namespace Cert.Spec

open Idealize.ShloMosaic

/-- The pattern of `-∞`, which both programs compare the mask against and start the row maximum from. -/
abbrev ninf : EReal := Ideal.ofBits .f32 0xFF800000#32

/-- `W · v`: the linear head `o ↦ ∑ h, v h · W o h`. -/
def head (v : Fin 256 → EReal) (W : Fin 256 → Fin 256 → EReal) (o : Fin 256) : EReal :=
  ∑ h : Fin 256, v h * W o h

/-- The mean embedding: column sums of `E` over the 1000 nodes, divided by the pattern of 1000. -/
def meanEmb (E : Fin 1000 → Fin 256 → EReal) (h : Fin 256) : EReal :=
  Ideal.div (∑ i : Fin 1000, E i h) (Ideal.ofBits .f32 0x447A0000#32)

/-- A mask entry as a pooling weight: `−∞` counts as 1, anything else as itself. -/
def maskVisited (x : EReal) : EReal :=
  Scalar.select (Ideal.cmp .oeq x ninf) (Ideal.ofBits .f32 0x3F800000#32) x

/-- A mask entry as a logit offset: `−∞` is replaced by the pattern of `-1e8`, anything else is itself. -/
def maskProb (x : EReal) : EReal :=
  Scalar.select (Ideal.cmp .oeq x ninf) (Ideal.ofBits .f32 0xCCBEBC20#32) x

/-- The pooled embedding of a row: the mask-weighted column sums of `E`, times 1/1000. -/
def pooled (E : Fin 1000 → Fin 256 → EReal) (M : Fin 1000 → EReal) (h : Fin 256) : EReal :=
  (∑ n : Fin 1000, maskVisited (M n) * E n h) * ((1 / 1000 : ℝ) : EReal)

/-- The row's query. -/
def query (E : Fin 1000 → Fin 256 → EReal) (El : Fin 256 → EReal) (M : Fin 1000 → EReal)
    (Wg Wl Wf Wv : Fin 256 → Fin 256 → EReal) (h : Fin 256) : EReal :=
  head El Wl h + head El Wf h + head (meanEmb E) Wg h + head (pooled E M) Wv h

/-- The row's logits. -/
def logit (E : Fin 1000 → Fin 256 → EReal) (Dl : Fin 1000 → EReal) (El : Fin 256 → EReal) (M : Fin 1000 → EReal)
    (Wg Wl Wf Wv : Fin 256 → Fin 256 → EReal) (n : Fin 1000) : EReal :=
  Ideal.ofBits .f32 0x41200000#32
      * Ideal.tanh ((∑ h : Fin 256, query E El M Wg Wl Wf Wv h * E n h) * Ideal.ofBits .f32 0x3D800000#32
                    - Dl n * Ideal.ofBits .f32 0x3F3504F3#32)
    + maskProb (M n)

/-- The softmax of a row of logits: maximum from `-∞`, exponentials of the differences, divided by their sum. -/
def softmax (L : Fin 1000 → EReal) (n : Fin 1000) : EReal :=
  Ideal.div (Ideal.exp (L n - (Finset.univ : Finset (Fin 1000)).fold max ninf L))
    (∑ k : Fin 1000, Ideal.exp (L k - (Finset.univ : Finset (Fin 1000)).fold max ninf L))

/-- One row of the result. -/
def rowOut (E : Fin 1000 → Fin 256 → EReal) (Dl : Fin 1000 → EReal) (El : Fin 256 → EReal) (M : Fin 1000 → EReal)
    (Wg Wl Wf Wv : Fin 256 → Fin 256 → EReal) : Fin 1000 → EReal :=
  softmax (logit E Dl El M Wg Wl Wf Wv)

/-- The whole result: row `(b, g)` is `rowOut` of batch `b`'s embeddings and distances, row `(b, g)` of the mask, the
    four weight matrices, and the node `ℓ b g` the row's index names. -/
def result (E : (⟨3, ![64, 1000, 256]⟩ : Shape).Idx → EReal) (D : (⟨3, ![64, 1000, 1000]⟩ : Shape).Idx → EReal)
    (ℓ : Fin 64 → Fin 500 → Fin 1000) (M : (⟨3, ![64, 500, 1000]⟩ : Shape).Idx → EReal)
    (Wg Wf Wl Wv : (⟨2, ![256, 256]⟩ : Shape).Idx → EReal) : (⟨3, ![64, 500, 1000]⟩ : Shape).Idx → EReal := fun i =>
  rowOut (fun k h => E (ValueIdx.ix3 (i 0) k h)) (fun n => D (ValueIdx.ix3 (i 0) (ℓ (i 0) (i 1)) n))
    (fun h => E (ValueIdx.ix3 (i 0) (ℓ (i 0) (i 1)) h)) (fun n => M (ValueIdx.ix3 (i 0) (i 1) n))
    (fun o h => Wg (ValueIdx.ix2 o h)) (fun o h => Wl (ValueIdx.ix2 o h)) (fun o h => Wf (ValueIdx.ix2 o h))
    (fun o h => Wv (ValueIdx.ix2 o h)) (i 2)

/-! ## The two places where the programs differ by more than spelling -/

/-- A sum against a one-hot row picks the named entry: `∑ k, [k = ℓ] · f k = f ℓ` on the extended reals (the other
    products are `0 · f k = 0`, whatever `f k` is). -/
theorem sum_onehot {n : Nat} (ℓ : Fin n) (w : Fin n → EReal) (f : Fin n → EReal)
    (hw : ∀ k, w k = if k = ℓ then 1 else 0) : ∑ k : Fin n, w k * f k = f ℓ := by
  rw [Finset.sum_eq_single ℓ]
  · rw [hw ℓ, if_pos rfl, one_mul]
  · intro k _ hk; rw [hw k, if_neg hk, zero_mul]
  · intro h; exact absurd (Finset.mem_univ ℓ) h

/-- The pattern `0x447A0000` is the real 1000. -/
theorem ofBits_1000 : Ideal.ofBits .f32 0x447A0000#32 = ((1000 : ℝ) : EReal) := by
  simp [Ideal.ofBits, Ideal.ieee, -EReal.coe_mul]; norm_num

/-- Dividing by the pattern of 1000 is multiplying by the real 1/1000, on every extended real. -/
theorem div_1000 (x : EReal) : Ideal.div x (Ideal.ofBits .f32 0x447A0000#32) = x * ((1 / 1000 : ℝ) : EReal) := by
  rw [ofBits_1000]; exact Ideal.div_coe (by norm_num) x

end Cert.Spec

end
-- ==== Proof.RefIsSpec.lean ====
/-
  The reference program computes the specification.

  Row (b, g) of the reference's result is the softmax of that row's logits as Spec.lean writes them, once the row's index
  word is known to be the number ℓ b g < 1000:

  * the index normalisation of the two gathers (a negative index gets 1000 added) leaves a word that reads 0 ≤ ℓ < 1000
    unchanged, its range test 0 ≤ idx ≤ 999 succeeds at every element, so the and-reduction over the index vector's
    one component is 1 and the select takes the gathered value and never the fill; the gather itself reads the operand at
    (b, clamp(idx), h) — batch coordinates on axes 0 and 2, the clamped start index on axis 1 — and the clamp to
    [0, 999] is the identity on ℓ;
  * the mean is (0 + Σ) / 1000 in the program and Σ / 1000 in the specification; the pooled embedding is Σ / 1000 in the
    program and Σ · (1/1000) in the specification;
  * the row maximum is max(−∞, fold) in the program, where the fold itself starts from −∞, and the row sum starts from 0.

  Every other float literal is the same pattern on both sides and is never evaluated.
-/
import proofs.«407836_j40321152975399_2_alg».proof.Proof.Spec
import proofs.«407836_j40321152975399_2_alg».proof.Proof.RefRead
import Idealize.ShloMosaic.Lib.ValueIdx
import Idealize.ShloMosaic.PureOps.Reduce
import Idealize.ShloMosaic.PureOps.Ideal.Laws

noncomputable section

namespace Cert.RefSpec

open Idealize.ShloMosaic Idealize.ShloMosaic.ValueIdx Cert.ReferenceIdeal Cert.ReferenceIdeal.Gen Cert.ReferenceIdeal.ReadP

/-- Two rank-2 indices with the same coordinates are equal, coordinate by coordinate. -/
local macro "idx2" : tactic => `(tactic| (funext a; match a with | ⟨0, _⟩ => rfl | ⟨1, _⟩ => rfl))
/-- The same at rank 3. -/
local macro "idx3" : tactic => `(tactic| (funext a; match a with | ⟨0, _⟩ => rfl | ⟨1, _⟩ => rfl | ⟨2, _⟩ => rfl))

/-! ## Index words: a 32-bit word that reads a number below 1000 -/

/-- Such a word read signed is the number. -/
theorem toInt_small (n : Nat) (h : n < 1000) : (BitVec.ofNat 32 n).toInt = (n : Int) := by
  rw [BitVec.toInt_ofNat']
  exact Int.bmod_eq_of_le (by omega) (by omega)

/-- Read signed and then as a natural number it is still the number. -/
theorem word_toNat (n : Nat) (h : n < 1000) : (BitVec.ofNat 32 n).toInt.toNat = n := by
  rw [toInt_small n h]; rfl

/-- The normalisation "a negative index counts from the end" leaves it alone: it is not negative. -/
theorem word_norm (n : Nat) (h : n < 1000) :
    Scalar.select (IntOp.cmpi .slt (BitVec.ofNat 32 n) 0#32) (IntOp.addi (BitVec.ofNat 32 n) 1000#32) (BitVec.ofNat 32 n)
      = BitVec.ofNat 32 n := by
  have hlt : ¬ (BitVec.ofNat 32 n).slt 0#32 = true := by
    rw [BitVec.slt_iff_toInt_lt, toInt_small n h]; show ¬ ((n : Int) < 0); omega
  unfold Scalar.select IntOp.cmpi
  simp only [hlt]
  rfl

/-- The range test 0 ≤ idx ∧ idx ≤ 999 succeeds. -/
theorem word_inrange (n : Nat) (h : n < 1000) :
    IntOp.andi (IntOp.cmpi .sge (BitVec.ofNat 32 n) 0#32) (IntOp.cmpi .sle (BitVec.ofNat 32 n) 999#32) = 1#1 := by
  have h1 : (0#32 : BitVec 32).sle (BitVec.ofNat 32 n) = true := by
    rw [BitVec.sle_iff_toInt_le, toInt_small n h]; show (0 : Int) ≤ n; omega
  have h2 : (BitVec.ofNat 32 n).sle 999#32 = true := by
    rw [BitVec.sle_iff_toInt_le, toInt_small n h]; show (n : Int) ≤ 999; omega
  unfold IntOp.cmpi
  simp only [h1, h2]
  rfl

/-! ## An and-reduction of ones is one -/

/-- A reduction by and, from the constant 1, of an array whose every element is 1 is 1 at every result index: the fold
    only ever meets 1 ∧ 1. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  generalize (((List.finRange s.numel).map s.rowMajor.symm).filter fun i => h.drop i = j) = l
  induction l with
  | nil => rfl
  | cons a l ih => rw [List.foldl_cons, hx a]; exact ih

/-! ## The two gathers read at an index

Both gather along axis 1 of a rank-3 operand with axes 0 and 2 batching: result element (b, g, h) is the operand at
(b, start, h), the start index read off the index array at (b, g, h, 0), signed, and clamped into [0, 999]. -/

/-- The embeddings' gather: operand [64, 1000, 256], indices [64, 500, 256, 1]. -/
abbrev DE : GatherDims S64x1000x256 S64x500x256x1 S64x500x256 :=
  gather_S64x1000x256_S64x500x256x1_S64x500x256_n_1_02_02_1_3_111
/-- The distances' gather: operand [64, 1000, 1000], indices [64, 500, 1000, 1]. -/
abbrev DD : GatherDims S64x1000x1000 S64x500x1000x1 S64x500x1000 :=
  gather_S64x1000x1000_S64x500x1000x1_S64x500x1000_n_1_02_02_1_3_111

/-- Where result element (b, g, h) reads its start index: at (b, g, h, 0). -/
theorem siIdxE (b : Fin 64) (g : Fin 500) (h : Fin 256) (c : Fin DE.startIndexMap.length) :
    DE.siIdx (ix3 b g h) c = ix4 b g h 0 := by
  funext a; refine Fin.ext ?_
  match a with
  | ⟨0, _⟩ => rfl
  | ⟨1, _⟩ => rfl
  | ⟨2, _⟩ => rfl
  | ⟨3, _⟩ =>
    have hc : c.val < 1 := c.isLt
    show c.val = 0
    omega

theorem siIdxD (b : Fin 64) (g : Fin 500) (h : Fin 1000) (c : Fin DD.startIndexMap.length) :
    DD.siIdx (ix3 b g h) c = ix4 b g h 0 := by
  funext a; refine Fin.ext ?_
  match a with
  | ⟨0, _⟩ => rfl
  | ⟨1, _⟩ => rfl
  | ⟨2, _⟩ => rfl
  | ⟨3, _⟩ =>
    have hc : c.val < 1 := c.isLt
    show c.val = 0
    omega

/-- The embeddings' gather at (b, g, h), when the start index there reads the node n: the operand at (b, n, h). -/
theorem gatherE_apply {α : Type} (x : S64x1000x256.Idx → α) (idx : IVec S64x500x256x1 32) (b : Fin 64) (g : Fin 500)
    (h : Fin 256) (n : Fin 1000) (hn : (idx (ix4 b g h 0)).toInt.toNat = n.val) :
    Host.gather DE x idx (ix3 b g h) = x (ix3 b n h) := by
  show x (DE.operandIdx (ix3 b g h) idx) = _
  congr 1; funext a; refine Fin.ext ?_
  match a with
  | ⟨0, _⟩ =>
    show DE.start (ix3 b g h) idx 0 + DE.batchCoord (ix3 b g h) 0 + DE.offCoord (ix3 b g h) 0 = b.val
    have h0 : DE.start (ix3 b g h) idx 0 = 0 := rfl
    have h1 : DE.batchCoord (ix3 b g h) 0 = b.val := rfl
    have h2 : DE.offCoord (ix3 b g h) 0 = 0 := rfl
    omega
  | ⟨2, _⟩ =>
    show DE.start (ix3 b g h) idx 2 + DE.batchCoord (ix3 b g h) 2 + DE.offCoord (ix3 b g h) 2 = h.val
    have h0 : DE.start (ix3 b g h) idx 2 = 0 := rfl
    have h1 : DE.batchCoord (ix3 b g h) 2 = h.val := rfl
    have h2 : DE.offCoord (ix3 b g h) 2 = 0 := rfl
    omega
  | ⟨1, _⟩ =>
    show DE.start (ix3 b g h) idx 1 + DE.batchCoord (ix3 b g h) 1 + DE.offCoord (ix3 b g h) 1 = n.val
    have h1 : DE.batchCoord (ix3 b g h) 1 = 0 := rfl
    have h2 : DE.offCoord (ix3 b g h) 1 = 0 := rfl
    rw [h1, h2]
    unfold GatherDims.start
    rw [dif_pos (show (1 : Fin 3) ∈ DE.startIndexMap from List.mem_singleton.mpr rfl), siIdxE, hn]
    have hlt := n.isLt
    show min n.val (1000 - 1) + 0 + 0 = n.val
    omega

/-- The distances' gather at (b, g, h), when the start index there reads the node n: the operand at (b, n, h). -/
theorem gatherD_apply {α : Type} (x : S64x1000x1000.Idx → α) (idx : IVec S64x500x1000x1 32) (b : Fin 64) (g : Fin 500)
    (h : Fin 1000) (n : Fin 1000) (hn : (idx (ix4 b g h 0)).toInt.toNat = n.val) :
    Host.gather DD x idx (ix3 b g h) = x (ix3 b n h) := by
  show x (DD.operandIdx (ix3 b g h) idx) = _
  congr 1; funext a; refine Fin.ext ?_
  match a with
  | ⟨0, _⟩ =>
    show DD.start (ix3 b g h) idx 0 + DD.batchCoord (ix3 b g h) 0 + DD.offCoord (ix3 b g h) 0 = b.val
    have h0 : DD.start (ix3 b g h) idx 0 = 0 := rfl
    have h1 : DD.batchCoord (ix3 b g h) 0 = b.val := rfl
    have h2 : DD.offCoord (ix3 b g h) 0 = 0 := rfl
    omega
  | ⟨2, _⟩ =>
    show DD.start (ix3 b g h) idx 2 + DD.batchCoord (ix3 b g h) 2 + DD.offCoord (ix3 b g h) 2 = h.val
    have h0 : DD.start (ix3 b g h) idx 2 = 0 := rfl
    have h1 : DD.batchCoord (ix3 b g h) 2 = h.val := rfl
    have h2 : DD.offCoord (ix3 b g h) 2 = 0 := rfl
    omega
  | ⟨1, _⟩ =>
    show DD.start (ix3 b g h) idx 1 + DD.batchCoord (ix3 b g h) 1 + DD.offCoord (ix3 b g h) 1 = n.val
    have h1 : DD.batchCoord (ix3 b g h) 1 = 0 := rfl
    have h2 : DD.offCoord (ix3 b g h) 1 = 0 := rfl
    rw [h1, h2]
    unfold GatherDims.start
    rw [dif_pos (show (1 : Fin 3) ∈ DD.startIndexMap from List.mem_singleton.mpr rfl), siIdxD, hn]
    have hlt := n.isLt
    show min n.val (1000 - 1) + 0 + 0 = n.val
    omega

/-! ## The row maximum as a fold over the row -/

/-- The node axis is the one reduced: rows (b, g) are what is left. -/
theorem hr_row : S64x500x1000.Reduces [2] S64x500 := by decide

/-- Row (b, g) with the node k put back on the reduced axis is the element (b, g, k). -/
theorem lift_row (b : Fin 64) (g : Fin 500) (k : Fin 1000) : hr_row.lift (ix2 b g) k = ix3 b g k := by
  funext c; refine Fin.ext ?_
  match c with
  | ⟨0, _⟩ => rfl
  | ⟨1, _⟩ => rfl
  | ⟨2, _⟩ => rfl

/-- A maximum-reduction over the node axis from the −∞ pattern is, at row (b, g), the fold of max from −∞ over the row. -/
theorem rowmax_fold (x : S64x500x1000.Idx → EReal) (b : Fin 64) (g : Fin 500) :
    Host.reduce (FloatOps.maximumf (F := Ideal) (φ := .f32)) x (val_main_cst_9 (F := Ideal))
        reducesTo_S64x500x1000_S64x500_d2 h_S_ (ix2 b g)
      = (Finset.univ : Finset (Fin 1000)).fold max Spec.ninf (fun k => x (ix3 b g k)) := by
  rw [Host.reduce_eq_fold_single (FloatOps.maximumf (F := Ideal) (φ := .f32)) x _ reducesTo_S64x500x1000_S64x500_d2
    hr_row h_S_ (ix2 b g)]
  have hf : x ∘ hr_row.lift (ix2 b g) = fun k => x (ix3 b g k) := funext fun k => congrArg x (lift_row b g k)
  rw [hf]
  rfl

/-! ## The program's stages, read at coordinates -/

section Stages

variable (x0 : FVec Ideal S64x1000x256 .f32) (x1 : FVec Ideal S64x1000x1000 .f32) (x2 : IVec S64x500 32)
  (x3 : FVec Ideal S64x500x1000 .f32) (x4 x5 x6 x7 : FVec Ideal S256x256 .f32)
  (ℓ : Fin 64 → Fin 500 → Fin 1000) (hℓ : ∀ b g, x2 (ix2 b g) = BitVec.ofNat 32 (ℓ b g).val)

/-! ### The index array -/

/-- The index array broadcast along the embedding axis: row (b, g)'s word at every h. -/
theorem v6_at (b : Fin 64) (g : Fin 500) (h : Fin 256) : val_main_v6 (F := Ideal) x2 (ix3 b g h) = x2 (ix2 b g) := by
  rw [val_main_v6_apply, val_main_v5_apply]
  exact congrArg x2 (by idx2)

/-- The index array broadcast along the node axis. -/
theorem v18_at (b : Fin 64) (g : Fin 500) (n : Fin 1000) : val_main_v18 (F := Ideal) x2 (ix3 b g n) = x2 (ix2 b g) := by
  rw [val_main_v18_apply, val_main_v17_apply]
  exact congrArg x2 (by idx2)

include hℓ

/-- The normalised index of the embeddings' gather is the word itself. -/
theorem c0v4_at (b : Fin 64) (g : Fin 500) (h : Fin 256) :
    val_main_call0_v4 (F := Ideal) x2 (ix3 b g h) = BitVec.ofNat 32 (ℓ b g).val := by
  rw [val_main_call0_v4_apply, val_main_call0_v1_apply, val_main_call0_v3_apply, v6_at, val_main_call0_v0_apply,
    val_main_call0_c_apply, val_main_call0_v2_apply, val_main_call0_c_0_apply, hℓ]
  exact word_norm _ (ℓ b g).isLt

/-- Reshaped to carry a one-component index vector, it is still that word. -/
theorem c0v5_at (b : Fin 64) (g : Fin 500) (h : Fin 256) (z : Fin 1) :
    val_main_call0_v5 (F := Ideal) x2 (ix4 b g h z) = BitVec.ofNat 32 (ℓ b g).val := by
  rw [val_main_call0_v5_apply]
  have e : idx_main_call0_v5 (ix4 b g h z) = ix3 b g h := by
    funext a; refine Fin.ext ?_
    have hb := b.isLt; have hg := g.isLt; have hh := h.isLt; have hz : z.val < 1 := z.isLt
    match a with
    | ⟨0, _⟩ => show (((b.val * 500 + g.val) * 256 + h.val) * 1 + z.val) / 128000 = b.val; omega
    | ⟨1, _⟩ => show (((b.val * 500 + g.val) * 256 + h.val) * 1 + z.val) / 256 % 500 = g.val; omega
    | ⟨2, _⟩ => show (((b.val * 500 + g.val) * 256 + h.val) * 1 + z.val) % 256 = h.val; omega
  rw [e, c0v4_at x2 ℓ hℓ]

/-- The range test of the embeddings' gather succeeds at every element. -/
theorem c0v11_all (i : S64x500x256x1.Idx) : val_main_call0_v11 (F := Ideal) x2 i = 1#1 := by
  obtain ⟨b, g, h, z, rfl⟩ : ∃ b g h z, i = ix4 b g h z := ⟨i 0, i 1, i 2, i 3, eq_ix4 i⟩
  rw [val_main_call0_v11_apply, val_main_call0_v7_apply, val_main_call0_v10_apply, c0v5_at x2 ℓ hℓ, val_main_call0_v6_apply,
    val_main_call0_c_2_apply, val_main_call0_v9_apply, val_main_call0_v8_apply, val_main_call0_c_1_apply]
  exact word_inrange _ (ℓ b g).isLt

/-- So its and-reduction over the index vector is 1 everywhere. -/
theorem c0v12_all (j : S64x500x256.Idx) : val_main_call0_v12 (F := Ideal) x2 j = 1#1 := by
  unfold val_main_call0_v12
  exact reduce_andi_ones _ _ _ _ (c0v11_all x2 ℓ hℓ) rfl j

/-- The gathered embedding: row (b, g) reads node ℓ b g's embedding. -/
theorem v7_at (b : Fin 64) (g : Fin 500) (h : Fin 256) :
    val_main_v7 (F := Ideal) x0 x2 (ix3 b g h) = x0 (ix3 b (ℓ b g) h) := by
  rw [val_main_v7_apply, c0v12_all x2 ℓ hℓ, select_one]
  unfold val_main_call0_v13
  exact gatherE_apply x0 _ b g h (ℓ b g) (by rw [c0v5_at x2 ℓ hℓ]; exact word_toNat _ (ℓ b g).isLt)

/-- The normalised index of the distances' gather is the word itself. -/
theorem c2v4_at (b : Fin 64) (g : Fin 500) (n : Fin 1000) :
    val_main_call2_v4 (F := Ideal) x2 (ix3 b g n) = BitVec.ofNat 32 (ℓ b g).val := by
  rw [val_main_call2_v4_apply, val_main_call2_v1_apply, val_main_call2_v3_apply, v18_at, val_main_call2_v0_apply,
    val_main_call2_c_apply, val_main_call2_v2_apply, val_main_call2_c_0_apply, hℓ]
  exact word_norm _ (ℓ b g).isLt

theorem c2v5_at (b : Fin 64) (g : Fin 500) (n : Fin 1000) (z : Fin 1) :
    val_main_call2_v5 (F := Ideal) x2 (ix4 b g n z) = BitVec.ofNat 32 (ℓ b g).val := by
  rw [val_main_call2_v5_apply]
  have e : idx_main_call2_v5 (ix4 b g n z) = ix3 b g n := by
    funext a; refine Fin.ext ?_
    have hb := b.isLt; have hg := g.isLt; have hn := n.isLt; have hz : z.val < 1 := z.isLt
    match a with
    | ⟨0, _⟩ => show (((b.val * 500 + g.val) * 1000 + n.val) * 1 + z.val) / 500000 = b.val; omega
    | ⟨1, _⟩ => show (((b.val * 500 + g.val) * 1000 + n.val) * 1 + z.val) / 1000 % 500 = g.val; omega
    | ⟨2, _⟩ => show (((b.val * 500 + g.val) * 1000 + n.val) * 1 + z.val) % 1000 = n.val; omega
  rw [e, c2v4_at x2 ℓ hℓ]

theorem c2v11_all (i : S64x500x1000x1.Idx) : val_main_call2_v11 (F := Ideal) x2 i = 1#1 := by
  obtain ⟨b, g, n, z, rfl⟩ : ∃ b g n z, i = ix4 b g n z := ⟨i 0, i 1, i 2, i 3, eq_ix4 i⟩
  rw [val_main_call2_v11_apply, val_main_call2_v7_apply, val_main_call2_v10_apply, c2v5_at x2 ℓ hℓ, val_main_call2_v6_apply,
    val_main_call2_c_2_apply, val_main_call2_v9_apply, val_main_call2_v8_apply, val_main_call2_c_1_apply]
  exact word_inrange _ (ℓ b g).isLt

theorem c2v12_all (j : S64x500x1000.Idx) : val_main_call2_v12 (F := Ideal) x2 j = 1#1 := by
  unfold val_main_call2_v12
  exact reduce_andi_ones _ _ _ _ (c2v11_all x2 ℓ hℓ) rfl j

/-- The gathered distances: row (b, g) reads node ℓ b g's row of distances. -/
theorem v19_at (b : Fin 64) (g : Fin 500) (n : Fin 1000) :
    val_main_v19 (F := Ideal) x1 x2 (ix3 b g n) = x1 (ix3 b (ℓ b g) n) := by
  rw [val_main_v19_apply, c2v12_all x2 ℓ hℓ, select_one]
  unfold val_main_call2_v13
  exact gatherD_apply x1 _ b g n (ℓ b g) (by rw [c2v5_at x2 ℓ hℓ]; exact word_toNat _ (ℓ b g).isLt)

omit hℓ

/-! ### The mask, read two ways -/

/-- The mask as a pooling weight. -/
theorem v12_at (i : S64x500x1000.Idx) : val_main_v12 (F := Ideal) x3 i = Spec.maskVisited (x3 i) := by
  rw [val_main_v12_apply, val_main_v11_apply, val_main_v10_apply, val_main_cst_1_apply, val_main_call1_v1_apply,
    val_main_call1_v0_apply, val_main_cst_2_apply]
  rfl

/-- The mask as a logit offset. -/
theorem v35_at (i : S64x500x1000.Idx) : val_main_v35 (F := Ideal) x3 i = Spec.maskProb (x3 i) := by
  rw [val_main_v35_apply, val_main_v34_apply, val_main_v33_apply, val_main_cst_7_apply, val_main_call3_v1_apply,
    val_main_call3_v0_apply, val_main_cst_8_apply]
  rfl

/-! ### The four heads of the query -/

/-- The mean embedding: the program adds the column sum to 0 before dividing. -/
theorem v3_at (b : Fin 64) (z : Fin 1) (h : Fin 256) :
    val_main_v3 (F := Ideal) x0 (ix3 b z h) = Spec.meanEmb (fun k h => x0 (ix3 b k h)) h := by
  rw [val_main_v3_apply, val_main_v1_apply, val_main_v0_apply, val_main_cst_apply, val_main_v2_apply, val_main_cst_0_apply]
  show Ideal.div (Ideal.ofBits .f32 0x00000000#32 + ∑ k : Fin 1000, x0 (idx_main_v0 (idx_main_v1 (ix3 b z h)) k))
      (Ideal.ofBits .f32 0x447A0000#32) = _
  rw [Ideal.ofBits_zero_f32, zero_add]
  unfold Spec.meanEmb
  refine congrArg (Ideal.div · _) (Finset.sum_congr rfl fun k _ => congrArg x0 (by idx3))

/-- The graph head. -/
theorem v21_at (b : Fin 64) (g : Fin 500) (o : Fin 256) :
    val_main_v21 (F := Ideal) x0 x4 (ix3 b g o)
      = Spec.head (Spec.meanEmb (fun k h => x0 (ix3 b k h))) (fun o h => x4 (ix2 o h)) o := by
  rw [val_main_v21_apply, val_main_v4_apply]
  unfold Spec.head
  refine Finset.sum_congr rfl fun k _ => ?_
  rw [show lidx_main_v4 (idx_main_v21 (ix3 b g o)) k = ix3 b ⟨0, Nat.one_pos⟩ k from by idx3,
    show ridx_main_v4 (idx_main_v21 (ix3 b g o)) k = ix2 o k from by idx2, v3_at]

/-- The pooled embedding: the program divides by 1000 where the specification multiplies by 1/1000. -/
theorem v15_at (b : Fin 64) (g : Fin 500) (h : Fin 256) :
    val_main_v15 (F := Ideal) x0 x3 (ix3 b g h)
      = Spec.pooled (fun k h => x0 (ix3 b k h)) (fun n => x3 (ix3 b g n)) h := by
  rw [val_main_v15_apply, val_main_v13_apply, val_main_v14_apply, val_main_cst_3_apply]
  show Ideal.div (∑ k : Fin 1000, val_main_v12 (F := Ideal) x3 (lidx_main_v13 (ix3 b g h) k) * x0 (ridx_main_v13 (ix3 b g h) k))
      (Ideal.ofBits .f32 0x447A0000#32) = _
  rw [Spec.div_1000]
  unfold Spec.pooled
  refine congrArg (· * _) (Finset.sum_congr rfl fun k _ => ?_)
  rw [v12_at, show lidx_main_v13 (ix3 b g h) k = ix3 b g k from by idx3,
    show ridx_main_v13 (ix3 b g h) k = ix3 b k h from by idx3]

/-- The visited head. -/
theorem v16_at (b : Fin 64) (g : Fin 500) (o : Fin 256) :
    val_main_v16 (F := Ideal) x0 x3 x7 (ix3 b g o)
      = Spec.head (Spec.pooled (fun k h => x0 (ix3 b k h)) (fun n => x3 (ix3 b g n))) (fun o h => x7 (ix2 o h)) o := by
  rw [val_main_v16_apply]
  unfold Spec.head
  refine Finset.sum_congr rfl fun k _ => ?_
  rw [show lidx_main_v16 (ix3 b g o) k = ix3 b g k from by idx3, show ridx_main_v16 (ix3 b g o) k = ix2 o k from by idx2,
    v15_at]

include hℓ

/-- The last-node head. -/
theorem v8_at (b : Fin 64) (g : Fin 500) (o : Fin 256) :
    val_main_v8 (F := Ideal) x0 x2 x6 (ix3 b g o)
      = Spec.head (fun h => x0 (ix3 b (ℓ b g) h)) (fun o h => x6 (ix2 o h)) o := by
  rw [val_main_v8_apply]
  unfold Spec.head
  refine Finset.sum_congr rfl fun k _ => ?_
  rw [show lidx_main_v8 (ix3 b g o) k = ix3 b g k from by idx3, show ridx_main_v8 (ix3 b g o) k = ix2 o k from by idx2,
    v7_at x0 x2 ℓ hℓ]

/-- The first-node head, built from the same gathered embedding. -/
theorem v9_at (b : Fin 64) (g : Fin 500) (o : Fin 256) :
    val_main_v9 (F := Ideal) x0 x2 x5 (ix3 b g o)
      = Spec.head (fun h => x0 (ix3 b (ℓ b g) h)) (fun o h => x5 (ix2 o h)) o := by
  rw [val_main_v9_apply]
  unfold Spec.head
  refine Finset.sum_congr rfl fun k _ => ?_
  rw [show lidx_main_v9 (ix3 b g o) k = ix3 b g k from by idx3, show ridx_main_v9 (ix3 b g o) k = ix2 o k from by idx2,
    v7_at x0 x2 ℓ hℓ]

/-! ### The query, the logits, the softmax -/

/-- Row (b, g)'s logits, as the specification writes them. -/
abbrev rowLogit (b : Fin 64) (g : Fin 500) : Fin 1000 → EReal :=
  Spec.logit (fun k h => x0 (ix3 b k h)) (fun n => x1 (ix3 b (ℓ b g) n)) (fun h => x0 (ix3 b (ℓ b g) h))
    (fun n => x3 (ix3 b g n)) (fun o h => x4 (ix2 o h)) (fun o h => x6 (ix2 o h)) (fun o h => x5 (ix2 o h))
    (fun o h => x7 (ix2 o h))

/-- The query: the four heads added in the program's order. -/
theorem v23_at (b : Fin 64) (g : Fin 500) (o : Fin 256) :
    val_main_v23 (F := Ideal) x0 x2 x3 x4 x5 x6 x7 (ix3 b g o)
      = Spec.query (fun k h => x0 (ix3 b k h)) (fun h => x0 (ix3 b (ℓ b g) h)) (fun n => x3 (ix3 b g n))
          (fun o h => x4 (ix2 o h)) (fun o h => x6 (ix2 o h)) (fun o h => x5 (ix2 o h)) (fun o h => x7 (ix2 o h)) o := by
  rw [val_main_v23_apply, val_main_v22_apply, val_main_v20_apply, v8_at x0 x2 x6 ℓ hℓ, v9_at x0 x2 x5 ℓ hℓ, v21_at, v16_at]
  rfl

/-- The logits. -/
theorem v36_at (b : Fin 64) (g : Fin 500) (n : Fin 1000) :
    val_main_v36 (F := Ideal) x0 x1 x2 x3 x4 x5 x6 x7 (ix3 b g n) = rowLogit x0 x1 x3 x4 x5 x6 x7 ℓ b g n := by
  rw [val_main_v36_apply, val_main_v32_apply, val_main_v31_apply, val_main_cst_6_apply, val_main_v30_apply,
    val_main_v29_apply, val_main_v26_apply, val_main_v24_apply, val_main_v25_apply, val_main_cst_4_apply,
    val_main_v28_apply, v19_at x1 x2 ℓ hℓ, val_main_v27_apply, val_main_cst_5_apply, v35_at]
  have hs : ∑ k : Fin 256, val_main_v23 (F := Ideal) x0 x2 x3 x4 x5 x6 x7 (lidx_main_v24 (ix3 b g n) k)
        * x0 (ridx_main_v24 (ix3 b g n) k)
      = ∑ h : Fin 256, Spec.query (fun k h => x0 (ix3 b k h)) (fun h => x0 (ix3 b (ℓ b g) h)) (fun n => x3 (ix3 b g n))
          (fun o h => x4 (ix2 o h)) (fun o h => x6 (ix2 o h)) (fun o h => x5 (ix2 o h)) (fun o h => x7 (ix2 o h)) h
        * x0 (ix3 b n h) :=
    Finset.sum_congr rfl fun k _ => by
      rw [show lidx_main_v24 (ix3 b g n) k = ix3 b g k from by idx3,
        show ridx_main_v24 (ix3 b g n) k = ix3 b n k from by idx3, v23_at x0 x2 x3 x4 x5 x6 x7 ℓ hℓ]
  rw [hs]
  rfl

/-- The row maximum: the program's reduction is the fold of max from −∞ over the row's logits. -/
theorem v37_at (b : Fin 64) (g : Fin 500) :
    val_main_v37 (F := Ideal) x0 x1 x2 x3 x4 x5 x6 x7 (ix2 b g)
      = (Finset.univ : Finset (Fin 1000)).fold max Spec.ninf (rowLogit x0 x1 x3 x4 x5 x6 x7 ℓ b g) := by
  unfold val_main_v37
  exact (rowmax_fold _ b g).trans
    (congrArg (fun f => (Finset.univ : Finset (Fin 1000)).fold max Spec.ninf f)
      (funext fun k => v36_at x0 x1 x2 x3 x4 x5 x6 x7 ℓ hℓ b g k))

/-- Taking the maximum with −∞ once more changes nothing: the fold already started there. -/
theorem v41_at (b : Fin 64) (g : Fin 500) (n : Fin 1000) :
    val_main_v41 (F := Ideal) x0 x1 x2 x3 x4 x5 x6 x7 (ix3 b g n)
      = (Finset.univ : Finset (Fin 1000)).fold max Spec.ninf (rowLogit x0 x1 x3 x4 x5 x6 x7 ℓ b g) := by
  rw [val_main_v41_apply, val_main_v40_apply, val_main_v39_apply,
    show idx_main_v40 (idx_main_v41 (ix3 b g n)) = ix2 b g from by idx2, v37_at x0 x1 x2 x3 x4 x5 x6 x7 ℓ hℓ,
    val_main_v38_apply, val_main_cst_10_apply]
  exact max_eq_right ((Finset.le_fold_max _).mpr (Or.inl le_rfl))

/-- The exponential of a logit less the row maximum. -/
theorem v43_at (b : Fin 64) (g : Fin 500) (n : Fin 1000) :
    val_main_v43 (F := Ideal) x0 x1 x2 x3 x4 x5 x6 x7 (ix3 b g n)
      = Ideal.exp (rowLogit x0 x1 x3 x4 x5 x6 x7 ℓ b g n
          - (Finset.univ : Finset (Fin 1000)).fold max Spec.ninf (rowLogit x0 x1 x3 x4 x5 x6 x7 ℓ b g)) := by
  rw [val_main_v43_apply, val_main_v42_apply, v36_at x0 x1 x2 x3 x4 x5 x6 x7 ℓ hℓ, v41_at x0 x1 x2 x3 x4 x5 x6 x7 ℓ hℓ]
  rfl

end Stages

/-! ## The statement -/

/-- The reference program's result is the specification's, for an index array whose word at row (b, g) is the number
    ℓ b g < 1000. -/
theorem ref_eq
    (x0 : FVec Ideal Cert.ReferenceIdeal.S64x1000x256 .f32) (x1 : FVec Ideal Cert.ReferenceIdeal.S64x1000x1000 .f32)
    (x2 : IVec Cert.ReferenceIdeal.S64x500 32) (x3 : FVec Ideal Cert.ReferenceIdeal.S64x500x1000 .f32)
    (x4 x5 x6 x7 : FVec Ideal Cert.ReferenceIdeal.S256x256 .f32)
    (ℓ : Fin 64 → Fin 500 → Fin 1000)
    (hℓ : ∀ b g, x2 (ValueIdx.ix2 b g) = BitVec.ofNat 32 (ℓ b g).val) :
    Cert.ReferenceIdeal.ReadP.val_main_v47 (F := Ideal) x0 x1 x2 x3 x4 x5 x6 x7
      = Cert.Spec.result x0 x1 ℓ x3 x4 x5 x6 x7 := by
  funext i
  obtain ⟨b, g, n, rfl⟩ : ∃ b g n, i = ix3 b g n := ⟨i 0, i 1, i 2, eq_ix3 i⟩
  rw [val_main_v47_apply, val_main_v46_apply, val_main_v45_apply, val_main_v44_apply, val_main_cst_11_apply,
    v43_at x0 x1 x2 x3 x4 x5 x6 x7 ℓ hℓ]
  have hs : ∑ k : Fin 1000, val_main_v43 (F := Ideal) x0 x1 x2 x3 x4 x5 x6 x7
        (idx_main_v44 (idx_main_v45 (idx_main_v46 (ix3 b g n))) k)
      = ∑ k : Fin 1000, Ideal.exp (rowLogit x0 x1 x3 x4 x5 x6 x7 ℓ b g k
          - (Finset.univ : Finset (Fin 1000)).fold max Spec.ninf (rowLogit x0 x1 x3 x4 x5 x6 x7 ℓ b g)) :=
    Finset.sum_congr rfl fun k _ => by
      rw [show idx_main_v44 (idx_main_v45 (idx_main_v46 (ix3 b g n))) k = ix3 b g k from by idx3,
        v43_at x0 x1 x2 x3 x4 x5 x6 x7 ℓ hℓ]
  rw [hs]
  show Ideal.div _ (Ideal.ofBits .f32 0x00000000#32 + _) = _
  rw [Ideal.ofBits_zero_f32, zero_add]
  rfl

end Cert.RefSpec

end
-- ==== Proof.PreFacts.lean ====
/-
  What the printed precondition says of two of its inputs.

  The precondition is a conjunction (a chain of one-bit `and`s) of nine "all entries satisfy p" tests, each an
  `and`-reduction over every axis of a one-bit array.  When the whole word is 1, every conjunct is 1, and an
  `and`-reduction that is 1 met only 1s.  Read at one entry this gives:

  * for a float array x:   |x i| < +∞ on the extended reals, hence x i is a real number
    (|⊥| = |⊤| = ⊤ is not below ⊤);
  * for the index words w: 0 ≤ w i and w i < 1000, both compared as signed integers.

  Only the second float input and the integer input are read back here.
-/
import proofs.«407836_j40321152975399_2_alg».proof.Pre_finite_inputs
import proofs.«407836_j40321152975399_2_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

namespace Cert.PreFacts

open Idealize.ShloMosaic

/-- The rank-0 shape has exactly one index (the empty tuple of coordinates). -/
instance : Subsingleton Cert.Pre_finite_inputs.S_.Idx := ⟨fun _ _ => funext fun d => d.elim0⟩

/-- The f32 pattern with all exponent bits set and no fraction bits denotes `+∞`. -/
theorem inf_pattern : Ideal.ofBits .f32 0x7F800000#32 = (⊤ : EReal) := by
  simp [Ideal.ofBits, Ideal.ieee]

/-- An extended real whose absolute value `max x (-x)` tests strictly below `+∞` is a real number:
    the two infinities both have absolute value `⊤`, which is not below itself. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | coe r => exact ⟨r, rfl⟩
  | top => simp [Ideal.cmp] at h

/-- A word that tests `≥ 0` (signed) is nonnegative as a signed integer. -/
theorem nonneg_of_sge (w : BitVec 32) (h : IntOp.cmpi .sge w 0#32 = 1#1) : 0 ≤ w.toInt := by
  rw [IntOp.cmpi_sge] at h
  simpa using h

/-- A word that tests `< 1000` (signed) is below 1000 as a signed integer. -/
theorem lt_of_slt (w : BitVec 32) (h : IntOp.cmpi .slt w 1000#32 = 1#1) : w.toInt < 1000 := by
  rw [IntOp.cmpi_slt] at h
  have e : (1000#32 : BitVec 32).toInt = 1000 := by decide
  rwa [e] at h

/-- The precondition, read back: the second float input is real everywhere, and every index word, read as a signed
    integer, lies in `[0, 1000)`. -/
theorem of_pre [Cert.Pre_finite_inputs.Facts]
    (a0 : FVec Ideal Cert.Pre_finite_inputs.S64x1000x256 .f32) (a1 : FVec Ideal Cert.Pre_finite_inputs.S64x1000x1000 .f32)
    (a2 : IVec Cert.Pre_finite_inputs.S64x500 32) (a3 : FVec Ideal Cert.Pre_finite_inputs.S64x500x1000 .f32)
    (a4 a5 a6 a7 : FVec Ideal Cert.Pre_finite_inputs.S256x256 .f32)
    (h : Cert.Pre_finite_inputs.fn (F := Ideal) a0 a1 a2 a3 a4 a5 a6 a7 = (fun _ => 1#1)) :
    (∀ i, ∃ r : ℝ, a1 i = (r : EReal)) ∧ (∀ i, 0 ≤ (a2 i).toInt ∧ (a2 i).toInt < 1000) := by
  -- the one entry of the rank-0 result
  have h0 := congrFun h ValueIdx.ix0
  dsimp only [Cert.Pre_finite_inputs.fn, Cert.Pre_finite_inputs.fn_part1, Cert.Pre_finite_inputs.fn_part2, andi] at h0
  -- a chain of `and`s that is 1 has every link 1
  simp only [IntOp.andi_eq_one] at h0
  obtain ⟨⟨⟨⟨⟨⟨⟨⟨-, hfin⟩, -⟩, -⟩, -⟩, -⟩, -⟩, hge⟩, hlt⟩ := h0
  refine ⟨fun i => ?_, fun i => ⟨?_, ?_⟩⟩
  · -- the all-reduction that is 1 met a 1 at entry i: |a1 i| < +∞
    exact real_of_abs_lt_inf (a1 i) (Host.reduce_andi_all _ _ _ _ _ hfin i)
  · exact nonneg_of_sge (a2 i) (Host.reduce_andi_all _ _ _ _ _ hge i)
  · exact lt_of_slt (a2 i) (Host.reduce_andi_all _ _ _ _ _ hlt i)

end Cert.PreFacts
-- ==== Proof.SlabDef.lean ====
/-
  One 128-row slab of the kernel's result.

  The kernel body handles the 512 (padded) rows of a batch in four slabs of 128 rows. Each slab computes, from the batch's
  embeddings and distances, the four weight matrices, the slab's 128 index words and its 128 mask rows, the softmax rows of
  the slab. The four slabs are one function of those loads; only the rows they read and write differ.
-/
import proofs.«407836_j40321152975399_2_alg».proof.Proof.Gen.KernelIdeal.Skeleton

noncomputable section

namespace Cert.KernelIdeal.Slab

open Cert.KernelIdeal Cert.KernelIdeal.Gen Idealize.ShloMosaic

variable {F : FTy → Type} [FloatOps F] [Named F]

/-- The slab's result from what the body loads: the batch's embeddings `x0` and distances `x1`, the graph, last, first and
    visited weight blocks `x4 x5 x6 x7`, the slab's index words `l` and mask rows `m`. -/
def slabOf (x0 : Vec F S1x1000x256 .f32) (x1 : Vec F S1x1000x1000 .f32) (x4 x5 x6 x7 : Vec F S256x256 .f32)
    (l : Vec F S1x128x1 .i32) (m : Vec F S1x128x1000 .f32) : FVec F S1x128x1000 .f32 :=
  k0_pay14 (k0_pay13 (k0_pay3 x0) (k0_pay5 x1) (k0_pay6 x1) (k0_pay7 x5) (k0_pay8 x6) (k0_pay9 x7) (k0_pay10 x0 x4)
    (k0_pay11 l) (k0_pay12 x0 l) (constant S128x256 .f32 0x00000000#32) m)

/-- The second slab's stored value is the same function of its loads. -/
theorem slab1_eq (x0 : Vec F S1x1000x256 .f32) (x1 : Vec F S1x1000x1000 .f32) (x4 x5 x6 x7 : Vec F S256x256 .f32)
    (l : Vec F S1x128x1 .i32) (m : Vec F S1x128x1000 .f32) :
    k0_pay19 (k0_pay3 x0) (k0_pay16 m) (k0_pay17 (k0_pay5 x1) (k0_pay6 x1) l)
        (k0_pay18 (k0_pay3 x0) (k0_pay7 x5) (k0_pay8 x6) (k0_pay9 x7) (k0_pay10 x0 x4) l m) (constant S128x1000 .f32 0x00000000#32)
      = slabOf x0 x1 x4 x5 x6 x7 l m := rfl

/-- The third slab's. -/
theorem slab2_eq (x0 : Vec F S1x1000x256 .f32) (x1 : Vec F S1x1000x1000 .f32) (x4 x5 x6 x7 : Vec F S256x256 .f32)
    (l : Vec F S1x128x1 .i32) (m : Vec F S1x128x1000 .f32) :
    k0_pay26 (k0_pay25 (k0_pay3 x0) (k0_pay5 x1) (k0_pay6 x1) (k0_pay9 x7) (k0_pay10 x0 x4) (k0_pay20 l)
        (k0_pay22 (k0_pay3 x0) (k0_pay7 x5) l) (k0_pay23 (k0_pay3 x0) (k0_pay8 x6) l) (k0_pay24 m))
      = slabOf x0 x1 x4 x5 x6 x7 l m := rfl

/-- The fourth slab's. -/
theorem slab3_eq (x0 : Vec F S1x1000x256 .f32) (x1 : Vec F S1x1000x1000 .f32) (x4 x5 x6 x7 : Vec F S256x256 .f32)
    (l : Vec F S1x128x1 .i32) (m : Vec F S1x128x1000 .f32) :
    k0_pay1 (k0_pay27 m) (k0_pay28 (k0_pay3 x0) (k0_pay5 x1) (k0_pay6 x1) (k0_pay7 x5) (k0_pay8 x6) (k0_pay9 x7) (k0_pay10 x0 x4) l m)
      = slabOf x0 x1 x4 x5 x6 x7 l m := rfl

end Cert.KernelIdeal.Slab

end
-- ==== Proof.SlabParts.lean ====
/-
  The slab in four parts: the query rows, the distance rows, the logit rows, and the softmax of a block of logit rows.
  The generated body is their composition; each part is what one would write down for the slab by hand.
-/
import proofs.«407836_j40321152975399_2_alg».proof.Proof.SlabDef

noncomputable section

namespace Cert.KernelIdeal.Slab

open Cert.KernelIdeal Cert.KernelIdeal.Gen Idealize.ShloMosaic

variable {F : FTy → Type} [FloatOps F] [Named F]

/-- The query rows: the last-node embeddings through the last and first heads, plus the graph query (one row, repeated),
    plus the pooled embeddings (mask weights against the embeddings, times the named 1/1000) through the visited head. -/
def queryRows (e : FVec F S1000x256 .bf16) (wl wf wv : FVec F S256x256 .bf16) (qg : FVec F S1x256 .f32)
    (le : FVec F S128x256 .bf16) (m : FVec F S128x1000 .f32) : FVec F S128x256 .f32 :=
  addf (addf (addf (matmul dot_S128x256_S256x256_S128x256_1_0_0_1_n_n none le wl (constant S128x256 .f32 0x00000000#32))
                   (matmul dot_S128x256_S256x256_S128x256_1_0_0_1_n_n none le wf (constant S128x256 .f32 0x00000000#32)))
             (broadcastTo S128x256 qg broadcasts_S1x256_S128x256))
       (matmul dot_S128x256_S256x256_S128x256_1_0_0_1_n_n none
          (truncf .bf16
            (mulf (matmul dot_S128x1000_S1000x256_S128x256_1_0_0_1_n_n none
                     (truncf .bf16 (select (cmpf .oeq m (broadcast S128x1000 (Scalar.ofBits .f32 0xFF800000#32)))
                                      (broadcast S128x1000 (Scalar.ofBits .f32 0x3F800000#32)) m) bitsLt_bf16_f32)
                     e (constant S128x256 .f32 0x00000000#32))
                  (broadcast S128x256 (Named.named κ "inv_1000" 0x3A83126F#32))) bitsLt_bf16_f32)
          wv (constant S128x256 .f32 0x00000000#32))

/-- The distance rows: the one-hot matrix against the two halves of the split distances, added. -/
def distRows (dh dl : FVec F S1000x1000 .bf16) (oh : FVec F S128x1000 .bf16) : FVec F S128x1000 .f32 :=
  addf (matmul dot_S128x1000_S1000x1000_S128x1000_1_0_0_1_n_n none oh dh (constant S128x1000 .f32 0x00000000#32))
       (matmul dot_S128x1000_S1000x1000_S128x1000_1_0_0_1_n_n none oh dl (constant S128x1000 .f32 0x00000000#32))

/-- The logit rows: ten times the hyperbolic tangent of (queries against embeddings)/16 minus distances times the
    pattern of 1/√2, plus the mask with `−∞` replaced by the pattern of −1e8. -/
def logitRows (e : FVec F S1000x256 .bf16) (q : FVec F S128x256 .f32) (d : FVec F S128x1000 .f32)
    (m : FVec F S128x1000 .f32) : FVec F S128x1000 .f32 :=
  addf (mulf (broadcast S128x1000 (Scalar.ofBits .f32 0x41200000#32))
          (tanh (subf (mulf (matmul dot_S128x256_S1000x256_S128x1000_1_1_0_0_n_n none (truncf .bf16 q bitsLt_bf16_f32) e
                               (constant S128x1000 .f32 0x00000000#32))
                            (broadcast S128x1000 (Scalar.ofBits .f32 0x3D800000#32)))
                      (mulf d (broadcast S128x1000 (Scalar.ofBits .f32 0x3F3504F3#32))))))
       (select (cmpf .oeq m (broadcast S128x1000 (Scalar.ofBits .f32 0xFF800000#32)))
          (broadcast S128x1000 (Scalar.ofBits .f32 0xCCBEBC20#32)) m)

/-- The numerators of the softmax: exponentials of the logits less their row maximum. -/
def expRows (L : FVec F S128x1000 .f32) : FVec F S128x1000 .f32 :=
  exp (subf L (broadcastTo S128x1000
    (shapeCast S128x1 (multiReduction .maximumf [1] S128 L 0xFF800000#32 reduces_S128x1000_S128 (.inl rfl) rfl)
      shapeCasts_S128_S128x1) broadcasts_S128x1_S128x1000))

/-- The softmax rows from the numerators: each divided by its row's sum, as a 1 × 128 × 1000 block. -/
def normRows (N : FVec F S128x1000 .f32) : FVec F S1x128x1000 .f32 :=
  shapeCast S1x128x1000 (divf N (broadcastTo S128x1000
    (shapeCast S128x1 (multiReduction .add [1] S128 N 0x00000000#32 reduces_S128x1000_S128 (.inl rfl) rfl)
      shapeCasts_S128_S128x1) broadcasts_S128x1_S128x1000)) shapeCasts_S128x1000_S1x128x1000

/-- The slab is the composition of its parts. -/
theorem slabOf_eq (x0 : Vec F S1x1000x256 .f32) (x1 : Vec F S1x1000x1000 .f32) (x4 x5 x6 x7 : Vec F S256x256 .f32)
    (l : Vec F S1x128x1 .i32) (m : Vec F S1x128x1000 .f32) :
    slabOf x0 x1 x4 x5 x6 x7 l m
      = normRows (expRows (logitRows (k0_pay3 x0)
          (queryRows (k0_pay3 x0) (k0_pay7 x5) (k0_pay8 x6) (k0_pay9 x7) (k0_pay10 x0 x4) (k0_pay12 x0 l)
            (shapeCast S128x1000 m shapeCasts_S1x128x1000_S128x1000))
          (distRows (k0_pay5 x1) (k0_pay6 x1) (k0_pay11 l))
          (shapeCast S128x1000 m shapeCasts_S1x128x1000_S128x1000))) := rfl

end Cert.KernelIdeal.Slab

end
-- ==== Proof.MatMul.lean ====
/-
  The kernel's five matrix products, read at an output entry.

  Into a zero accumulator a product of a matrix `A` (rows × depth) with `B` is, at entry (r, c), the sum over the depth
  index q of `A (r, q) · B (q, c)`; the last product contracts both operands' second axes, so its entry (r, c) is the
  sum over q of `A (r, q) · B (c, q)` — a product with the transpose. On the extended reals nothing else is left of a
  matrix product: no rounding, no order of accumulation.
-/
import proofs.«407836_j40321152975399_2_alg».proof.Proof.Gen.KernelIdeal
import Idealize.ShloMosaic.PureOps.Ideal.Laws
import Idealize.ShloMosaic.Lib.ValueIdx

noncomputable section

namespace Cert.KernelIdeal.Slab

open Cert.KernelIdeal Idealize.ShloMosaic Idealize.ShloMosaic.ValueIdx

/-! ## (1 × 256) · (256 × 256): the mean embedding through the graph head -/

theorem lhsG_0 (i : S1x256.Idx) (q : dot_S1x256_S256x256_S1x256_1_0_0_1_n_n.contr.Idx) :
    (dot_S1x256_S256x256_S1x256_1_0_0_1_n_n.lhsIdx i q 0).val = (i 0).val := by
  unfold DotDims.lhsIdx
  rw [dif_neg (show ¬(0 : Fin S1x256.rank) ∈ dot_S1x256_S256x256_S1x256_1_0_0_1_n_n.lhsBatch by decide), dif_pos (show (0 : Fin S1x256.rank) ∈ dot_S1x256_S256x256_S1x256_1_0_0_1_n_n.lhsNonContracting by decide)]
  rfl
theorem lhsG_1 (i : S1x256.Idx) (q : dot_S1x256_S256x256_S1x256_1_0_0_1_n_n.contr.Idx) :
    (dot_S1x256_S256x256_S1x256_1_0_0_1_n_n.lhsIdx i q 1).val = (q ⟨0, by decide⟩).val :=
  dot_S1x256_S256x256_S1x256_1_0_0_1_n_n.lhsIdx_val_of_single rfl i q
theorem rhsG_0 (i : S1x256.Idx) (q : dot_S1x256_S256x256_S1x256_1_0_0_1_n_n.contr.Idx) :
    (dot_S1x256_S256x256_S1x256_1_0_0_1_n_n.rhsIdx i q 0).val = (q ⟨0, by decide⟩).val :=
  dot_S1x256_S256x256_S1x256_1_0_0_1_n_n.rhsIdx_val_of_single rfl i q
theorem rhsG_1 (i : S1x256.Idx) (q : dot_S1x256_S256x256_S1x256_1_0_0_1_n_n.contr.Idx) :
    (dot_S1x256_S256x256_S1x256_1_0_0_1_n_n.rhsIdx i q 1).val = (i 1).val := by
  unfold DotDims.rhsIdx
  rw [dif_neg (show ¬(1 : Fin S256x256.rank) ∈ dot_S1x256_S256x256_S1x256_1_0_0_1_n_n.rhsBatch by decide), dif_pos (show (1 : Fin S256x256.rank) ∈ dot_S1x256_S256x256_S1x256_1_0_0_1_n_n.rhsNonContracting by decide)]
  rfl
theorem mmG_apply {φ₁ φ₂ : FTy} (lhs : FVec Ideal S1x256 φ₁) (rhs : FVec Ideal S256x256 φ₂) (r : Fin 1) (c : Fin 256) :
    matmul dot_S1x256_S256x256_S1x256_1_0_0_1_n_n none lhs rhs (constant S1x256 .f32 0x00000000#32) (ix2 r c)
      = ∑ q : Fin 256, lhs (ix2 r q) * rhs (ix2 q c) := by
  simp only [matmul]
  rw [Ideal.matmul_constant_zero_apply, ← Equiv.sum_comp (contrEquiv1 dot_S1x256_S256x256_S1x256_1_0_0_1_n_n 256 rfl rfl).symm]
  refine Finset.sum_congr rfl fun q _ => ?_
  have hq := contrEquiv1_symm_val dot_S1x256_S256x256_S1x256_1_0_0_1_n_n 256 rfl rfl q
  have el : dot_S1x256_S256x256_S1x256_1_0_0_1_n_n.lhsIdx (ix2 r c) ((contrEquiv1 dot_S1x256_S256x256_S1x256_1_0_0_1_n_n 256 rfl rfl).symm q) = ix2 r q := funext fun a => Fin.ext (by
    match a with
    | ⟨0, _⟩ => exact lhsG_0 _ _
    | ⟨1, _⟩ => exact (lhsG_1 _ _).trans hq)
  have er : dot_S1x256_S256x256_S1x256_1_0_0_1_n_n.rhsIdx (ix2 r c) ((contrEquiv1 dot_S1x256_S256x256_S1x256_1_0_0_1_n_n 256 rfl rfl).symm q) = ix2 q c := funext fun a => Fin.ext (by
    match a with
    | ⟨0, _⟩ => exact (rhsG_0 _ _).trans hq
    | ⟨1, _⟩ => exact rhsG_1 _ _)
  rw [el, er]

/-! ## (128 × 1000) · (1000 × 256): a one-hot or mask matrix against the embeddings -/

theorem lhsE_0 (i : S128x256.Idx) (q : dot_S128x1000_S1000x256_S128x256_1_0_0_1_n_n.contr.Idx) :
    (dot_S128x1000_S1000x256_S128x256_1_0_0_1_n_n.lhsIdx i q 0).val = (i 0).val := by
  unfold DotDims.lhsIdx
  rw [dif_neg (show ¬(0 : Fin S128x1000.rank) ∈ dot_S128x1000_S1000x256_S128x256_1_0_0_1_n_n.lhsBatch by decide), dif_pos (show (0 : Fin S128x1000.rank) ∈ dot_S128x1000_S1000x256_S128x256_1_0_0_1_n_n.lhsNonContracting by decide)]
  rfl
theorem lhsE_1 (i : S128x256.Idx) (q : dot_S128x1000_S1000x256_S128x256_1_0_0_1_n_n.contr.Idx) :
    (dot_S128x1000_S1000x256_S128x256_1_0_0_1_n_n.lhsIdx i q 1).val = (q ⟨0, by decide⟩).val :=
  dot_S128x1000_S1000x256_S128x256_1_0_0_1_n_n.lhsIdx_val_of_single rfl i q
theorem rhsE_0 (i : S128x256.Idx) (q : dot_S128x1000_S1000x256_S128x256_1_0_0_1_n_n.contr.Idx) :
    (dot_S128x1000_S1000x256_S128x256_1_0_0_1_n_n.rhsIdx i q 0).val = (q ⟨0, by decide⟩).val :=
  dot_S128x1000_S1000x256_S128x256_1_0_0_1_n_n.rhsIdx_val_of_single rfl i q
theorem rhsE_1 (i : S128x256.Idx) (q : dot_S128x1000_S1000x256_S128x256_1_0_0_1_n_n.contr.Idx) :
    (dot_S128x1000_S1000x256_S128x256_1_0_0_1_n_n.rhsIdx i q 1).val = (i 1).val := by
  unfold DotDims.rhsIdx
  rw [dif_neg (show ¬(1 : Fin S1000x256.rank) ∈ dot_S128x1000_S1000x256_S128x256_1_0_0_1_n_n.rhsBatch by decide), dif_pos (show (1 : Fin S1000x256.rank) ∈ dot_S128x1000_S1000x256_S128x256_1_0_0_1_n_n.rhsNonContracting by decide)]
  rfl
theorem mmE_apply {φ₁ φ₂ : FTy} (lhs : FVec Ideal S128x1000 φ₁) (rhs : FVec Ideal S1000x256 φ₂) (r : Fin 128) (c : Fin 256) :
    matmul dot_S128x1000_S1000x256_S128x256_1_0_0_1_n_n none lhs rhs (constant S128x256 .f32 0x00000000#32) (ix2 r c)
      = ∑ q : Fin 1000, lhs (ix2 r q) * rhs (ix2 q c) := by
  simp only [matmul]
  rw [Ideal.matmul_constant_zero_apply, ← Equiv.sum_comp (contrEquiv1 dot_S128x1000_S1000x256_S128x256_1_0_0_1_n_n 1000 rfl rfl).symm]
  refine Finset.sum_congr rfl fun q _ => ?_
  have hq := contrEquiv1_symm_val dot_S128x1000_S1000x256_S128x256_1_0_0_1_n_n 1000 rfl rfl q
  have el : dot_S128x1000_S1000x256_S128x256_1_0_0_1_n_n.lhsIdx (ix2 r c) ((contrEquiv1 dot_S128x1000_S1000x256_S128x256_1_0_0_1_n_n 1000 rfl rfl).symm q) = ix2 r q := funext fun a => Fin.ext (by
    match a with
    | ⟨0, _⟩ => exact lhsE_0 _ _
    | ⟨1, _⟩ => exact (lhsE_1 _ _).trans hq)
  have er : dot_S128x1000_S1000x256_S128x256_1_0_0_1_n_n.rhsIdx (ix2 r c) ((contrEquiv1 dot_S128x1000_S1000x256_S128x256_1_0_0_1_n_n 1000 rfl rfl).symm q) = ix2 q c := funext fun a => Fin.ext (by
    match a with
    | ⟨0, _⟩ => exact (rhsE_0 _ _).trans hq
    | ⟨1, _⟩ => exact rhsE_1 _ _)
  rw [el, er]

/-! ## (128 × 256) · (256 × 256): a linear head -/

theorem lhsH_0 (i : S128x256.Idx) (q : dot_S128x256_S256x256_S128x256_1_0_0_1_n_n.contr.Idx) :
    (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
theorem lhsH_1 (i : S128x256.Idx) (q : dot_S128x256_S256x256_S128x256_1_0_0_1_n_n.contr.Idx) :
    (dot_S128x256_S256x256_S128x256_1_0_0_1_n_n.lhsIdx i q 1).val = (q ⟨0, by decide⟩).val :=
  dot_S128x256_S256x256_S128x256_1_0_0_1_n_n.lhsIdx_val_of_single rfl i q
theorem rhsH_0 (i : S128x256.Idx) (q : dot_S128x256_S256x256_S128x256_1_0_0_1_n_n.contr.Idx) :
    (dot_S128x256_S256x256_S128x256_1_0_0_1_n_n.rhsIdx i q 0).val = (q ⟨0, by decide⟩).val :=
  dot_S128x256_S256x256_S128x256_1_0_0_1_n_n.rhsIdx_val_of_single rfl i q
theorem rhsH_1 (i : S128x256.Idx) (q : dot_S128x256_S256x256_S128x256_1_0_0_1_n_n.contr.Idx) :
    (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl
theorem mmH_apply {φ₁ φ₂ : FTy} (lhs : FVec Ideal S128x256 φ₁) (rhs : FVec Ideal S256x256 φ₂) (r : Fin 128) (c : Fin 256) :
    matmul dot_S128x256_S256x256_S128x256_1_0_0_1_n_n none lhs rhs (constant S128x256 .f32 0x00000000#32) (ix2 r c)
      = ∑ q : Fin 256, lhs (ix2 r q) * rhs (ix2 q c) := by
  simp only [matmul]
  rw [Ideal.matmul_constant_zero_apply, ← Equiv.sum_comp (contrEquiv1 dot_S128x256_S256x256_S128x256_1_0_0_1_n_n 256 rfl rfl).symm]
  refine Finset.sum_congr rfl fun q _ => ?_
  have hq := contrEquiv1_symm_val dot_S128x256_S256x256_S128x256_1_0_0_1_n_n 256 rfl rfl q
  have el : dot_S128x256_S256x256_S128x256_1_0_0_1_n_n.lhsIdx (ix2 r c) ((contrEquiv1 dot_S128x256_S256x256_S128x256_1_0_0_1_n_n 256 rfl rfl).symm q) = ix2 r q := funext fun a => Fin.ext (by
    match a with
    | ⟨0, _⟩ => exact lhsH_0 _ _
    | ⟨1, _⟩ => exact (lhsH_1 _ _).trans hq)
  have er : dot_S128x256_S256x256_S128x256_1_0_0_1_n_n.rhsIdx (ix2 r c) ((contrEquiv1 dot_S128x256_S256x256_S128x256_1_0_0_1_n_n 256 rfl rfl).symm q) = ix2 q c := funext fun a => Fin.ext (by
    match a with
    | ⟨0, _⟩ => exact (rhsH_0 _ _).trans hq
    | ⟨1, _⟩ => exact rhsH_1 _ _)
  rw [el, er]

/-! ## (128 × 1000) · (1000 × 1000): the one-hot matrix against the distances -/

theorem lhsD_0 (i : S128x1000.Idx) (q : dot_S128x1000_S1000x1000_S128x1000_1_0_0_1_n_n.contr.Idx) :
    (dot_S128x1000_S1000x1000_S128x1000_1_0_0_1_n_n.lhsIdx i q 0).val = (i 0).val := by
  unfold DotDims.lhsIdx
  rw [dif_neg (show ¬(0 : Fin S128x1000.rank) ∈ dot_S128x1000_S1000x1000_S128x1000_1_0_0_1_n_n.lhsBatch by decide), dif_pos (show (0 : Fin S128x1000.rank) ∈ dot_S128x1000_S1000x1000_S128x1000_1_0_0_1_n_n.lhsNonContracting by decide)]
  rfl
theorem lhsD_1 (i : S128x1000.Idx) (q : dot_S128x1000_S1000x1000_S128x1000_1_0_0_1_n_n.contr.Idx) :
    (dot_S128x1000_S1000x1000_S128x1000_1_0_0_1_n_n.lhsIdx i q 1).val = (q ⟨0, by decide⟩).val :=
  dot_S128x1000_S1000x1000_S128x1000_1_0_0_1_n_n.lhsIdx_val_of_single rfl i q
theorem rhsD_0 (i : S128x1000.Idx) (q : dot_S128x1000_S1000x1000_S128x1000_1_0_0_1_n_n.contr.Idx) :
    (dot_S128x1000_S1000x1000_S128x1000_1_0_0_1_n_n.rhsIdx i q 0).val = (q ⟨0, by decide⟩).val :=
  dot_S128x1000_S1000x1000_S128x1000_1_0_0_1_n_n.rhsIdx_val_of_single rfl i q
theorem rhsD_1 (i : S128x1000.Idx) (q : dot_S128x1000_S1000x1000_S128x1000_1_0_0_1_n_n.contr.Idx) :
    (dot_S128x1000_S1000x1000_S128x1000_1_0_0_1_n_n.rhsIdx i q 1).val = (i 1).val := by
  unfold DotDims.rhsIdx
  rw [dif_neg (show ¬(1 : Fin S1000x1000.rank) ∈ dot_S128x1000_S1000x1000_S128x1000_1_0_0_1_n_n.rhsBatch by decide), dif_pos (show (1 : Fin S1000x1000.rank) ∈ dot_S128x1000_S1000x1000_S128x1000_1_0_0_1_n_n.rhsNonContracting by decide)]
  rfl
theorem mmD_apply {φ₁ φ₂ : FTy} (lhs : FVec Ideal S128x1000 φ₁) (rhs : FVec Ideal S1000x1000 φ₂) (r : Fin 128) (c : Fin 1000) :
    matmul dot_S128x1000_S1000x1000_S128x1000_1_0_0_1_n_n none lhs rhs (constant S128x1000 .f32 0x00000000#32) (ix2 r c)
      = ∑ q : Fin 1000, lhs (ix2 r q) * rhs (ix2 q c) := by
  simp only [matmul]
  rw [Ideal.matmul_constant_zero_apply, ← Equiv.sum_comp (contrEquiv1 dot_S128x1000_S1000x1000_S128x1000_1_0_0_1_n_n 1000 rfl rfl).symm]
  refine Finset.sum_congr rfl fun q _ => ?_
  have hq := contrEquiv1_symm_val dot_S128x1000_S1000x1000_S128x1000_1_0_0_1_n_n 1000 rfl rfl q
  have el : dot_S128x1000_S1000x1000_S128x1000_1_0_0_1_n_n.lhsIdx (ix2 r c) ((contrEquiv1 dot_S128x1000_S1000x1000_S128x1000_1_0_0_1_n_n 1000 rfl rfl).symm q) = ix2 r q := funext fun a => Fin.ext (by
    match a with
    | ⟨0, _⟩ => exact lhsD_0 _ _
    | ⟨1, _⟩ => exact (lhsD_1 _ _).trans hq)
  have er : dot_S128x1000_S1000x1000_S128x1000_1_0_0_1_n_n.rhsIdx (ix2 r c) ((contrEquiv1 dot_S128x1000_S1000x1000_S128x1000_1_0_0_1_n_n 1000 rfl rfl).symm q) = ix2 q c := funext fun a => Fin.ext (by
    match a with
    | ⟨0, _⟩ => exact (rhsD_0 _ _).trans hq
    | ⟨1, _⟩ => exact rhsD_1 _ _)
  rw [el, er]

/-! ## (128 × 256) · (1000 × 256)ᵀ: the queries against the embeddings -/

theorem lhsS_0 (i : S128x1000.Idx) (q : dot_S128x256_S1000x256_S128x1000_1_1_0_0_n_n.contr.Idx) :
    (dot_S128x256_S1000x256_S128x1000_1_1_0_0_n_n.lhsIdx i q 0).val = (i 0).val := by
  unfold DotDims.lhsIdx
  rw [dif_neg (show ¬(0 : Fin S128x256.rank) ∈ dot_S128x256_S1000x256_S128x1000_1_1_0_0_n_n.lhsBatch by decide), dif_pos (show (0 : Fin S128x256.rank) ∈ dot_S128x256_S1000x256_S128x1000_1_1_0_0_n_n.lhsNonContracting by decide)]
  rfl
theorem lhsS_1 (i : S128x1000.Idx) (q : dot_S128x256_S1000x256_S128x1000_1_1_0_0_n_n.contr.Idx) :
    (dot_S128x256_S1000x256_S128x1000_1_1_0_0_n_n.lhsIdx i q 1).val = (q ⟨0, by decide⟩).val :=
  dot_S128x256_S1000x256_S128x1000_1_1_0_0_n_n.lhsIdx_val_of_single rfl i q
theorem rhsS_0 (i : S128x1000.Idx) (q : dot_S128x256_S1000x256_S128x1000_1_1_0_0_n_n.contr.Idx) :
    (dot_S128x256_S1000x256_S128x1000_1_1_0_0_n_n.rhsIdx i q 0).val = (i 1).val := by
  unfold DotDims.rhsIdx
  rw [dif_neg (show ¬(0 : Fin S1000x256.rank) ∈ dot_S128x256_S1000x256_S128x1000_1_1_0_0_n_n.rhsBatch by decide), dif_pos (show (0 : Fin S1000x256.rank) ∈ dot_S128x256_S1000x256_S128x1000_1_1_0_0_n_n.rhsNonContracting by decide)]
  rfl
theorem rhsS_1 (i : S128x1000.Idx) (q : dot_S128x256_S1000x256_S128x1000_1_1_0_0_n_n.contr.Idx) :
    (dot_S128x256_S1000x256_S128x1000_1_1_0_0_n_n.rhsIdx i q 1).val = (q ⟨0, by decide⟩).val :=
  dot_S128x256_S1000x256_S128x1000_1_1_0_0_n_n.rhsIdx_val_of_single rfl i q
theorem mmS_apply {φ₁ φ₂ : FTy} (lhs : FVec Ideal S128x256 φ₁) (rhs : FVec Ideal S1000x256 φ₂) (r : Fin 128) (c : Fin 1000) :
    matmul dot_S128x256_S1000x256_S128x1000_1_1_0_0_n_n none lhs rhs (constant S128x1000 .f32 0x00000000#32) (ix2 r c)
      = ∑ q : Fin 256, lhs (ix2 r q) * rhs (ix2 c q) := by
  simp only [matmul]
  rw [Ideal.matmul_constant_zero_apply, ← Equiv.sum_comp (contrEquiv1 dot_S128x256_S1000x256_S128x1000_1_1_0_0_n_n 256 rfl rfl).symm]
  refine Finset.sum_congr rfl fun q _ => ?_
  have hq := contrEquiv1_symm_val dot_S128x256_S1000x256_S128x1000_1_1_0_0_n_n 256 rfl rfl q
  have el : dot_S128x256_S1000x256_S128x1000_1_1_0_0_n_n.lhsIdx (ix2 r c) ((contrEquiv1 dot_S128x256_S1000x256_S128x1000_1_1_0_0_n_n 256 rfl rfl).symm q) = ix2 r q := funext fun a => Fin.ext (by
    match a with
    | ⟨0, _⟩ => exact lhsS_0 _ _
    | ⟨1, _⟩ => exact (lhsS_1 _ _).trans hq)
  have er : dot_S128x256_S1000x256_S128x1000_1_1_0_0_n_n.rhsIdx (ix2 r c) ((contrEquiv1 dot_S128x256_S1000x256_S128x1000_1_1_0_0_n_n 256 rfl rfl).symm q) = ix2 c q := funext fun a => Fin.ext (by
    match a with
    | ⟨0, _⟩ => exact rhsS_0 _ _
    | ⟨1, _⟩ => exact (rhsS_1 _ _).trans hq)
  rw [el, er]

end Cert.KernelIdeal.Slab

end
-- ==== Proof.SlabValue.lean ====
/-
  The slab read at an entry, on the extended reals.

  With the slab's index word of row `r` equal to the number ℓ < 1000, the one-hot row `[k = ℓ]` turns the product with the
  embeddings into the embedding row ℓ and the product with the distances into the distance row ℓ; the second distance product,
  against `d − d`, is a sum of zeros when the distances are real numbers. What is left is the specification's row.
-/
import proofs.«407836_j40321152975399_2_alg».proof.Proof.SlabParts
import proofs.«407836_j40321152975399_2_alg».proof.Proof.MatMul
import proofs.«407836_j40321152975399_2_alg».proof.Proof.Spec
import Idealize.ShloMosaic.Lib.Pipeline.Value
import Idealize.ShloMosaic.Lib.ValueLayout
import Idealize.ShloMosaic.Lib.StableHlo.Predicate
import Idealize.ShloMosaic.PureOps.IdealRules

noncomputable section

namespace Cert.KernelIdeal.Slab

open Cert.KernelIdeal Cert.KernelIdeal.Gen Idealize.ShloMosaic Idealize.ShloMosaic.ValueIdx

/-! ## The loads, cast to matrices -/

theorem emb_apply (x0 : Vec Ideal S1x1000x256 .f32) (i : Fin 1000) (h : Fin 256) :
    k0_pay3 x0 (ix2 i h) = x0 (ix3 (0 : Fin 1) i h) :=
  shapeCast_1ab_ab_apply x0 shapeCasts_S1x1000x256_S1000x256 i h

theorem emb32_apply (x0 : Vec Ideal S1x1000x256 .f32) (i : Fin 1000) (h : Fin 256) :
    k0_pay2 x0 (ix2 i h) = x0 (ix3 (0 : Fin 1) i h) :=
  shapeCast_1ab_ab_apply x0 shapeCasts_S1x1000x256_S1000x256 i h

theorem dhi_apply (x1 : Vec Ideal S1x1000x1000 .f32) (k n : Fin 1000) :
    k0_pay5 x1 (ix2 k n) = x1 (ix3 (0 : Fin 1) k n) :=
  shapeCast_1ab_ab_apply x1 shapeCasts_S1x1000x1000_S1000x1000 k n

/-- The low part of the split distances is `d − d`. -/
theorem dlo_apply (x1 : Vec Ideal S1x1000x1000 .f32) (k n : Fin 1000) :
    k0_pay6 x1 (ix2 k n) = x1 (ix3 (0 : Fin 1) k n) - x1 (ix3 (0 : Fin 1) k n) := by
  show shapeCast S1000x1000 x1 shapeCasts_S1x1000x1000_S1000x1000 (ix2 k n)
      - shapeCast S1000x1000 x1 shapeCasts_S1x1000x1000_S1000x1000 (ix2 k n) = _
  rw [shapeCast_1ab_ab_apply x1 shapeCasts_S1x1000x1000_S1000x1000 k n]

theorem wl_eq (x : Vec Ideal S256x256 .f32) : k0_pay7 x = x := shapeCast_self x shapeCasts_S256x256_S256x256
theorem wf_eq (x : Vec Ideal S256x256 .f32) : k0_pay8 x = x := shapeCast_self x shapeCasts_S256x256_S256x256
theorem wv_eq (x : Vec Ideal S256x256 .f32) : k0_pay9 x = x := shapeCast_self x shapeCasts_S256x256_S256x256

/-! ## The one-hot row -/

/-- Two numbers below 2³² are equal as 32-bit words exactly when they are equal. -/
theorem ofNat_eq_iff {a b : Nat} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · intro h; rw [h]

/-- Row `r` of the one-hot matrix: 1 at the column the row's index word names, 0 elsewhere. -/
theorem onehot_apply (l : Vec Ideal S1x128x1 .i32) (r : Fin 128) (ℓ : Fin 1000)
    (hl : l (ix3 (0 : Fin 1) r (0 : Fin 1)) = BitVec.ofNat 32 ℓ.val) (k : Fin 1000) :
    k0_pay11 (F := Ideal) l (ix2 r k) = if k = ℓ then 1 else 0 := by
  have hb : broadcastTo S128x1000 (shapeCast S128x1 l shapeCasts_S1x128x1_S128x1) broadcasts_S128x1_S128x1000 (ix2 r k)
      = BitVec.ofNat 32 ℓ.val := by
    rw [broadcastTo_apply _ broadcasts_S128x1_S128x1000 (ix2 r k) (ix2 r (0 : Fin 1)) (fun a => by
      match a with
      | ⟨0, _⟩ => rfl
      | ⟨1, _⟩ => rfl)]
    rw [shapeCast_1ab_ab_apply l shapeCasts_S1x128x1_S128x1 r (0 : Fin 1)]
    exact hl
  have hi : iota .tc S128x1000 32 [1] iota_S128x1000_d1_w32 (ix2 r k) = BitVec.ofNat 32 k.val :=
    iota_single_apply .tc S128x1000 32 1 iota_S128x1000_d1_w32 (ix2 r k)
  show (((((IntOp.cmpi .eq (iota .tc S128x1000 32 [1] iota_S128x1000_d1_w32 (ix2 r k))
      (broadcastTo S128x1000 (shapeCast S128x1 l shapeCasts_S1x128x1_S128x1) broadcasts_S128x1_S128x1000 (ix2 r k))).setWidth 32).toInt : ℝ)) : EReal) = _
  rw [hb, hi]
  have hk : k.val < 2 ^ 32 := by have := k.isLt; omega
  have hℓ : ℓ.val < 2 ^ 32 := by have := ℓ.isLt; omega
  by_cases h : k = ℓ
  · rw [if_pos h, StableHlo.Predicate.cmpi_eq_iff.mpr (by rw [h])]
    simp
  · have hne : ¬ IntOp.cmpi .eq (BitVec.ofNat 32 k.val) (BitVec.ofNat 32 ℓ.val) = 1#1 := fun e =>
      h (Fin.ext ((ofNat_eq_iff hk hℓ).mp (StableHlo.Predicate.cmpi_eq_iff.mp e)))
    rw [if_neg h, eq_zero_of_ne_one hne]
    simp

/-- The one-hot matrix times the embeddings: the embedding row of the named node. -/
theorem lastEmb_apply (x0 : Vec Ideal S1x1000x256 .f32) (l : Vec Ideal S1x128x1 .i32) (r : Fin 128) (ℓ : Fin 1000)
    (hl : l (ix3 (0 : Fin 1) r (0 : Fin 1)) = BitVec.ofNat 32 ℓ.val) (h : Fin 256) :
    k0_pay12 (F := Ideal) x0 l (ix2 r h) = x0 (ix3 (0 : Fin 1) ℓ h) := by
  show matmul dot_S128x1000_S1000x256_S128x256_1_0_0_1_n_n none (k0_pay11 l) (k0_pay3 x0)
      (constant S128x256 .f32 0x00000000#32) (ix2 r h) = _
  rw [mmE_apply, Spec.sum_onehot ℓ (fun k => k0_pay11 (F := Ideal) l (ix2 r k)) (fun k => k0_pay3 x0 (ix2 k h))
    (fun k => onehot_apply l r ℓ hl k)]
  exact emb_apply x0 ℓ h

/-! ## The graph query -/

/-- The column sums of the embeddings. -/
theorem colsum_apply (x0 : Vec Ideal S1x1000x256 .f32) (q : Fin 256) :
    multiReduction .add [0] S256 (k0_pay2 (F := Ideal) x0) 0x00000000#32 reduces_S1000x256_S256 (.inl rfl) rfl (ix1 q)
      = ∑ i : Fin 1000, x0 (ix3 (0 : Fin 1) i q) := by
  refine (Ideal.multiReduction_add_single (k0_pay2 (F := Ideal) x0) 0x00000000#32 reduces_S1000x256_S256 (.inl rfl) rfl
    (ix1 q)).trans ?_
  refine Finset.sum_congr rfl fun i _ => ?_
  have e : reduces_S1000x256_S256.lift (ix1 q) i = ix2 i q := funext fun a => Fin.ext (by
    match a with
    | ⟨0, _⟩ => rfl
    | ⟨1, _⟩ => rfl)
  rw [e]; exact emb32_apply x0 i q

/-- The graph query: the mean embedding through the (transposed) graph weights. -/
theorem qg_apply (x0 : Vec Ideal S1x1000x256 .f32) (x4 : Vec Ideal S256x256 .f32) (u : Fin 1) (o : Fin 256) :
    k0_pay10 (F := Ideal) x0 x4 (ix2 u o)
      = Spec.head (Spec.meanEmb fun i h => x0 (ix3 (0 : Fin 1) i h)) (fun o h => x4 (ix2 h o)) o := by
  show matmul dot_S1x256_S256x256_S1x256_1_0_0_1_n_n none
      (truncf .bf16 (divf (shapeCast S1x256 (multiReduction .add [0] S256 (k0_pay2 (F := Ideal) x0) 0x00000000#32
        reduces_S1000x256_S256 (.inl rfl) rfl) shapeCasts_S256_S1x256) (broadcast S1x256 (Scalar.ofBits .f32 0x447A0000#32)))
        bitsLt_bf16_f32)
      (truncf .bf16 (shapeCast S256x256 x4 shapeCasts_S256x256_S256x256) bitsLt_bf16_f32)
      (constant S1x256 .f32 0x00000000#32) (ix2 u o) = _
  rw [mmG_apply]
  refine Finset.sum_congr rfl fun q _ => ?_
  show Ideal.div (shapeCast S1x256 (multiReduction .add [0] S256 (k0_pay2 (F := Ideal) x0) 0x00000000#32
        reduces_S1000x256_S256 (.inl rfl) rfl) shapeCasts_S256_S1x256 (ix2 u q)) (Ideal.ofBits .f32 0x447A0000#32)
      * shapeCast S256x256 x4 shapeCasts_S256x256_S256x256 (ix2 q o) = _
  rw [shapeCast_a_1a_apply _ shapeCasts_S256_S1x256 u q, colsum_apply, shapeCast_self]
  rfl

/-! ## The parts, read at an entry of row `r` -/

theorem tanh_apply {s : Shape} {φ : FTy} (a : FVec Ideal s φ) (i : s.Idx) : tanh a i = Ideal.tanh (a i) := rfl
theorem exp_apply {s : Shape} {φ : FTy} (a : FVec Ideal s φ) (i : s.Idx) : exp a i = Ideal.exp (a i) := rfl

/-- The named reciprocal is the real 1/1000. -/
theorem inv_1000 : Named.named (F := Ideal) κ "inv_1000" (φ := .f32) 0x3A83126F#32 = ((1 / 1000 : ℝ) : EReal) :=
  IdealRules.named_const.ideal_named_scalar _ _ _ _ rfl

theorem queryRows_apply (e : FVec Ideal S1000x256 .bf16) (wl wf wv : FVec Ideal S256x256 .bf16) (qg : FVec Ideal S1x256 .f32)
    (le : FVec Ideal S128x256 .bf16) (m : FVec Ideal S128x1000 .f32)
    (E : Fin 1000 → Fin 256 → EReal) (El : Fin 256 → EReal) (M : Fin 1000 → EReal) (Wg Wl Wf Wv : Fin 256 → Fin 256 → EReal)
    (r : Fin 128)
    (he : ∀ i h, e (ix2 i h) = E i h) (hwl : ∀ q o, wl (ix2 q o) = Wl o q) (hwf : ∀ q o, wf (ix2 q o) = Wf o q)
    (hwv : ∀ q o, wv (ix2 q o) = Wv o q) (hqg : ∀ o, qg (ix2 (0 : Fin 1) o) = Spec.head (Spec.meanEmb E) Wg o)
    (hle : ∀ h, le (ix2 r h) = El h) (hm : ∀ n, m (ix2 r n) = M n) (h : Fin 256) :
    queryRows e wl wf wv qg le m (ix2 r h) = Spec.query E El M Wg Wl Wf Wv h := by
  unfold queryRows
  simp only [addf_apply, mmH_apply, mmE_apply, broadcastTo_1b_ab_apply, truncf_apply, mulf_apply, broadcast_apply,
    select_apply, cmpf_apply, hle, hwl, hwf, hwv, hqg, he, hm, inv_1000]
  rfl

theorem distRows_apply (dh dl : FVec Ideal S1000x1000 .bf16) (oh : FVec Ideal S128x1000 .bf16)
    (D : Fin 1000 → Fin 1000 → EReal) (r : Fin 128) (ℓ : Fin 1000)
    (hdh : ∀ k n, dh (ix2 k n) = D k n) (hdl : ∀ k n, dl (ix2 k n) = D k n - D k n)
    (hoh : ∀ k, oh (ix2 r k) = if k = ℓ then 1 else 0) (hfin : ∀ k n, D k n - D k n = 0) (n : Fin 1000) :
    distRows dh dl oh (ix2 r n) = D ℓ n := by
  unfold distRows
  rw [addf_apply, mmD_apply, mmD_apply,
    Spec.sum_onehot ℓ (fun q => oh (ix2 r q)) (fun q => dh (ix2 q n)) hoh,
    Spec.sum_onehot ℓ (fun q => oh (ix2 r q)) (fun q => dl (ix2 q n)) hoh, hdh, hdl, hfin, add_zero]

theorem logitRows_apply (e : FVec Ideal S1000x256 .bf16) (q : FVec Ideal S128x256 .f32) (d m : FVec Ideal S128x1000 .f32)
    (E : Fin 1000 → Fin 256 → EReal) (Q : Fin 256 → EReal) (Dl M : Fin 1000 → EReal) (r : Fin 128)
    (he : ∀ i h, e (ix2 i h) = E i h) (hq : ∀ h, q (ix2 r h) = Q h) (hd : ∀ n, d (ix2 r n) = Dl n)
    (hm : ∀ n, m (ix2 r n) = M n) (n : Fin 1000) :
    logitRows e q d m (ix2 r n)
      = Ideal.ofBits .f32 0x41200000#32
          * Ideal.tanh ((∑ h : Fin 256, Q h * E n h) * Ideal.ofBits .f32 0x3D800000#32 - Dl n * Ideal.ofBits .f32 0x3F3504F3#32)
        + Spec.maskProb (M n) := by
  unfold logitRows
  simp only [addf_apply, mulf_apply, subf_apply, broadcast_apply, select_apply, cmpf_apply, truncf_apply, tanh_apply,
    mmS_apply, hq, hd, hm, he]
  rfl

/-- A row's maximum, repeated along the row. -/
theorem rowmax_apply (L : FVec Ideal S128x1000 .f32) (r : Fin 128) (n : Fin 1000) :
    broadcastTo S128x1000 (shapeCast S128x1 (multiReduction .maximumf [1] S128 L 0xFF800000#32 reduces_S128x1000_S128
        (.inl rfl) rfl) shapeCasts_S128_S128x1) broadcasts_S128x1_S128x1000 (ix2 r n)
      = (Finset.univ : Finset (Fin 1000)).fold max Spec.ninf (fun k => L (ix2 r k)) := by
  rw [broadcastTo_apply _ broadcasts_S128x1_S128x1000 (ix2 r n) (ix2 r (0 : Fin 1)) (fun a => by
    match a with
    | ⟨0, _⟩ => rfl
    | ⟨1, _⟩ => rfl)]
  rw [shapeCast_apply _ shapeCasts_S128_S128x1 (ix2 r (0 : Fin 1)) (ix1 r) (by
    rw [Shape.rowMajor_val_one, Shape.rowMajor_val_two]
    show r.val = r.val * 1 + 0
    omega)]
  refine (Ideal.multiReduction_maximumf_single L 0xFF800000#32 reduces_S128x1000_S128 (.inl rfl) rfl (ix1 r)).trans ?_
  have e : (L ∘ reduces_S128x1000_S128.lift (ix1 r)) = fun k => L (ix2 r k) := funext fun k =>
    congrArg L (funext fun a => Fin.ext (by
      match a with
      | ⟨0, _⟩ => rfl
      | ⟨1, _⟩ => rfl))
  rw [e]; rfl

/-- A row's sum, repeated along the row. -/
theorem rowsum_apply (N : FVec Ideal S128x1000 .f32) (r : Fin 128) (n : Fin 1000) :
    broadcastTo S128x1000 (shapeCast S128x1 (multiReduction .add [1] S128 N 0x00000000#32 reduces_S128x1000_S128
        (.inl rfl) rfl) shapeCasts_S128_S128x1) broadcasts_S128x1_S128x1000 (ix2 r n)
      = ∑ k : Fin 1000, N (ix2 r k) := by
  rw [broadcastTo_apply _ broadcasts_S128x1_S128x1000 (ix2 r n) (ix2 r (0 : Fin 1)) (fun a => by
    match a with
    | ⟨0, _⟩ => rfl
    | ⟨1, _⟩ => rfl)]
  rw [shapeCast_apply _ shapeCasts_S128_S128x1 (ix2 r (0 : Fin 1)) (ix1 r) (by
    rw [Shape.rowMajor_val_one, Shape.rowMajor_val_two]
    show r.val = r.val * 1 + 0
    omega)]
  refine (Ideal.multiReduction_add_single N 0x00000000#32 reduces_S128x1000_S128 (.inl rfl) rfl (ix1 r)).trans ?_
  refine Finset.sum_congr rfl fun k _ => congrArg N (funext fun a => Fin.ext (by
    match a with
    | ⟨0, _⟩ => rfl
    | ⟨1, _⟩ => rfl))

theorem expRows_apply (L : FVec Ideal S128x1000 .f32) (r : Fin 128) (n : Fin 1000) :
    expRows L (ix2 r n) = Ideal.exp (L (ix2 r n) - (Finset.univ : Finset (Fin 1000)).fold max Spec.ninf (fun k => L (ix2 r k))) := by
  unfold expRows
  rw [exp_apply, subf_apply, rowmax_apply]

theorem normRows_apply (N : FVec Ideal S128x1000 .f32) (u : Fin 1) (r : Fin 128) (n : Fin 1000) :
    normRows N (ix3 u r n) = Ideal.div (N (ix2 r n)) (∑ k : Fin 1000, N (ix2 r k)) := by
  unfold normRows
  rw [shapeCast_ab_1ab_apply _ shapeCasts_S128x1000_S1x128x1000 u r n, divf_apply, rowsum_apply]

/-! ## The slab -/

/-- Row `r` of the slab is the specification's row for the node the row's index word names, when the distances are
    real numbers. -/
theorem slab_apply (x0 : Vec Ideal S1x1000x256 .f32) (x1 : Vec Ideal S1x1000x1000 .f32) (x4 x5 x6 x7 : Vec Ideal S256x256 .f32)
    (l : Vec Ideal S1x128x1 .i32) (m : Vec Ideal S1x128x1000 .f32) (r : Fin 128) (ℓ : Fin 1000)
    (hl : l (ix3 (0 : Fin 1) r (0 : Fin 1)) = BitVec.ofNat 32 ℓ.val)
    (hfin : ∀ k n : Fin 1000, x1 (ix3 (0 : Fin 1) k n) - x1 (ix3 (0 : Fin 1) k n) = 0) (u : Fin 1) (n : Fin 1000) :
    slabOf x0 x1 x4 x5 x6 x7 l m (ix3 u r n)
      = Spec.rowOut (fun i h => x0 (ix3 (0 : Fin 1) i h)) (fun n => x1 (ix3 (0 : Fin 1) ℓ n))
          (fun h => x0 (ix3 (0 : Fin 1) ℓ h)) (fun n => m (ix3 (0 : Fin 1) r n))
          (fun o h => x4 (ix2 h o)) (fun o h => x5 (ix2 h o)) (fun o h => x6 (ix2 h o)) (fun o h => x7 (ix2 h o)) n := by
  have hm : ∀ n, shapeCast S128x1000 m shapeCasts_S1x128x1000_S128x1000 (ix2 r n) = m (ix3 (0 : Fin 1) r n) :=
    fun n => shapeCast_1ab_ab_apply m shapeCasts_S1x128x1000_S128x1000 r n
  have hQ := queryRows_apply (k0_pay3 x0) (k0_pay7 x5) (k0_pay8 x6) (k0_pay9 x7) (k0_pay10 x0 x4) (k0_pay12 x0 l)
    (shapeCast S128x1000 m shapeCasts_S1x128x1000_S128x1000)
    (fun i h => x0 (ix3 (0 : Fin 1) i h)) (fun h => x0 (ix3 (0 : Fin 1) ℓ h)) (fun n => m (ix3 (0 : Fin 1) r n))
    (fun o h => x4 (ix2 h o)) (fun o h => x5 (ix2 h o)) (fun o h => x6 (ix2 h o)) (fun o h => x7 (ix2 h o)) r
    (emb_apply x0) (fun q o => by rw [wl_eq]) (fun q o => by rw [wf_eq]) (fun q o => by rw [wv_eq])
    (fun o => qg_apply x0 x4 0 o) (lastEmb_apply x0 l r ℓ hl) hm
  have hD := distRows_apply (k0_pay5 x1) (k0_pay6 x1) (k0_pay11 l) (fun k n => x1 (ix3 (0 : Fin 1) k n)) r ℓ
    (dhi_apply x1) (dlo_apply x1) (onehot_apply l r ℓ hl) hfin
  have hL : ∀ k, logitRows (k0_pay3 x0)
        (queryRows (k0_pay3 x0) (k0_pay7 x5) (k0_pay8 x6) (k0_pay9 x7) (k0_pay10 x0 x4) (k0_pay12 x0 l)
          (shapeCast S128x1000 m shapeCasts_S1x128x1000_S128x1000))
        (distRows (k0_pay5 x1) (k0_pay6 x1) (k0_pay11 l))
        (shapeCast S128x1000 m shapeCasts_S1x128x1000_S128x1000) (ix2 r k)
      = Spec.logit (fun i h => x0 (ix3 (0 : Fin 1) i h)) (fun n => x1 (ix3 (0 : Fin 1) ℓ n))
          (fun h => x0 (ix3 (0 : Fin 1) ℓ h)) (fun n => m (ix3 (0 : Fin 1) r n))
          (fun o h => x4 (ix2 h o)) (fun o h => x5 (ix2 h o)) (fun o h => x6 (ix2 h o)) (fun o h => x7 (ix2 h o)) k :=
    fun k => logitRows_apply _ _ _ _ _ _ _ _ r (emb_apply x0) hQ hD hm k
  rw [slabOf_eq, normRows_apply]
  simp only [expRows_apply, hL]
  rfl

end Cert.KernelIdeal.Slab

end
-- ==== Proof.KernelArrays.lean ====
/-
  The arrays as the kernel's region finds them, and the region's input blocks read back to them.

  Before the region the program pads the index words with 12 zero words per batch and reshapes them to 64 × 512 × 1, pads the
  mask with 12 rows of `−∞` per batch, and transposes the four weight matrices. At grid point `t` the region stages batch
  `t` of the embeddings, the distances, the padded words and the padded mask, and each transposed weight matrix whole.
-/
import proofs.«407836_j40321152975399_2_alg».proof.Proof.Gen.KernelIdeal.Frame
import Idealize.ShloMosaic.Lib.Pipeline.Value
import Idealize.ShloMosaic.Lib.ValueLayout
import Idealize.ShloMosaic.Lib.KernelVsHost
import Idealize.ShloMosaic.Lib.StableHlo.Run

set_option maxRecDepth 16384

noncomputable section

namespace Cert.KernelIdeal.KA

open Cert.KernelIdeal Cert.KernelIdeal.Gen Idealize.ShloMosaic Idealize.ShloMosaic.ValueIdx
open Idealize.ShloMosaic.TcCoe Idealize.SL.Sem Idealize.ShloMosaic.StableHlo

variable (m : (ℓ : Loc nD τ sig) → Buf (Elt Ideal) ℓ)

/-! ## The host-written arrays at region entry -/

/-- The index words, padded and reshaped. -/
theorem V_v1 (c : Dev nD) :
    (V m c main_v1 : S64x512x1.Idx → BitVec 32)
      = shapeCast S64x512x1 (pad S64x512 ![0, 0] ![0, 12] ![0, 0] (m ((c : Thread nD τ).loc main_arg2) : S64x500.Idx → BitVec 32)
          (constantI S_ 32 0#32) pads_S64x500_S64x512_000_0120 h_S_) shapeCasts_S64x512_S64x512x1 := by
  dsimp only [V, V0]
  simp only [hostOps0, hostOps0_1, hostOps0_2, hostOps0_3, hostOps0_4, List.flatten_cons, List.flatten_nil, List.append_nil,
    List.cons_append, List.nil_append]
  after_results
  rfl

/-- The mask, padded. -/
theorem V_v2 (c : Dev nD) :
    (V m c main_v2 : S64x512x1000.Idx → EReal)
      = pad S64x512x1000 ![0, 0, 0] ![0, 12, 0] ![0, 0, 0] (m ((c : Thread nD τ).loc main_arg3) : S64x500x1000.Idx → EReal)
          (constant (F := Ideal) S_ .f32 0xFF800000#32) pads_S64x500x1000_S64x512x1000_000_0120_000 h_S_ := by
  dsimp only [V, V0]
  simp only [hostOps0, hostOps0_1, hostOps0_2, hostOps0_3, hostOps0_4, List.flatten_cons, List.flatten_nil, List.append_nil,
    List.cons_append, List.nil_append]
  after_results
  rfl

/-- The four weight matrices, transposed. -/
theorem V_v3 (c : Dev nD) : (V m c main_v3 : S256x256.Idx → EReal)
    = transpose S256x256 [1, 0] (m ((c : Thread nD τ).loc main_arg4) : S256x256.Idx → EReal) transposes_S256x256_S256x256_1_0 := by
  dsimp only [V, V0]
  simp only [hostOps0, hostOps0_1, hostOps0_2, hostOps0_3, hostOps0_4, List.flatten_cons, List.flatten_nil, List.append_nil,
    List.cons_append, List.nil_append]
  after_results
theorem V_v4 (c : Dev nD) : (V m c main_v4 : S256x256.Idx → EReal)
    = transpose S256x256 [1, 0] (m ((c : Thread nD τ).loc main_arg5) : S256x256.Idx → EReal) transposes_S256x256_S256x256_1_0 := by
  dsimp only [V, V0]
  simp only [hostOps0, hostOps0_1, hostOps0_2, hostOps0_3, hostOps0_4, List.flatten_cons, List.flatten_nil, List.append_nil,
    List.cons_append, List.nil_append]
  after_results
theorem V_v5 (c : Dev nD) : (V m c main_v5 : S256x256.Idx → EReal)
    = transpose S256x256 [1, 0] (m ((c : Thread nD τ).loc main_arg6) : S256x256.Idx → EReal) transposes_S256x256_S256x256_1_0 := by
  dsimp only [V, V0]
  simp only [hostOps0, hostOps0_1, hostOps0_2, hostOps0_3, hostOps0_4, List.flatten_cons, List.flatten_nil, List.append_nil,
    List.cons_append, List.nil_append]
  after_results
theorem V_v6 (c : Dev nD) : (V m c main_v6 : S256x256.Idx → EReal)
    = transpose S256x256 [1, 0] (m ((c : Thread nD τ).loc main_arg7) : S256x256.Idx → EReal) transposes_S256x256_S256x256_1_0 := by
  dsimp only [V, V0]
  simp only [hostOps0, hostOps0_1, hostOps0_2, hostOps0_3, hostOps0_4, List.flatten_cons, List.flatten_nil, List.append_nil,
    List.cons_append, List.nil_append]
  after_results

/-! ## Read at an index -/

/-- A padded index word: the argument's word on the first 500 rows, the zero word on the 12 rows of padding. -/
theorem v1_apply (c : Dev nD) (b : Fin 64) (g : Fin 512) (z : Fin 1) :
    (V m c main_v1 : S64x512x1.Idx → BitVec 32) (ix3 b g z)
      = if h : g.val < 500 then (m ((c : Thread nD τ).loc main_arg2) : S64x500.Idx → BitVec 32) (ix2 b ⟨g.val, h⟩) else 0#32 := by
  rw [V_v1, shapeCast_apply _ shapeCasts_S64x512_S64x512x1 (ix3 b g z) (ix2 b g) (by
    rw [Shape.rowMajor_val_two, Shape.rowMajor_val_three]
    show b.val * 512 + g.val = (b.val * 512 + g.val) * 1 + z.val
    have := z.isLt; omega)]
  split
  · rename_i h
    exact pad_apply_of_inside _ _ _ _ _ _ _ (ix2 b g) (ix2 b ⟨g.val, h⟩) (fun a => by
      match a with
      | ⟨0, _⟩ => show b.val = 0 + b.val * (0 + 1); omega
      | ⟨1, _⟩ => show g.val = 0 + g.val * (0 + 1); omega)
  · rename_i h
    exact pad_apply_of_not_inside _ _ _ _ _ _ _ (ix2 b g) 1 (by
      show ¬(0 ≤ g.val ∧ (g.val - 0) % (0 + 1) = 0 ∧ (g.val - 0) / (0 + 1) < 500)
      omega)

/-- The padded mask on the first 500 rows is the argument. -/
theorem v2_apply (c : Dev nD) (b : Fin 64) (g : Fin 500) (n : Fin 1000) :
    (V m c main_v2 : S64x512x1000.Idx → EReal) (ix3 b (⟨g.val, by have := g.isLt; omega⟩ : Fin 512) n)
      = (m ((c : Thread nD τ).loc main_arg3) : S64x500x1000.Idx → EReal) (ix3 b g n) := by
  rw [V_v2]
  exact pad_apply_of_inside _ _ _ _ _ _ _ _ (ix3 b g n) (fun a => by
    match a with
    | ⟨0, _⟩ => show b.val = 0 + b.val * (0 + 1); omega
    | ⟨1, _⟩ => show g.val = 0 + g.val * (0 + 1); omega
    | ⟨2, _⟩ => show n.val = 0 + n.val * (0 + 1); omega)

theorem v3_apply (c : Dev nD) (h o : Fin 256) : (V m c main_v3 : S256x256.Idx → EReal) (ix2 h o)
    = (m ((c : Thread nD τ).loc main_arg4) : S256x256.Idx → EReal) (ix2 o h) := by
  rw [V_v3]; exact transpose_ix2_apply _ _ h o
theorem v4_apply (c : Dev nD) (h o : Fin 256) : (V m c main_v4 : S256x256.Idx → EReal) (ix2 h o)
    = (m ((c : Thread nD τ).loc main_arg5) : S256x256.Idx → EReal) (ix2 o h) := by
  rw [V_v4]; exact transpose_ix2_apply _ _ h o
theorem v5_apply (c : Dev nD) (h o : Fin 256) : (V m c main_v5 : S256x256.Idx → EReal) (ix2 h o)
    = (m ((c : Thread nD τ).loc main_arg6) : S256x256.Idx → EReal) (ix2 o h) := by
  rw [V_v5]; exact transpose_ix2_apply _ _ h o
theorem v6_apply (c : Dev nD) (h o : Fin 256) : (V m c main_v6 : S256x256.Idx → EReal) (ix2 h o)
    = (m ((c : Thread nD τ).loc main_arg7) : S256x256.Idx → EReal) (ix2 o h) := by
  rw [V_v6]; exact transpose_ix2_apply _ _ h o

/-! ## The input blocks at a grid point -/

/-- The index maps over the grid: the batched windows take batch `t`, the weight windows their one block. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = t.val ∧ win0_8.index t (1 : Fin 3) = 0 ∧ win0_8.index t (2 : Fin 3) = 0) :=
  (by decide +kernel : ∀ t : Fin grid0.N, _)

/-- The grid has 64 points. -/
theorem N_eq : cfg0.N = 64 := by decide

/-- Grid point `t` as a batch number. -/
def batch (t : Fin cfg0.N) : Fin 64 := ⟨t.val, by have h := t.isLt; have e := N_eq; omega⟩

theorem iblk0_apply (c : Dev nD) (t : Fin cfg0.N) (i : Fin 1000) (h : Fin 256) :
    (iblk m c 0 t : Vec Ideal S1x1000x256 .f32) (ix3 (0 : Fin 1) i h)
      = (m ((c : Thread nD τ).loc main_arg0) : S64x1000x256.Idx → EReal) (ix3 (batch t) i h) := by
  obtain ⟨⟨e0, e1, e2⟩, -⟩ := idx_facts t
  unfold iblk
  rw [View.read_apply]
  show V m c main_arg0 _ = _
  rw [V_main_arg0]
  congr 1
  funext a
  apply Fin.ext
  match a with
  | ⟨0, _⟩ => show win0_0.index t (0 : Fin 3) * 1 + 1 * 0 = t.val; rw [e0]; omega
  | ⟨1, _⟩ => show win0_0.index t (1 : Fin 3) * 1000 + 1 * i.val = i.val; rw [e1]; omega
  | ⟨2, _⟩ => show win0_0.index t (2 : Fin 3) * 256 + 1 * h.val = h.val; rw [e2]; omega

theorem iblk1_apply (c : Dev nD) (t : Fin cfg0.N) (k n : Fin 1000) :
    (iblk m c 1 t : Vec Ideal S1x1000x1000 .f32) (ix3 (0 : Fin 1) k n)
      = (m ((c : Thread nD τ).loc main_arg1) : S64x1000x1000.Idx → EReal) (ix3 (batch t) k n) := by
  obtain ⟨-, ⟨e0, e1, e2⟩, -⟩ := idx_facts t
  unfold iblk
  rw [View.read_apply]
  show V m c main_arg1 _ = _
  rw [V_main_arg1]
  congr 1
  funext a
  apply Fin.ext
  match a with
  | ⟨0, _⟩ => show win0_1.index t (0 : Fin 3) * 1 + 1 * 0 = t.val; rw [e0]; omega
  | ⟨1, _⟩ => show win0_1.index t (1 : Fin 3) * 1000 + 1 * k.val = k.val; rw [e1]; omega
  | ⟨2, _⟩ => show win0_1.index t (2 : Fin 3) * 1000 + 1 * n.val = n.val; rw [e2]; omega

theorem iblk2_apply (c : Dev nD) (t : Fin cfg0.N) (y : S1x512x1.Idx) :
    (iblk m c 2 t : Vec Ideal S1x512x1 .i32) y
      = (V m c main_v1 : S64x512x1.Idx → BitVec 32) (ix3 (batch t) (y 1) (y 2)) := by
  obtain ⟨-, -, ⟨e0, e1, e2⟩, -⟩ := idx_facts t
  unfold iblk
  rw [View.read_apply]
  show V m c main_v1 _ = _
  congr 1
  funext a
  apply Fin.ext
  have h0 : (y 0).val = 0 := by have h : (y 0).val < 1 := (y 0).isLt; omega
  match a with
  | ⟨0, _⟩ => show win0_2.index t (0 : Fin 3) * 1 + 1 * (y 0).val = t.val; rw [e0, h0]; omega
  | ⟨1, _⟩ => show win0_2.index t (1 : Fin 3) * 512 + 1 * (y 1).val = (y 1).val; rw [e1]; omega
  | ⟨2, _⟩ => show win0_2.index t (2 : Fin 3) * 1 + 1 * (y 2).val = (y 2).val; rw [e2]; omega

theorem iblk3_apply (c : Dev nD) (t : Fin cfg0.N) (g : Fin 512) (n : Fin 1000) :
    (iblk m c 3 t : Vec Ideal S1x512x1000 .f32) (ix3 (0 : Fin 1) g n)
      = (V m c main_v2 : S64x512x1000.Idx → EReal) (ix3 (batch t) g n) := by
  obtain ⟨-, -, -, ⟨e0, e1, e2⟩, -⟩ := idx_facts t
  unfold iblk
  rw [View.read_apply]
  show V m c main_v2 _ = _
  congr 1
  funext a
  apply Fin.ext
  match a with
  | ⟨0, _⟩ => show win0_3.index t (0 : Fin 3) * 1 + 1 * 0 = t.val; rw [e0]; omega
  | ⟨1, _⟩ => show win0_3.index t (1 : Fin 3) * 512 + 1 * g.val = g.val; rw [e1]; omega
  | ⟨2, _⟩ => show win0_3.index t (2 : Fin 3) * 1000 + 1 * n.val = n.val; rw [e2]; omega

theorem iblk4_apply (c : Dev nD) (t : Fin cfg0.N) (h o : Fin 256) :
    (iblk m c 4 t : Vec Ideal S256x256 .f32) (ix2 h o) = (V m c main_v3 : S256x256.Idx → EReal) (ix2 h o) := by
  obtain ⟨-, -, -, -, ⟨e0, e1⟩, -⟩ := idx_facts t
  unfold iblk
  rw [View.read_apply]
  show V m c main_v3 _ = _
  congr 1
  funext a
  apply Fin.ext
  match a with
  | ⟨0, _⟩ => show win0_4.index t (0 : Fin 2) * 256 + 1 * h.val = h.val; rw [e0]; omega
  | ⟨1, _⟩ => show win0_4.index t (1 : Fin 2) * 256 + 1 * o.val = o.val; rw [e1]; omega

theorem iblk5_apply (c : Dev nD) (t : Fin cfg0.N) (h o : Fin 256) :
    (iblk m c 5 t : Vec Ideal S256x256 .f32) (ix2 h o) = (V m c main_v5 : S256x256.Idx → EReal) (ix2 h o) := by
  obtain ⟨-, -, -, -, -, ⟨e0, e1⟩, -⟩ := idx_facts t
  unfold iblk
  rw [View.read_apply]
  show V m c main_v5 _ = _
  congr 1
  funext a
  apply Fin.ext
  match a with
  | ⟨0, _⟩ => show win0_5.index t (0 : Fin 2) * 256 + 1 * h.val = h.val; rw [e0]; omega
  | ⟨1, _⟩ => show win0_5.index t (1 : Fin 2) * 256 + 1 * o.val = o.val; rw [e1]; omega

theorem iblk6_apply (c : Dev nD) (t : Fin cfg0.N) (h o : Fin 256) :
    (iblk m c 6 t : Vec Ideal S256x256 .f32) (ix2 h o) = (V m c main_v4 : S256x256.Idx → EReal) (ix2 h o) := by
  obtain ⟨-, -, -, -, -, -, ⟨e0, e1⟩, -⟩ := idx_facts t
  unfold iblk
  rw [View.read_apply]
  show V m c main_v4 _ = _
  congr 1
  funext a
  apply Fin.ext
  match a with
  | ⟨0, _⟩ => show win0_6.index t (0 : Fin 2) * 256 + 1 * h.val = h.val; rw [e0]; omega
  | ⟨1, _⟩ => show win0_6.index t (1 : Fin 2) * 256 + 1 * o.val = o.val; rw [e1]; omega

theorem iblk7_apply (c : Dev nD) (t : Fin cfg0.N) (h o : Fin 256) :
    (iblk m c 7 t : Vec Ideal S256x256 .f32) (ix2 h o) = (V m c main_v6 : S256x256.Idx → EReal) (ix2 h o) := by
  obtain ⟨-, -, -, -, -, -, -, ⟨e0, e1⟩, -⟩ := idx_facts t
  unfold iblk
  rw [View.read_apply]
  show V m c main_v6 _ = _
  congr 1
  funext a
  apply Fin.ext
  match a with
  | ⟨0, _⟩ => show win0_7.index t (0 : Fin 2) * 256 + 1 * h.val = h.val; rw [e0]; omega
  | ⟨1, _⟩ => show win0_7.index t (1 : Fin 2) * 256 + 1 * o.val = o.val; rw [e1]; omega

end Cert.KernelIdeal.KA

end
-- ==== Proof.Nodes.lean ====
/-
  An index word as a node number.

  A 32-bit word whose signed reading lies in [0, 1000) is the word of a natural number below 1000: its unsigned reading.
-/
import Mathlib.Data.Fin.Basic
import Mathlib.Tactic.SplitIfs

namespace Cert.Nodes

/-- The unsigned reading of a word whose signed reading is in [0, 1000) is below 1000. -/
theorem toNat_lt (w : BitVec 32) (h : 0 ≤ w.toInt ∧ w.toInt < 1000) : w.toNat < 1000 := by
  have hw := w.isLt
  obtain ⟨h0, h1⟩ := h
  rw [BitVec.toInt_eq_toNat_cond] at h0 h1
  split_ifs at h0 h1 <;> omega

/-- The node a word in range names. -/
def nodeOf (w : BitVec 32) (h : 0 ≤ w.toInt ∧ w.toInt < 1000) : Fin 1000 := ⟨w.toNat, toNat_lt w h⟩

/-- The word is the word of its node's number. -/
theorem ofNat_nodeOf (w : BitVec 32) (h : 0 ≤ w.toInt ∧ w.toInt < 1000) : BitVec.ofNat 32 (nodeOf w h).val = w :=
  BitVec.eq_of_toNat_eq (by
    show (BitVec.ofNat 32 w.toNat).toNat = w.toNat
    rw [BitVec.toNat_ofNat]; exact Nat.mod_eq_of_lt w.isLt)

end Cert.Nodes
-- ==== Proof.KernelValue.lean ====
/-
  From the slab to the kernel's result array.

  At a grid point the body stores four slabs, rows 0–127, 128–255, 256–383 and 384–511 of the point's 512-row block; each is
  the slab function of the block's loads, so the block is one function of the point's input blocks, row by row. The point's
  input blocks are batch `t` of the arrays as the region finds them: the embeddings and distances as launched, the index
  words padded with 12 zero words and reshaped, the mask padded with 12 rows of `−∞`, the four weight matrices transposed.
  The output's blocks tile the 64 × 512 × 1000 array, and the program returns its first 500 rows of each batch.
-/
import proofs.«407836_j40321152975399_2_alg».proof.Proof.Gen.KernelIdeal.Frame
import proofs.«407836_j40321152975399_2_alg».proof.Proof.SlabValue
import proofs.«407836_j40321152975399_2_alg».proof.Proof.KernelArrays
import proofs.«407836_j40321152975399_2_alg».proof.Proof.Nodes
import Idealize.ShloMosaic.Lib.Pipeline.Value
import Idealize.ShloMosaic.Lib.ValueLayout
import Idealize.ShloMosaic.Lib.StableHlo.Run

set_option maxRecDepth 16384

noncomputable section

namespace Cert.KernelIdeal.KV

open Cert.KernelIdeal Cert.KernelIdeal.Gen Cert.KernelIdeal.Slab Idealize.ShloMosaic Idealize.ShloMosaic.ValueIdx
open Idealize.ShloMosaic.TcCoe Idealize.SL.Sem
open Idealize.ShloMosaic.Pipeline (Dat)

/-! ## The point's block as one function of its input blocks -/

/-- Row `g` of a point's 512-row block: the specification's row for the node `ℓb g`, over the point's input blocks. -/
def blockRows (x0 : Vec Ideal S1x1000x256 .f32) (x1 : Vec Ideal S1x1000x1000 .f32) (x3 : Vec Ideal S1x512x1000 .f32)
    (x4 x5 x6 x7 : Vec Ideal S256x256 .f32) (ℓb : Fin 512 → Fin 1000) : S1x512x1000.Idx → EReal := fun y =>
  Spec.rowOut (fun i h => x0 (ix3 (0 : Fin 1) i h)) (fun n => x1 (ix3 (0 : Fin 1) (ℓb (y 1)) n))
    (fun h => x0 (ix3 (0 : Fin 1) (ℓb (y 1)) h)) (fun n => x3 (ix3 (0 : Fin 1) (y 1) n))
    (fun o h => x4 (ix2 h o)) (fun o h => x5 (ix2 h o)) (fun o h => x6 (ix2 h o)) (fun o h => x7 (ix2 h o)) (y 2)

theorem hz3 : (![0, 0, 0] : Fin 3 → Nat) = fun _ => 0 := funext fun a => by fin_cases a <;> rfl
theorem hz2 : (![0, 0] : Fin 2 → Nat) = fun _ => 0 := funext fun a => by fin_cases a <;> rfl

/-- A coordinate of an index seen through a unit-stride rectangle: the rectangle's offset plus the local coordinate. -/
theorem unit_emb_val {s : Shape} (off size : Fin s.rank → Nat) (inb : ∀ a, off a + size a ≤ s.size a)
    (x : (Rect.unit (s := s) off size inb).shape.Idx) (a : Fin s.rank) :
    ((Rect.unit (s := s) off size inb).emb x a).val = off a + (x a).val := by
  simp only [Rect.emb_apply, Rect.off_unit, Rect.stride_unit, Nat.one_mul]

/-- The slab stored at row offset `o` is rows `o … o + 127` of `blockRows`. -/
theorem piece_apply (x0 : Vec Ideal S1x1000x256 .f32) (x1 : Vec Ideal S1x1000x1000 .f32) (x2 : Vec Ideal S1x512x1 .i32)
    (x3 : Vec Ideal S1x512x1000 .f32) (x4 x5 x6 x7 : Vec Ideal S256x256 .f32) (ℓb : Fin 512 → Fin 1000)
    (hℓ : ∀ i : S1x512x1.Idx, x2 i = BitVec.ofNat 32 (ℓb (i 1)).val)
    (hfin : ∀ k n : Fin 1000, x1 (ix3 (0 : Fin 1) k n) - x1 (ix3 (0 : Fin 1) k n) = 0)
    (o : Nat) (ho : o + 128 ≤ 512)
    (inbL : ∀ a, (![0, o, 0] : Fin 3 → Nat) a + S1x128x1.size a ≤ S1x512x1.size a)
    (inbM : ∀ a, (![0, o, 0] : Fin 3 → Nat) a + S1x128x1000.size a ≤ S1x512x1000.size a)
    (x : (Rect.unit (s := S1x512x1000) ![0, o, 0] S1x128x1000.size inbM).shape.Idx) :
    slabOf x0 x1 x4 x5 x6 x7 (View.ld x2 (Rect.unit (s := S1x512x1) ![0, o, 0] S1x128x1.size inbL))
        (View.ld x3 (Rect.unit (s := S1x512x1000) ![0, o, 0] S1x128x1000.size inbM)) x
      = blockRows x0 x1 x3 x4 x5 x6 x7 ℓb ((Rect.unit (s := S1x512x1000) ![0, o, 0] S1x128x1000.size inbM).emb x) := by
  obtain ⟨u, r, n, rfl⟩ : ∃ (u : Fin 1) (r : Fin 128) (n : Fin 1000), x = ix3 u r n := ⟨x 0, x 1, x 2, eq_ix3 x⟩
  have hr : o + r.val < 512 := by have := r.isLt; omega
  have e1 : ((Rect.unit (s := S1x512x1000) ![0, o, 0] S1x128x1000.size inbM).emb (ix3 u r n)) 1 = ⟨o + r.val, hr⟩ :=
    Fin.ext (by rw [unit_emb_val]; rfl)
  have e2 : ((Rect.unit (s := S1x512x1000) ![0, o, 0] S1x128x1000.size inbM).emb (ix3 u r n)) 2 = n :=
    Fin.ext (by rw [unit_emb_val]; exact Nat.zero_add _)
  have hl : View.ld x2 (Rect.unit (s := S1x512x1) ![0, o, 0] S1x128x1.size inbL) (ix3 (0 : Fin 1) r (0 : Fin 1))
      = BitVec.ofNat 32 (ℓb ⟨o + r.val, hr⟩).val := by
    show x2 ((Rect.unit (s := S1x512x1) ![0, o, 0] S1x128x1.size inbL).emb (ix3 (0 : Fin 1) r (0 : Fin 1))) = _
    rw [hℓ]
    have e : ((Rect.unit (s := S1x512x1) ![0, o, 0] S1x128x1.size inbL).emb (ix3 (0 : Fin 1) r (0 : Fin 1))) 1
        = ⟨o + r.val, hr⟩ := Fin.ext (by rw [unit_emb_val]; rfl)
    rw [e]
    rfl
  rw [slab_apply x0 x1 x4 x5 x6 x7 _ _ r (ℓb ⟨o + r.val, hr⟩) hl hfin u n]
  unfold blockRows
  rw [e1, e2]
  congr 1
  funext n'
  show x3 ((Rect.unit (s := S1x512x1000) ![0, o, 0] S1x128x1000.size inbM).emb (ix3 (0 : Fin 1) r n')) = x3 _
  congr 1
  funext a
  apply Fin.ext
  rw [unit_emb_val]
  match a with
  | ⟨0, _⟩ => rfl
  | ⟨1, _⟩ => rfl
  | ⟨2, _⟩ => exact Nat.zero_add _

/-- What the body leaves in the output's staging buffer: `blockRows` of the input blocks. -/
theorem out0_8_eq (x0 : Vec Ideal S1x1000x256 .f32) (x1 : Vec Ideal S1x1000x1000 .f32) (x2 : Vec Ideal S1x512x1 .i32)
    (x3 : Vec Ideal S1x512x1000 .f32) (x4 x5 x6 x7 : Vec Ideal S256x256 .f32) (ℓb : Fin 512 → Fin 1000)
    (hℓ : ∀ i : S1x512x1.Idx, x2 i = BitVec.ofNat 32 (ℓb (i 1)).val)
    (hfin : ∀ k n : Fin 1000, x1 (ix3 (0 : Fin 1) k n) - x1 (ix3 (0 : Fin 1) k n) = 0) :
    out0_8 (F := Ideal) x0 x1 x2 x3 x4 x5 x6 x7 = blockRows x0 x1 x3 x4 x5 x6 x7 ℓb := by
  funext y
  unfold out0_8
  simp only [View.ld_unit_zero (S := S1x1000x256) hz3, View.ld_unit_zero (S := S1x1000x1000) hz3,
    View.ld_unit_zero (S := S256x256) hz2]
  refine View.canon_apply_of_pieces (Val := Elt Ideal) (blockRows x0 x1 x3 x4 x5 x6 x7 ℓb) _ ?_ y (cover0_8 _ _ _ _ y)
  intro p hp
  simp only [List.mem_cons, List.mem_nil_iff, or_false] at hp
  rcases hp with rfl | rfl | rfl | rfl
  · intro x
    exact (congrFun (slab3_eq x0 x1 x4 x5 x6 x7 _ _) x).trans
      (piece_apply x0 x1 x2 x3 x4 x5 x6 x7 ℓb hℓ hfin 384 (by omega) _ _ x)
  · intro x
    exact (congrFun (slab2_eq x0 x1 x4 x5 x6 x7 _ _) x).trans
      (piece_apply x0 x1 x2 x3 x4 x5 x6 x7 ℓb hℓ hfin 256 (by omega) _ _ x)
  · intro x
    exact (congrFun (slab1_eq x0 x1 x4 x5 x6 x7 _ _) x).trans
      (piece_apply x0 x1 x2 x3 x4 x5 x6 x7 ℓb hℓ hfin 128 (by omega) _ _ x)
  · intro x
    exact piece_apply x0 x1 x2 x3 x4 x5 x6 x7 ℓb hℓ hfin 0 (by omega) _ _ x

/-! ## The result array -/

section Run

variable (m : (ℓ : Loc nD τ sig) → Buf (Elt Ideal) ℓ) (ρ : Dev nD → PrngReg)

/-- The hypothesis on the index words: read signed, each lies in [0, 1000). -/
abbrev WordsInRange : Prop := ∀ (c : Dev nD) (i : S64x500.Idx),
  0 ≤ ((m ((c : Thread nD τ).loc main_arg2) : S64x500.Idx → BitVec 32) i).toInt
    ∧ ((m ((c : Thread nD τ).loc main_arg2) : S64x500.Idx → BitVec 32) i).toInt < 1000

/-- The hypothesis on the distances: each is a real number. -/
abbrev DistsReal : Prop := ∀ (c : Dev nD) (i : S64x1000x1000.Idx),
  ∃ r : ℝ, (m ((c : Thread nD τ).loc main_arg1) : S64x1000x1000.Idx → EReal) i = (r : EReal)

/-- The node the index word of row `(b, g)` names. -/
def node (hL : WordsInRange m) (c : Dev nD) (b : Fin 64) (g : Fin 500) : Fin 1000 :=
  Nodes.nodeOf ((m ((c : Thread nD τ).loc main_arg2) : S64x500.Idx → BitVec 32) (ix2 b g)) (hL c (ix2 b g))

/-- The same over the 512 padded rows: a padding row's word is zero and names node 0. -/
def nodeP (hL : WordsInRange m) (c : Dev nD) (b : Fin 64) (g : Fin 512) : Fin 1000 :=
  if h : g.val < 500 then node m hL c b ⟨g.val, h⟩ else 0

theorem word_nodeP (hL : WordsInRange m) (c : Dev nD) (b : Fin 64) (g : Fin 512) (z : Fin 1) :
    (V m c main_v1 : S64x512x1.Idx → BitVec 32) (ix3 b g z) = BitVec.ofNat 32 (nodeP m hL c b g).val := by
  rw [KA.v1_apply]
  unfold nodeP
  by_cases h : g.val < 500
  · rw [dif_pos h, dif_pos h]; exact (Nodes.ofNat_nodeOf _ _).symm
  · rw [dif_neg h, dif_neg h]; rfl

/-- The 64 × 512 × 1000 array the region leaves: row `(b, g)` is the specification's row for the node its (padded) word
    names, over batch `b`'s embeddings and distances and the (padded) mask row. -/
def padded (hL : WordsInRange m) (c : Dev nD) : S64x512x1000.Idx → EReal := fun i =>
  Spec.rowOut (fun k h => (m ((c : Thread nD τ).loc main_arg0) : S64x1000x256.Idx → EReal) (ix3 (i 0) k h))
    (fun n => (m ((c : Thread nD τ).loc main_arg1) : S64x1000x1000.Idx → EReal) (ix3 (i 0) (nodeP m hL c (i 0) (i 1)) n))
    (fun h => (m ((c : Thread nD τ).loc main_arg0) : S64x1000x256.Idx → EReal) (ix3 (i 0) (nodeP m hL c (i 0) (i 1)) h))
    (fun n => (V m c main_v2 : S64x512x1000.Idx → EReal) (ix3 (i 0) (i 1) n))
    (fun o h => (m ((c : Thread nD τ).loc main_arg4) : S256x256.Idx → EReal) (ix2 o h))
    (fun o h => (m ((c : Thread nD τ).loc main_arg6) : S256x256.Idx → EReal) (ix2 o h))
    (fun o h => (m ((c : Thread nD τ).loc main_arg5) : S256x256.Idx → EReal) (ix2 o h))
    (fun o h => (m ((c : Thread nD τ).loc main_arg7) : S256x256.Idx → EReal) (ix2 o h)) (i 2)

/-- What grid point `t` writes back is block `t` of `padded`. -/
theorem flushed_eq (hL : WordsInRange m) (hD : DistsReal m) (c : Dev nD) (t : Fin cfg0.N) :
    (dats m 0 c).flushed 8 t = ((cfg0.win 8).blk t).view.read (Elt Ideal) (padded m hL c) := by
  show (cfg0.win 8).cut (grid0.coords t) ((dats m 0 c).after 8 t) = _
  rw [after0_8]
  rw [out0_8_eq (iblk m c 0 t) (iblk m c 1 t) (iblk m c 2 t) (iblk m c 3 t) (iblk m c 4 t) (iblk m c 5 t) (iblk m c 6 t)
    (iblk m c 7 t) (fun g => nodeP m hL c (KA.batch t) g)
    (fun i => by
      rw [KA.iblk2_apply]
      exact word_nodeP m hL c (KA.batch t) (i 1) (i 2))
    (fun k n => by
      rw [KA.iblk1_apply]
      obtain ⟨r, hr⟩ := hD c (ix3 (KA.batch t) k n)
      rw [hr, ← EReal.coe_sub, sub_self, EReal.coe_zero])]
  funext j
  show blockRows (iblk m c 0 t) (iblk m c 1 t) (iblk m c 3 t) (iblk m c 4 t) (iblk m c 5 t) (iblk m c 6 t) (iblk m c 7 t)
      (fun g => nodeP m hL c (KA.batch t) g) j = padded m hL c (((cfg0.win 8).blk t).view.emb j)
  obtain ⟨-, -, -, -, -, -, -, -, ⟨e0, e1, e2⟩⟩ := KA.idx_facts t
  have hj0 : (j 0).val = 0 := by have h : (j 0).val < 1 := (j 0).isLt; omega
  have f0 : (((cfg0.win 8).blk t).view.emb j) 0 = KA.batch t := Fin.ext (by
    show win0_8.index t (0 : Fin 3) * 1 + 1 * (j 0).val = t.val; rw [e0, hj0]; omega)
  have f1 : (((cfg0.win 8).blk t).view.emb j) 1 = j 1 := Fin.ext (by
    show win0_8.index t (1 : Fin 3) * 512 + 1 * (j 1).val = (j 1).val; rw [e1]; omega)
  have f2 : (((cfg0.win 8).blk t).view.emb j) 2 = j 2 := Fin.ext (by
    show win0_8.index t (2 : Fin 3) * 1000 + 1 * (j 2).val = (j 2).val; rw [e2]; omega)
  unfold blockRows padded
  rw [f0, f1, f2]
  congr 1
  · funext i h; exact KA.iblk0_apply m c t i h
  · funext n; exact KA.iblk1_apply m c t _ n
  · funext h; exact KA.iblk0_apply m c t _ h
  · funext n; exact KA.iblk3_apply m c t (j 1) n
  · funext o h; exact (KA.iblk4_apply m c t h o).trans (KA.v3_apply m c h o)
  · funext o h; exact (KA.iblk5_apply m c t h o).trans (KA.v5_apply m c h o)
  · funext o h; exact (KA.iblk6_apply m c t h o).trans (KA.v4_apply m c h o)
  · funext o h; exact (KA.iblk7_apply m c t h o).trans (KA.v6_apply m c h o)

/-- An index of the array is in point `t`'s block iff each coordinate is in the block's range on its axis. -/
theorem mem_blk8 (t : Fin cfg0.N) (i : S64x512x1000.Idx) :
    i ∈ ((cfg0.win 8).blk t).view.set ↔ ∀ a : Fin 3, win0_8.index t a * S1x512x1000.size a ≤ (i a).val
      ∧ (i a).val < win0_8.index t a * S1x512x1000.size a + S1x512x1000.size a := by
  show i ∈ ((View.whole main_v7).slice (win0_8.rect t)).set ↔ _
  rw [View.set_slice_whole, Rect.mem_set_unit]
  exact Iff.rfl

/-- The 64 blocks cover the array: row `b` of the first axis lies in point `b`'s block. -/
theorem cover8 (i : S64x512x1000.Idx) :
    ∃ t : Fin cfg0.N, (cfg0.win 8).flush t = true ∧ i ∈ ((cfg0.win 8).blk t).view.set := by
  have h0 : (i 0).val < 64 := (i 0).isLt
  have h1 : (i 1).val < 512 := (i 1).isLt
  have h2 : (i 2).val < 1000 := (i 2).isLt
  have hN := KA.N_eq
  obtain ⟨t, ht⟩ : ∃ t : Fin cfg0.N, t.val = (i 0).val := ⟨⟨(i 0).val, by omega⟩, rfl⟩
  refine ⟨t, flush0_8 t, ?_⟩
  rw [mem_blk8]
  obtain ⟨-, -, -, -, -, -, -, -, ⟨e0, e1, e2⟩⟩ := KA.idx_facts t
  intro a
  match a with
  | ⟨0, _⟩ =>
    show win0_8.index t (0 : Fin 3) * 1 ≤ (i 0).val ∧ (i 0).val < win0_8.index t (0 : Fin 3) * 1 + 1
    rw [e0]; omega
  | ⟨1, _⟩ =>
    show win0_8.index t (1 : Fin 3) * 512 ≤ (i 1).val ∧ (i 1).val < win0_8.index t (1 : Fin 3) * 512 + 512
    rw [e1]; omega
  | ⟨2, _⟩ =>
    show win0_8.index t (2 : Fin 3) * 1000 ≤ (i 2).val ∧ (i 2).val < win0_8.index t (2 : Fin 3) * 1000 + 1000
    rw [e2]; omega

/-- The array after the run. -/
theorem final8 (hL : WordsInRange m) (hD : DistsReal m) (c : Dev nD) : (dats m 0 c).arrAt 8 cfg0.N = padded m hL c :=
  (dats m 0 c).arrAt_eq_of_cover 8 (padded m hL c) (fun t _ => flushed_eq m hL hD c t) cover8

/-- The program's result: the first 500 rows of each batch of the array the region leaves. -/
theorem tail_v8 (hL : WordsInRange m) (hD : DistsReal m) (c : Dev nD) :
    Pipeline.afterTail₀ cfgs (dats m) 0 (V0 m) [hostOps1] c main_v8
      = extractStridedSlice S64x500x1000 ![0, 0, 0] (padded m hL c) slices_S64x512x1000_S64x500x1000_0_0_0 := by
  unfold Pipeline.afterTail₀
  show StableHlo.after hostOps1 _ (Proc.devRef .tc main_v8) = _
  after_results
  exact congrArg (fun x => extractStridedSlice S64x500x1000 ![0, 0, 0] x slices_S64x512x1000_S64x500x1000_0_0_0)
    ((Pipeline.withArrays_arr spec0 launch0.win.arr_inj c (V0 m c) (fun w => (dats m 0 c).arrAt w cfg0.N) 8).trans
      (final8 m hL hD c))

/-- … which is the specification's result. -/
theorem slice_padded (hL : WordsInRange m) (c : Dev nD) :
    extractStridedSlice S64x500x1000 ![0, 0, 0] (padded m hL c) slices_S64x512x1000_S64x500x1000_0_0_0
      = Spec.result (m ((c : Thread nD τ).loc main_arg0)) (m ((c : Thread nD τ).loc main_arg1)) (node m hL c)
          (m ((c : Thread nD τ).loc main_arg3)) (m ((c : Thread nD τ).loc main_arg4)) (m ((c : Thread nD τ).loc main_arg5))
          (m ((c : Thread nD τ).loc main_arg6)) (m ((c : Thread nD τ).loc main_arg7)) := by
  funext i
  obtain ⟨b, g, n, rfl⟩ : ∃ (b : Fin 64) (g : Fin 500) (n : Fin 1000), i = ix3 b g n := ⟨i 0, i 1, i 2, eq_ix3 i⟩
  have hg : g.val < 512 := by have := g.isLt; omega
  rw [extractStridedSlice_apply _ _ _ (ix3 b g n) (ix3 b (⟨g.val, hg⟩ : Fin 512) n) (fun a => by
    match a with
    | ⟨0, _⟩ => show b.val = 0 + b.val; omega
    | ⟨1, _⟩ => show g.val = 0 + g.val; omega
    | ⟨2, _⟩ => show n.val = 0 + n.val; omega)]
  unfold padded Spec.result
  have hn : nodeP m hL c b ⟨g.val, hg⟩ = node m hL c b g := by unfold nodeP; rw [dif_pos g.isLt]
  show Spec.rowOut _ _ _ _ _ _ _ _ n = Spec.rowOut _ _ _ _ _ _ _ _ n
  rw [hn]
  congr 1
  funext n'
  exact KA.v2_apply m c b g n'

/-- The run: the result at the specification's value, the arguments unchanged. -/
theorem run (hL : WordsInRange m) (hD : DistsReal m) :
    θ_run defs (onTc (τ := τ) (main (F := Ideal))) ⟨m, fun _ => 0, ρ⟩ fun r => ∀ c : Dev nD,
      r.2.mem ((c.tc : Thread nD τ).loc main_v8)
        = Spec.result (m ((c : Thread nD τ).loc main_arg0)) (m ((c : Thread nD τ).loc main_arg1)) (node m hL c)
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v8 (Pipeline.mem_restRefs_of main_v8 (by decide) (by decide))).trans
        ((tail_v8 m hL hD c).trans (slice_padded m hL c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Run

end Cert.KernelIdeal.KV

end
-- ==== Proof.lean ====
/-
  The certificate's claim: the attention kernel and its reference compute the same softmax rows.

  Under the precondition — every float input finite, and every index word in [0, 1000) — both programs end with, at row
  `(b, g)`, the softmax over the 1000 nodes of `10 · tanh(⟨q, E n⟩/16 − D ℓ n · c) + maskProb(M n)`, where ℓ is the node
  the row's index word names and the query `q` is the sum of four linear heads (Proof/Spec.lean). The kernel reaches the row
  of node ℓ by a product with a one-hot row, the reference by a gather; the kernel splits the distances into two halves whose
  second is `d − d = 0` on real distances; the kernel multiplies the pooled sum by the named 1/1000 where the reference divides
  by 1000. The kernel's side is Proof/KernelValue.lean (over the slab read in Proof/SlabValue.lean), the reference's side
  Proof/RefIsSpec.lean over its run in Proof/RefStages.lean, the precondition read back in Proof/PreFacts.lean.
-/
import proofs.«407836_j40321152975399_2_alg».proof.Defs
import proofs.«407836_j40321152975399_2_alg».proof.Proof.Gen.Kernel
import proofs.«407836_j40321152975399_2_alg».proof.Proof.Gen.Kernel.Skeleton
import proofs.«407836_j40321152975399_2_alg».proof.Proof.Gen.Kernel.Launch
import proofs.«407836_j40321152975399_2_alg».proof.Proof.Gen.Kernel.Points
import proofs.«407836_j40321152975399_2_alg».proof.Proof.Gen.Kernel.Frame
import proofs.«407836_j40321152975399_2_alg».proof.Proof.Gen.KernelIdeal
import proofs.«407836_j40321152975399_2_alg».proof.Proof.Gen.KernelIdeal.Skeleton
import proofs.«407836_j40321152975399_2_alg».proof.Proof.Gen.KernelIdeal.Launch
import proofs.«407836_j40321152975399_2_alg».proof.Proof.Gen.KernelIdeal.Points
import proofs.«407836_j40321152975399_2_alg».proof.Proof.Gen.KernelIdeal.Frame
import proofs.«407836_j40321152975399_2_alg».proof.Proof.Gen.ReferenceIdeal
import proofs.«407836_j40321152975399_2_alg».proof.Proof.Gen.Pre_finite_inputs
import proofs.«407836_j40321152975399_2_alg».proof.Proof.RefRun
import proofs.«407836_j40321152975399_2_alg».proof.Proof.RefRead
import proofs.«407836_j40321152975399_2_alg».proof.Proof.RefStages
import proofs.«407836_j40321152975399_2_alg».proof.Proof.RefIsSpec
import proofs.«407836_j40321152975399_2_alg».proof.Proof.PreFacts
import proofs.«407836_j40321152975399_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- The idealization's five rewrites: the bf16 round trip of the distances is the identity on the extended reals, and
    the four occurrences of the constant named `inv_1000` denote the real 1/1000. -/
theorem preserves : Cert.preserves_Kernel_KernelIdeal :=
  ⟨IdealRules.truncf_extf.statement Cert.KernelIdeal.S1000x1000 .f32 .bf16,
    IdealRules.named_const.statement Cert.KernelIdeal.κ "inv_1000" .f32 0x3A83126F#32 ((1 / 1000 : ℝ) : EReal) rfl,
    IdealRules.named_const.statement Cert.KernelIdeal.κ "inv_1000" .f32 0x3A83126F#32 ((1 / 1000 : ℝ) : EReal) rfl,
    IdealRules.named_const.statement Cert.KernelIdeal.κ "inv_1000" .f32 0x3A83126F#32 ((1 / 1000 : ℝ) : EReal) rfl,
    IdealRules.named_const.statement Cert.KernelIdeal.κ "inv_1000" .f32 0x3A83126F#32 ((1 / 1000 : ℝ) : EReal) rfl⟩

/-- Both idealized programs end at the specification's result of the arguments. -/
theorem algebraic : Cert.algebraic_KernelIdeal_ReferenceIdeal := by
  intro m ρ m' ρ' hpre hagree
  have hL : Cert.KernelIdeal.KV.WordsInRange m := fun c i => (Cert.PreFacts.of_pre _ _ _ _ _ _ _ _ (hpre c)).2 i
  have hD : Cert.KernelIdeal.KV.DistsReal m := fun c i => (Cert.PreFacts.of_pre _ _ _ _ _ _ _ _ (hpre c)).1 i
  refine ⟨_, Cert.KernelIdeal.KV.run m ρ hL hD, ?_⟩
  refine (θ_run Cert.ReferenceIdeal.defs _ _).mono (fun _ h c => ⟨(h c).1.trans ?_, (h c).2⟩)
    (Cert.ReferenceIdeal.Stages.run (F := Ideal) m' ρ')
  obtain ⟨a0, a1, a2, a3, a4, a5, a6, a7⟩ := hagree c
  rw [a0, a1, a2, a3, a4, a5, a6, a7]
  exact Cert.RefSpec.ref_eq _ _ _ _ _ _ _ _ (Cert.KernelIdeal.KV.node m hL c)
    (fun b g => (Cert.Nodes.ofNat_nodeOf _ _).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
